-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x4 : Shape := ⟨3, ![8, 4, 4]⟩
abbrev S8x4096x3 : Shape := ⟨3, ![8, 4096, 3]⟩
abbrev S_ : Shape := ⟨0, ![]⟩

class Facts : Prop where
  bcast_S_S8x4x4 : S_.BroadcastsInDim S8x4x4 (![] : Fin 0 → Fin S8x4x4.rank)
  reducesTo_S8x4x4_S_d0_1_2 : S8x4x4.ReducesTo [0, 1, 2] S_
  h_S_ : 0 < S_.numel
  bcast_S_S8x4096x3 : S_.BroadcastsInDim S8x4096x3 (![] : Fin 0 → Fin S8x4096x3.rank)
  reducesTo_S8x4096x3_S_d0_1_2 : S8x4096x3.ReducesTo [0, 1, 2] S_

variable [Facts]

def fn_part1 {F : FTy → Type} [FloatOps F] (main_v13 : IVec S_ 1) (main_v16 : IVec S8x4096x3 1) : IVec S_ 1 :=
  let main_c_5 : IVec S_ 1 := constantI S_ 1 1#1
  let main_v17 : IVec S_ 1 := (fun x v => Host.reduce IntOp.andi x v reducesTo_S8x4096x3_S_d0_1_2 h_S_) main_v16 main_c_5
  let main_v18 : IVec S_ 1 := andi main_v13 main_v17
  main_v18

def fn {F : FTy → Type} [FloatOps F] (main_arg0 : FVec F S8x4x4 .f32) (main_arg1 : FVec F S8x4x4 .f32) (main_arg2 : FVec F S8x4096x3 .f32) (main_arg3 : FVec F S8x4096x3 .f32) : IVec S_ 1 :=
  let main_v0 : FVec F S8x4x4 .f32 := Host.absf main_arg0
  let main_cst : FVec F S_ .f32 := constant S_ .f32 0x7F800000#32
  let main_v1 : FVec F S8x4x4 .f32 := broadcastInDim S8x4x4 ![] bcast_S_S8x4x4 main_cst
  let main_v2 : IVec S8x4x4 1 := cmpf .olt main_v0 main_v1
  let main_c : IVec S_ 1 := constantI S_ 1 1#1
  let main_v3 : IVec S_ 1 := (fun x v => Host.reduce IntOp.andi x v reducesTo_S8x4x4_S_d0_1_2 h_S_) main_v2 main_c
  let main_v4 : FVec F S8x4x4 .f32 := Host.absf main_arg1
  let main_cst_0 : FVec F S_ .f32 := constant S_ .f32 0x7F800000#32
  let main_v5 : FVec F S8x4x4 .f32 := broadcastInDim S8x4x4 ![] bcast_S_S8x4x4 main_cst_0
  let main_v6 : IVec S8x4x4 1 := cmpf .olt main_v4 main_v5
  let main_c_1 : IVec S_ 1 := constantI S_ 1 1#1
  let main_v7 : IVec S_ 1 := (fun x v => Host.reduce IntOp.andi x v reducesTo_S8x4x4_S_d0_1_2 h_S_) main_v6 main_c_1
  let main_v8 : IVec S_ 1 := andi main_v3 main_v7
  let main_v9 : FVec F S8x4096x3 .f32 := Host.absf main_arg2
  let main_cst_2 : FVec F S_ .f32 := constant S_ .f32 0x7F800000#32
  let main_v10 : FVec F S8x4096x3 .f32 := broadcastInDim S8x4096x3 ![] bcast_S_S8x4096x3 main_cst_2
  let main_v11 : IVec S8x4096x3 1 := cmpf .olt main_v9 main_v10
  let main_c_3 : IVec S_ 1 := constantI S_ 1 1#1
  let main_v12 : IVec S_ 1 := (fun x v => Host.reduce IntOp.andi x v reducesTo_S8x4096x3_S_d0_1_2 h_S_) main_v11 main_c_3
  let main_v13 : IVec S_ 1 := andi main_v8 main_v12
  let main_v14 : FVec F S8x4096x3 .f32 := Host.absf main_arg3
  let main_cst_4 : FVec F S_ .f32 := constant S_ .f32 0x7F800000#32
  let main_v15 : FVec F S8x4096x3 .f32 := broadcastInDim S8x4096x3 ![] bcast_S_S8x4096x3 main_cst_4
  let main_v16 : IVec S8x4096x3 1 := cmpf .olt main_v14 main_v15
  fn_part1 (F := F) main_v13 main_v16
-- ==== Kernel.lean ====
abbrev S8x4x4 : Shape := ⟨3, ![8, 4, 4]⟩
abbrev S8x4096x3 : Shape := ⟨3, ![8, 4096, 3]⟩
abbrev S_ : Shape := ⟨0, ![]⟩
abbrev S8x4096x1 : Shape := ⟨3, ![8, 4096, 1]⟩
abbrev S8x4096x4 : Shape := ⟨3, ![8, 4096, 4]⟩
abbrev S8x1 : Shape := ⟨2, ![8, 1]⟩
abbrev S8x256x3 : Shape := ⟨3, ![8, 256, 3]⟩
abbrev S8x4096 : Shape := ⟨2, ![8, 4096]⟩
abbrev S8x256 : Shape := ⟨2, ![8, 256]⟩
abbrev S8x256x256 : Shape := ⟨3, ![8, 256, 256]⟩
abbrev S8x256x1 : Shape := ⟨3, ![8, 256, 1]⟩
abbrev S8x1x256 : Shape := ⟨3, ![8, 1, 256]⟩
abbrev S8 : Shape := ⟨1, ![8]⟩
abbrev S8x3x3 : Shape := ⟨3, ![8, 3, 3]⟩
abbrev S8x3x1 : Shape := ⟨3, ![8, 3, 1]⟩
abbrev S8x3 : Shape := ⟨2, ![8, 3]⟩
abbrev S1 : Shape := ⟨1, ![1]⟩
abbrev S4 : Shape := ⟨1, ![4]⟩

abbrev nBuf : Space → Nat
  | .hbm => 58
  | .vmem => 12
  | .smem => 0
  | _ => 0

abbrev bufTy : (tb : Table) → Fin (tcTables nBuf tb) → BufTy
  | .hbm, ⟨0, _⟩ => ⟨S8x4x4, .f32⟩
  | .hbm, ⟨1, _⟩ => ⟨S8x4x4, .f32⟩
  | .hbm, ⟨2, _⟩ => ⟨S8x4096x3, .f32⟩
  | .hbm, ⟨3, _⟩ => ⟨S8x4096x3, .f32⟩
  | .hbm, ⟨4, _⟩ => ⟨S_, .f32⟩
  | .hbm, ⟨5, _⟩ => ⟨S8x4096x1, .f32⟩
  | .hbm, ⟨6, _⟩ => ⟨S8x4096x4, .f32⟩
  | .hbm, ⟨7, _⟩ => ⟨S8x4096x4, .f32⟩
  | .hbm, ⟨8, _⟩ => ⟨S8x4096x3, .f32⟩
  | .hbm, ⟨9, _⟩ => ⟨S8x4096x4, .f32⟩
  | .hbm, ⟨10, _⟩ => ⟨S8x4096x3, .f32⟩
  | .hbm, ⟨11, _⟩ => ⟨S8x1, .f32⟩
  | .hbm, ⟨12, _⟩ => ⟨S8x1, .f32⟩
  | .hbm, ⟨13, _⟩ => ⟨S8, .f32⟩
  | .hbm, ⟨14, _⟩ => ⟨S8, .f32⟩
  | .hbm, ⟨15, _⟩ => ⟨S8x3x3, .f32⟩
  | .hbm, ⟨16, _⟩ => ⟨S8x3x3, .f32⟩
  | .hbm, ⟨17, _⟩ => ⟨S8x3x3, .f32⟩
  | .hbm, ⟨18, _⟩ => ⟨S8x3x1, .f32⟩
  | .hbm, ⟨19, _⟩ => ⟨S8x3, .f32⟩
  | .hbm, ⟨20, _⟩ => ⟨S8x3x1, .f32⟩
  | .hbm, ⟨21, _⟩ => ⟨S8x3, .f32⟩
  | .hbm, ⟨22, _⟩ => ⟨S8x3, .f32⟩
  | .hbm, ⟨23, _⟩ => ⟨S8x3x3, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8x3, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1, .f32⟩
  | .hbm, ⟨54, _⟩ => ⟨S1, .f32⟩
  | .hbm, ⟨55, _⟩ => ⟨S1, .f32⟩
  | .hbm, ⟨56, _⟩ => ⟨S1, .f32⟩
  | .hbm, ⟨57, _⟩ => ⟨S4, .f32⟩
  | .local _ .vmem, ⟨0, _⟩ => ⟨S8x256x3, .f32⟩
  | .local _ .vmem, ⟨1, _⟩ => ⟨S8x256x3, .f32⟩
  | .local _ .vmem, ⟨2, _⟩ => ⟨S8x256x3, .f32⟩
  | .local _ .vmem, ⟨3, _⟩ => ⟨S8x256x3, .f32⟩
  | .local _ .vmem, ⟨4, _⟩ => ⟨S8x256x3, .f32⟩
  | .local _ .vmem, ⟨5, _⟩ => ⟨S8x256x3, .f32⟩
  | .local _ .vmem, ⟨6, _⟩ => ⟨S8x1, .f32⟩
  | .local _ .vmem, ⟨7, _⟩ => ⟨S8x1, .f32⟩
  | .local _ .vmem, ⟨8, _⟩ => ⟨S8x4096, .f32⟩
  | .local _ .vmem, ⟨9, _⟩ => ⟨S8x4096, .f32⟩
  | .local _ .vmem, ⟨10, _⟩ => ⟨S8x4096, .f32⟩
  | .local _ .vmem, ⟨11, _⟩ => ⟨S8x4096, .f32⟩
  | _, _ => ⟨S8x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg0 : BitVec 32 := BitVec.ofNat 32 (i 0).val
  let c256_i32 : BitVec 32 := 256#32
  let v38 : BitVec 32 := Scalar.muli arg0 c256_i32
  v38
def k0_mult2 (i : grid0.Coords) : BitVec 32 :=
  let arg1 : BitVec 32 := BitVec.ofNat 32 (i 1).val
  let c256_i32_20 : BitVec 32 := 256#32
  let v40 : BitVec 32 := Scalar.muli arg1 c256_i32_20
  v40
def k0_off1 (i : grid0.Coords) : Fin 2 → Nat :=
  let c0_21 : Index := 0#32
  let arg0 : BitVec 32 := BitVec.ofNat 32 (i 0).val
  let c256_i32 : BitVec 32 := 256#32
  let v38 : BitVec 32 := Scalar.muli arg0 c256_i32
  let v39 : BitVec 32 := v38
  let v42 : Index := Scalar.indexCast v39
  ![0, v42.toNat]
def k0_off2 (i : grid0.Coords) : Fin 2 → Nat :=
  let c0_25 : Index := 0#32
  let arg1 : BitVec 32 := BitVec.ofNat 32 (i 1).val
  let c256_i32_20 : BitVec 32 := 256#32
  let v40 : BitVec 32 := Scalar.muli arg1 c256_i32_20
  let v41 : BitVec 32 := v40
  let v56 : Index := Scalar.indexCast v41
  ![0, v56.toNat]
def k0_cond2 (i : grid0.Coords) : BitVec 1 :=
  let arg0 : BitVec 32 := BitVec.ofNat 32 (i 0).val
  let c15_i32 : BitVec 32 := 15#32
  let v70 : BitVec 1 := Scalar.cmpi .eq arg0 c15_i32
  let arg1 : BitVec 32 := BitVec.ofNat 32 (i 1).val
  let c15_i32_29 : BitVec 32 := 15#32
  let v71 : BitVec 1 := Scalar.cmpi .eq arg1 c15_i32_29
  let v72 : BitVec 1 := Scalar.andi v70 v71
  let v73 : BitVec 32 := Scalar.extui v72
  let c0_i32_30 : BitVec 32 := 0#32
  let v74 : BitVec 1 := Scalar.cmpi .ne v73 c0_i32_30
  v74

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  slices_S8x4096x4_S8x4096x3_0_0_0 : S8x4096x4.Slices ![0, 0, 0] S8x4096x3
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S8x256x3_S8x256x3_0_0_0 : ∀ a, (![0, 0, 0] : Fin 3 → Nat) a + S8x256x3.size a ≤ S8x256x3.size a
  h_S8x256x3 : 0 < S8x256x3.numel
  shapeCasts_S8x256x3_S8x256x3 : S8x256x3.ShapeCasts S8x256x3
  reduces_S8x256x3_S8x256 : S8x256x3.Reduces [2] S8x256
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  reduces_S8x256x256_S8x256 : S8x256x256.Reduces [2] S8x256
  reduces_S8x256x256_S8x256_2 : S8x256x256.Reduces [1] S8x256
  h_S8x256 : 0 < S8x256.numel
  shapeCasts_S8x256_S8x256 : S8x256.ShapeCasts S8x256
  reduces_S8x4096_S8 : S8x4096.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  shapeCasts_S8x1_S8 : S8x1.ShapeCasts S8
  slices_S8x4x4_S8x3x3_0_0_0 : S8x4x4.Slices ![0, 0, 0] S8x3x3
  slices_S8x4x4_S8x3x1_0_0_3 : S8x4x4.Slices ![0, 0, 3] S8x3x1
  shapeCasts_S8x3x1_S8x3 : S8x3x1.ShapeCasts S8x3
  reducesTo_S8x3x3_S8_d1_2 : S8x3x3.ReducesTo [1, 2] S8
  h_S_ : 0 < S_.numel
  reducesTo_S8x3_S8_d1 : S8x3.ReducesTo [1] S8
  bcast_S_S8 : S_.BroadcastsInDim S8 (![] : Fin 0 → Fin S8.rank)
  reducesTo_S8_S_d0 : S8.ReducesTo [0] S_
  bcast_S_S1 : S_.BroadcastsInDim S1 (![] : Fin 0 → Fin S1.rank)
  concatenates_S1_S1_S1_S1_S4_d0 : Shape.Concatenates [S1, S1, S1, S1] S4 0
  dot_S8x4096x4_S8x4x4_S8x4096x4_2_2_1_1_0_0_wf : DotDims.WF S8x4096x4 S8x4x4 S8x4096x4 [2] [2] [1] [1] [0] [0]
  dot_S8x256x3_S8x256x3_S8x256x256_2_2_1_1_0_0_wf : DotDims.WF S8x256x3 S8x256x3 S8x256x256 [2] [2] [1] [1] [0] [0]
  hrank0 : 0 < grid0.rank
  k0_mult1_dvd : ∀ i : grid0.Coords, 256 ∣ (k0_mult1 i).toNat
  k0_mult2_dvd : ∀ i : grid0.Coords, 256 ∣ (k0_mult2 i).toNat
  k0_off1_inb : ∀ i : grid0.Coords, ∀ a, (k0_off1 i) a + S8x256.size a ≤ S8x4096.size a
  k0_off2_inb : ∀ i : grid0.Coords, ∀ a, (k0_off2 i) a + S8x256.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x3.size a ≤ S8x4096x3.size a
  hwx0_0 : ∀ i : grid0.Coords, EltTy.bits .f32 = 32 ∨ (Rect.block (s := S8x4096x3) S8x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x3.size a ≤ S8x4096x3.size a
  hwx0_1 : ∀ i : grid0.Coords, EltTy.bits .f32 = 32 ∨ (Rect.block (s := S8x4096x3) S8x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x3.size a ≤ S8x4096x3.size a
  hwx0_2 : ∀ i : grid0.Coords, EltTy.bits .f32 = 32 ∨ (Rect.block (s := S8x4096x3) S8x256x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .f32 = 32 ∨ (Rect.block (s := S8x1) S8x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)

variable [Facts₀]

def dot_S8x4096x4_S8x4x4_S8x4096x4_2_2_1_1_0_0 : DotDims S8x4096x4 S8x4x4 S8x4096x4 where
  lhsContracting := [2]
  rhsContracting := [2]
  lhsNonContracting := [1]
  rhsNonContracting := [1]
  lhsBatch := [0]
  rhsBatch := [0]
  wf := dot_S8x4096x4_S8x4x4_S8x4096x4_2_2_1_1_0_0_wf
def dot_S8x256x3_S8x256x3_S8x256x256_2_2_1_1_0_0 : DotDims S8x256x3 S8x256x3 S8x256x256 where
  lhsContracting := [2]
  rhsContracting := [2]
  lhsNonContracting := [1]
  rhsNonContracting := [1]
  lhsBatch := [0]
  rhsBatch := [0]
  wf := dot_S8x256x3_S8x256x3_S8x256x256_2_2_1_1_0_0_wf

abbrev win0_0 : Pipeline.Window sig grid0 :=
  Pipeline.Window.ofSpec (Memref.whole main_v3) S8x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x256x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S8x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S8x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x4x4 : Shape := ⟨3, ![8, 4, 4]⟩
abbrev S8x4096x3 : Shape := ⟨3, ![8, 4096, 3]⟩
abbrev S_ : Shape := ⟨0, ![]⟩
abbrev S8x4096x1 : Shape := ⟨3, ![8, 4096, 1]⟩
abbrev S8x4096x4 : Shape := ⟨3, ![8, 4096, 4]⟩
abbrev S8x4096 : Shape := ⟨2, ![8, 4096]⟩
abbrev S8x1x4096 : Shape := ⟨3, ![8, 1, 4096]⟩
abbrev S8x4096x4096 : Shape := ⟨3, ![8, 4096, 4096]⟩
abbrev S8 : Shape := ⟨1, ![8]⟩
abbrev S8x3x3 : Shape := ⟨3, ![8, 3, 3]⟩
abbrev S8x3x1 : Shape := ⟨3, ![8, 3, 1]⟩
abbrev S8x3 : Shape := ⟨2, ![8, 3]⟩
abbrev S1 : Shape := ⟨1, ![1]⟩
abbrev S4 : Shape := ⟨1, ![4]⟩

abbrev nBuf : Space → Nat
  | .hbm => 128
  | .vmem => 0
  | .smem => 0
  | _ => 0

abbrev bufTy : (tb : Table) → Fin (tcTables nBuf tb) → BufTy
  | .hbm, ⟨0, _⟩ => ⟨S8x4x4, .f32⟩
  | .hbm, ⟨1, _⟩ => ⟨S8x4x4, .f32⟩
  | .hbm, ⟨2, _⟩ => ⟨S8x4096x3, .f32⟩
  | .hbm, ⟨3, _⟩ => ⟨S8x4096x3, .f32⟩
  | .hbm, ⟨4, _⟩ => ⟨S_, .f32⟩
  | .hbm, ⟨5, _⟩ => ⟨S8x4096x1, .f32⟩
  | .hbm, ⟨6, _⟩ => ⟨S8x4096x4, .f32⟩
  | .hbm, ⟨7, _⟩ => ⟨S8x4096x4, .f32⟩
  | .hbm, ⟨8, _⟩ => ⟨S8x4096x3, .f32⟩
  | .hbm, ⟨9, _⟩ => ⟨S8x4096x4, .f32⟩
  | .hbm, ⟨10, _⟩ => ⟨S8x4096x3, .f32⟩
  | .hbm, ⟨11, _⟩ => ⟨S8x4096x3, .f32⟩
  | .hbm, ⟨12, _⟩ => ⟨S_, .f32⟩
  | .hbm, ⟨13, _⟩ => ⟨S8x4096, .f32⟩
  | .hbm, ⟨14, _⟩ => ⟨S8x4096x3, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S8, .f32⟩
  | .hbm, ⟨42, _⟩ => ⟨S8x3x3, .f32⟩
  | .hbm, ⟨43, _⟩ => ⟨S8x3x3, .f32⟩
  | .hbm, ⟨44, _⟩ => ⟨S8x3x3, .f32⟩
  | .hbm, ⟨45, _⟩ => ⟨S8x3x1, .f32⟩
  | .hbm, ⟨46, _⟩ => ⟨S8x3, .f32⟩
  | .hbm, ⟨47, _⟩ => ⟨S8x3x1, .f32⟩
  | .hbm, ⟨48, _⟩ => ⟨S8x3, .f32⟩
  | .hbm, ⟨49, _⟩ => ⟨S8x3, .f32⟩
  | .hbm, ⟨50, _⟩ => ⟨S8x3x3, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S8x3, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S8, .f32⟩
  | .hbm, ⟨65, _⟩ => ⟨S8x4096x3, .f32⟩
  | .hbm, ⟨66, _⟩ => ⟨S_, .f32⟩
  | .hbm, ⟨67, _⟩ => ⟨S8x4096, .f32⟩
  | .hbm, ⟨68, _⟩ => ⟨S8x4096x3, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S8x1x4096, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096x4096, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096, .f32⟩
  | .hbm, ⟨83, _⟩ => ⟨S_, .f32⟩
  | .hbm, ⟨84, _⟩ => ⟨S8, .f32⟩
  | .hbm, ⟨85, _⟩ => ⟨S_, .f32⟩
  | .hbm, ⟨86, _⟩ => ⟨S8, .f32⟩
  | .hbm, ⟨87, _⟩ => ⟨S8, .f32⟩
  | .hbm, ⟨88, _⟩ => ⟨S_, .f32⟩
  | .hbm, ⟨89, _⟩ => ⟨S8x4096, .f32⟩
  | .hbm, ⟨90, _⟩ => ⟨S_, .f32⟩
  | .hbm, ⟨91, _⟩ => ⟨S8, .f32⟩
  | .hbm, ⟨92, _⟩ => ⟨S_, .f32⟩
  | .hbm, ⟨93, _⟩ => ⟨S8, .f32⟩
  | .hbm, ⟨94, _⟩ => ⟨S8, .f32⟩
  | .hbm, ⟨95, _⟩ => ⟨S8, .f32⟩
  | .hbm, ⟨96, _⟩ => ⟨S_, .f32⟩
  | .hbm, ⟨97, _⟩ => ⟨S8, .f32⟩
  | .hbm, ⟨98, _⟩ => ⟨S8, .f32⟩
  | .hbm, ⟨99, _⟩ => ⟨S_, .f32⟩
  | .hbm, ⟨100, _⟩ => ⟨S8, .f32⟩
  | .hbm, ⟨101, _⟩ => ⟨S8, .f32⟩
  | .hbm, ⟨102, _⟩ => ⟨S8, .f32⟩
  | .hbm, ⟨103, _⟩ => ⟨S_, .f32⟩
  | .hbm, ⟨104, _⟩ => ⟨S8, .f32⟩
  | .hbm, ⟨105, _⟩ => ⟨S8, .f32⟩
  | .hbm, ⟨106, _⟩ => ⟨S8, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S1, .f32⟩
  | .hbm, ⟨124, _⟩ => ⟨S1, .f32⟩
  | .hbm, ⟨125, _⟩ => ⟨S1, .f32⟩
  | .hbm, ⟨126, _⟩ => ⟨S1, .f32⟩
  | .hbm, ⟨127, _⟩ => ⟨S4, .f32⟩
  | _, _ => ⟨S8x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_13 : Ref sig .tc := ⟨.hbm, 66, rfl⟩
abbrev main_v48 : Ref sig .tc := ⟨.hbm, 67, rfl⟩
abbrev main_v49 : Ref sig .tc := ⟨.hbm, 68, rfl⟩
abbrev main_cst_14 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_cst_17 : Ref sig .tc := ⟨.hbm, 83, rfl⟩
abbrev main_v61 : Ref sig .tc := ⟨.hbm, 84, rfl⟩
abbrev main_cst_18 : Ref sig .tc := ⟨.hbm, 85, rfl⟩
abbrev main_v62 : Ref sig .tc := ⟨.hbm, 86, rfl⟩
abbrev main_v63 : Ref sig .tc := ⟨.hbm, 87, rfl⟩
abbrev main_cst_19 : Ref sig .tc := ⟨.hbm, 88, rfl⟩
abbrev main_v64 : Ref sig .tc := ⟨.hbm, 89, rfl⟩
abbrev main_cst_20 : Ref sig .tc := ⟨.hbm, 90, rfl⟩
abbrev main_v65 : Ref sig .tc := ⟨.hbm, 91, rfl⟩
abbrev main_cst_21 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_22 : Ref sig .tc := ⟨.hbm, 96, rfl⟩
abbrev main_v69 : Ref sig .tc := ⟨.hbm, 97, rfl⟩
abbrev main_v70 : Ref sig .tc := ⟨.hbm, 98, rfl⟩
abbrev main_cst_23 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_24 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_25 : Ref sig .tc := ⟨.hbm, 107, rfl⟩
abbrev main_v77 : Ref sig .tc := ⟨.hbm, 108, rfl⟩
abbrev main_cst_26 : Ref sig .tc := ⟨.hbm, 109, rfl⟩
abbrev main_v78 : Ref sig .tc := ⟨.hbm, 110, rfl⟩
abbrev main_cst_27 : Ref sig .tc := ⟨.hbm, 111, rfl⟩
abbrev main_v79 : Ref sig .tc := ⟨.hbm, 112, rfl⟩
abbrev main_cst_28 : Ref sig .tc := ⟨.hbm, 113, rfl⟩
abbrev main_v80 : Ref sig .tc := ⟨.hbm, 114, rfl⟩
abbrev main_cst_29 : Ref sig .tc := ⟨.hbm, 115, rfl⟩
abbrev main_v81 : Ref sig .tc := ⟨.hbm, 116, rfl⟩
abbrev main_cst_30 : Ref sig .tc := ⟨.hbm, 117, rfl⟩
abbrev main_v82 : Ref sig .tc := ⟨.hbm, 118, rfl⟩
abbrev main_cst_31 : Ref sig .tc := ⟨.hbm, 119, rfl⟩
abbrev main_v83 : Ref sig .tc := ⟨.hbm, 120, rfl⟩
abbrev main_cst_32 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩

abbrev nD : Nat := 1
abbrev τ : Topo := Topo.v7x

variable {F : FTy → Type} [FloatOps F]

class Facts₀ : Prop where
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  slices_S8x4096x4_S8x4096x3_0_0_0 : S8x4096x4.Slices ![0, 0, 0] S8x4096x3
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  slices_S8x4x4_S8x3x3_0_0_0 : S8x4x4.Slices ![0, 0, 0] S8x3x3
  slices_S8x4x4_S8x3x1_0_0_3 : S8x4x4.Slices ![0, 0, 3] S8x3x1
  shapeCasts_S8x3x1_S8x3 : S8x3x1.ShapeCasts S8x3
  reducesTo_S8x3x3_S8_d1_2 : S8x3x3.ReducesTo [1, 2] S8
  reducesTo_S8x3_S8_d1 : S8x3.ReducesTo [1] S8
  reducesTo_S8_S_d0 : S8.ReducesTo [0] S_
  bcast_S_S1 : S_.BroadcastsInDim S1 (![] : Fin 0 → Fin S1.rank)
  concatenates_S1_S1_S1_S1_S4_d0 : Shape.Concatenates [S1, S1, S1, S1] S4 0
  dot_S8x4096x4_S8x4x4_S8x4096x4_2_2_1_1_0_0_wf : DotDims.WF S8x4096x4 S8x4x4 S8x4096x4 [2] [2] [1] [1] [0] [0]
  dot_S8x4096x3_S8x4096x3_S8x4096x4096_2_2_1_1_0_0_wf : DotDims.WF S8x4096x3 S8x4096x3 S8x4096x4096 [2] [2] [1] [1] [0] [0]

variable [Facts₀]

def dot_S8x4096x4_S8x4x4_S8x4096x4_2_2_1_1_0_0 : DotDims S8x4096x4 S8x4x4 S8x4096x4 where
  lhsContracting := [2]
  rhsContracting := [2]
  lhsNonContracting := [1]
  rhsNonContracting := [1]
  lhsBatch := [0]
  rhsBatch := [0]
  wf := dot_S8x4096x4_S8x4x4_S8x4096x4_2_2_1_1_0_0_wf
def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.K.RunDefs.lean ====
/-
  The pure step of the four running-minimum buffers.

  Every grid point (n, m) takes a tile of 256 source points (rows) and 256 target points (columns), forms the
  256 x 256 squared distances of each batch, and lowers four running minima kept in 8 x 4096 buffers: two indexed by
  source point (rows 256 n .. 256 n + 255: the minimum over the tile's columns), two indexed by target point (columns
  256 m .. 256 m + 255: the minimum over the tile's rows).  Here that update is one pure function of the three input
  blocks and the four buffers' previous contents, written over the body's named payloads; a slice of a buffer's
  contents is read with `sliceRd` and overwritten with `sliceWr`.
-/
import proofs.«166136_j14345190769122_1_alg».proof.Proof.Gen.Kernel.Skeleton
import Idealize.ShloMosaic.Lib.Pipeline.FrameBody
import Idealize.ShloMosaic.Lib.WritesUnit

noncomputable section

namespace Cert.Kernel.Hand

open Idealize.ShloMosaic Cert.Kernel Cert.Kernel.Gen

variable {F : FTy → Type} [FloatOps F]

/-- The contents of the four running-minimum buffers. -/
abbrev Sc (F : FTy → Type) : Type :=
  Vec F S8x4096 .f32 × Vec F S8x4096 .f32 × Vec F S8x4096 .f32 × Vec F S8x4096 .f32

/-- Columns `o 1 .. o 1 + 255` (all eight rows when `o 0 = 0`) of an 8 x 4096 array. -/
def sliceRd (o : Fin 2 → ℕ) (inb : ∀ a, o a + S8x256.size a ≤ S8x4096.size a) (s : Vec F S8x4096 .f32) :
    Vec F S8x256 .f32 :=
  View.ld s (Rect.unit (s := S8x4096) o S8x256.size inb)

/-- The array `s` with that slice replaced by `w`. -/
def sliceWr (o : Fin 2 → ℕ) (inb : ∀ a, o a + S8x256.size a ≤ S8x4096.size a) (s : Vec F S8x4096 .f32)
    (w : Vec F S8x256 .f32) : Vec F S8x4096 .f32 :=
  fun y => if h : ∀ a, o a ≤ (y a).val ∧ (y a).val < o a + S8x256.size a then
      w (Rect.unitLocal (s := S8x4096) (off := o) (size := S8x256.size) y h)
    else s y

/-- A slice read at a position: the array at the position shifted by the offsets. -/
theorem sliceRd_apply (o : Fin 2 → ℕ) (inb : ∀ a, o a + S8x256.size a ≤ S8x4096.size a) (s : Vec F S8x4096 .f32)
    (x : S8x256.Idx) (y : S8x4096.Idx) (hy : ∀ a, (y a).val = o a + (x a).val) : sliceRd o inb s x = s y := by
  unfold sliceRd View.ld
  refine congrArg s (funext fun a => Fin.ext ?_)
  show o a + 1 * (x a).val = (y a).val
  rw [hy a, Nat.one_mul]

/-- Inside the slice the overwritten array holds the new value at the position within the slice. -/
theorem sliceWr_apply_mem (o : Fin 2 → ℕ) (inb : ∀ a, o a + S8x256.size a ≤ S8x4096.size a) (s : Vec F S8x4096 .f32)
    (w : Vec F S8x256 .f32) (y : S8x4096.Idx) (x : S8x256.Idx) (hy : ∀ a, (y a).val = o a + (x a).val) :
    sliceWr o inb s w y = w x := by
  unfold sliceWr
  have h : ∀ a, o a ≤ (y a).val ∧ (y a).val < o a + S8x256.size a := fun a => by
    have := hy a; have := (x a).isLt; omega
  rw [dif_pos h]
  refine congrArg w (funext fun a => Fin.ext ?_)
  rw [Rect.unitLocal_val]; have := hy a; omega

/-- Outside the slice (on some axis) it holds what it held. -/
theorem sliceWr_apply_not_mem (o : Fin 2 → ℕ) (inb : ∀ a, o a + S8x256.size a ≤ S8x4096.size a) (s : Vec F S8x4096 .f32)
    (w : Vec F S8x256 .f32) (y : S8x4096.Idx) (a : Fin 2) (ha : (y a).val < o a ∨ o a + S8x256.size a ≤ (y a).val) :
    sliceWr o inb s w y = s y := by
  unfold sliceWr
  rw [dif_neg]
  intro h; have := h a; omega

/-- The buffers before the first point: every entry the largest value. -/
def scInit : Sc F := (k0_pay1, k0_pay2, k0_pay3, k0_pay4)

/-- ONE GRID POINT's update of the four buffers, from the three input blocks (source tile `x0`, target tile `x1`,
    second target tile `x2`): rows' minima against `x1`, rows' minima against `x2`, columns' minima against `x1`,
    columns' minima against `x2`, each the old slice lowered by the tile's minima. -/
def scStep (i : grid0.Coords) (x0 x1 x2 : Vec F S8x256x3 .f32) (s : Sc F) : Sc F :=
  ( sliceWr (k0_off1 i) (k0_off1_inb i) s.1 (k0_pay11 (k0_pay9 x0 x1) (sliceRd (k0_off1 i) (k0_off1_inb i) s.1)),
    sliceWr (k0_off1 i) (k0_off1_inb i) s.2.1 (k0_pay12 (k0_pay10 x0 x2) (sliceRd (k0_off1 i) (k0_off1_inb i) s.2.1)),
    sliceWr (k0_off2 i) (k0_off2_inb i) s.2.2.1 (k0_pay13 (k0_pay7 x0 x1) (sliceRd (k0_off2 i) (k0_off2_inb i) s.2.2.1)),
    sliceWr (k0_off2 i) (k0_off2_inb i) s.2.2.2 (k0_pay14 (k0_pay8 x0 x2) (sliceRd (k0_off2 i) (k0_off2_inb i) s.2.2.2)) )

/-- The first result block from the buffers after the last point: mean of the first rows' minima plus mean of the
    first columns' minima. -/
def outA (s : Sc F) : Vec F S8x1 .f32 := k0_pay15 s.1 s.2.2.1
/-- The second result block: the same of the second pair. -/
def outB (s : Sc F) : Vec F S8x1 .f32 := k0_pay16 s.2.1 s.2.2.2

/-- The body's first branch condition (taken at the grid's first point only). -/
abbrev condFirst (i : grid0.Coords) : Prop :=
  Scalar.cmpi .ne (Scalar.extui (Scalar.andi (Scalar.cmpi .eq (BitVec.ofNat 32 (i 0).val) 0#32)
    (Scalar.cmpi .eq (BitVec.ofNat 32 (i 1).val) 0#32))) 0#32 = 1#1
/-- The body's second branch condition (taken at the grid's last point only). -/
abbrev condLast (i : grid0.Coords) : Prop := k0_cond2 i = 1#1

end Cert.Kernel.Hand

end
-- ==== Proof.K.Blocks.lean ====
import proofs.«166136_j14345190769122_1_alg».proof.Proof.K.RunDefs
import proofs.«166136_j14345190769122_1_alg».proof.Proof.Gen.Kernel.Launch
import proofs.«166136_j14345190769122_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, the blocks, and the running minima point by point -/

/-- Core `c`'s TensorCore buffer contents when the region is entered, as a valuation: after the seven host operations
    before it (the two transformed source clouds are computed there). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- THE ACCUMULATION. What the four running-minimum buffers hold after the body at position `n`: the first point
    starts from buffers full of the largest value, every later point from what the point before left; each lowers
    one slice of each buffer by its tile's minima (`scStep`). -/
def scAt (c : Dev nD) : (n : ℕ) → n < cfg0.N → Sc F
  | 0, hn => scStep (grid0.coords ⟨0, hn⟩) (iblk m c 0 ⟨0, hn⟩) (iblk m c 1 ⟨0, hn⟩) (iblk m c 2 ⟨0, hn⟩) scInit
  | n + 1, hn => scStep (grid0.coords ⟨n + 1, hn⟩) (iblk m c 0 ⟨n + 1, hn⟩) (iblk m c 1 ⟨n + 1, hn⟩) (iblk m c 2 ⟨n + 1, hn⟩)
      (scAt c n (Nat.lt_of_succ_lt hn))

theorem scAt_zero (c : Dev nD) (hn : 0 < cfg0.N) :
    scAt m c 0 hn = scStep (grid0.coords ⟨0, hn⟩) (iblk m c 0 ⟨0, hn⟩) (iblk m c 1 ⟨0, hn⟩) (iblk m c 2 ⟨0, hn⟩) scInit := rfl

theorem scAt_succ (c : Dev nD) (n : ℕ) (hn : n + 1 < cfg0.N) :
    scAt m c (n + 1) hn = scStep (grid0.coords ⟨n + 1, hn⟩) (iblk m c 0 ⟨n + 1, hn⟩) (iblk m c 1 ⟨n + 1, hn⟩) (iblk m c 2 ⟨n + 1, hn⟩)
      (scAt m c n (Nat.lt_of_succ_lt hn)) := rfl

/-- At a point that is not the first: the step over what the point before left. -/
theorem scAt_pos (c : Dev nD) (t : Fin cfg0.N) (hz : t.val ≠ 0) :
    scAt m c t.val t.isLt = scStep (grid0.coords t) (iblk m c 0 t) (iblk m c 1 t) (iblk m c 2 t)
      (scAt m c (t.val - 1) (Nat.lt_of_le_of_lt (Nat.sub_le _ _) t.isLt)) := by
  obtain ⟨n, hn⟩ := t
  cases n with
  | zero => exact absurd rfl hz
  | succ n => rfl

end Cert.Kernel.Hand

end
-- ==== Proof.K.Kit.lean ====
/-
  What the frame of the program rests on: @main around its one region (seven host operations, the region,
  forty-five host operations), the arguments at the contents the region is entered at, that the input windows' staging
  buffers hold their blocks, the post of the frame claim from the frame run's, the two branch conditions decided over
  the 16 x 16 grid, where the two output windows are idle, and the region invariant with the four running-minimum
  buffers as owned memrefs.
-/
import proofs.«166136_j14345190769122_1_alg».proof.Proof.K.RunDefs
import proofs.«166136_j14345190769122_1_alg».proof.Proof.K.Blocks
import proofs.«166136_j14345190769122_1_alg».proof.Proof.Gen.Kernel.Launch
import proofs.«166136_j14345190769122_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The operations before the region allocate nothing. -/
theorem hostOps0_fresh : (hostOps0 : List (HloOp τ sig (Elt F))).Forall fun op => op.fresh = ∅ := by
  simp only [List.Forall]; repeat' constructor

/-- The operations after the region allocate nothing. -/
theorem hostOps1_fresh : (hostOps1 : List (HloOp τ sig (Elt F))).Forall fun op => op.fresh = ∅ := by
  simp only [List.Forall]; repeat' constructor

/-- @main reduces to the region continued by the later operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The references the operations after the region write, in order: each its own result. -/
abbrev wr1 : List (Ref sig .tc) :=
  [main_v7, main_v8, main_v9, main_v10, main_v11, main_v12, main_v13, main_v14, main_v15, main_v16, main_v17, main_cst_0, main_v18, main_v19, main_v20, main_cst_1, main_v21, main_v22, main_v23, main_v24, main_cst_2, main_v25, main_v26, main_v27, main_cst_3, main_v28, main_cst_4, main_v29, main_cst_5, main_v30, main_cst_6, main_v31, main_cst_7, main_v32, main_cst_8, main_v33, main_cst_9, main_v34, main_cst_10, main_v35, main_v36, main_v37, main_v38, main_v39, main_v40]

/-- Each operation after the region writes exactly one reference of that list. -/
theorem hostOps1_writes : (hostOps1 : List (HloOp τ sig (Elt F))).Forall fun op =>
    ∃ y ∈ wr1, op.writes = {Proc.devRef (τ := τ) .tc y} := by
  simp only [List.Forall]
  exact ⟨⟨main_v7, by decide, rfl⟩,
    ⟨main_v8, by decide, rfl⟩,
    ⟨main_v9, by decide, rfl⟩,
    ⟨main_v10, by decide, rfl⟩,
    ⟨main_v11, by decide, rfl⟩,
    ⟨main_v12, by decide, rfl⟩,
    ⟨main_v13, by decide, rfl⟩,
    ⟨main_v14, by decide, rfl⟩,
    ⟨main_v15, by decide, rfl⟩,
    ⟨main_v16, by decide, rfl⟩,
    ⟨main_v17, by decide, rfl⟩,
    ⟨main_cst_0, by decide, rfl⟩,
    ⟨main_v18, by decide, rfl⟩,
    ⟨main_v19, by decide, rfl⟩,
    ⟨main_v20, by decide, rfl⟩,
    ⟨main_cst_1, by decide, rfl⟩,
    ⟨main_v21, by decide, rfl⟩,
    ⟨main_v22, by decide, rfl⟩,
    ⟨main_v23, by decide, rfl⟩,
    ⟨main_v24, by decide, rfl⟩,
    ⟨main_cst_2, by decide, rfl⟩,
    ⟨main_v25, by decide, rfl⟩,
    ⟨main_v26, by decide, rfl⟩,
    ⟨main_v27, by decide, rfl⟩,
    ⟨main_cst_3, by decide, rfl⟩,
    ⟨main_v28, by decide, rfl⟩,
    ⟨main_cst_4, by decide, rfl⟩,
    ⟨main_v29, by decide, rfl⟩,
    ⟨main_cst_5, by decide, rfl⟩,
    ⟨main_v30, by decide, rfl⟩,
    ⟨main_cst_6, by decide, rfl⟩,
    ⟨main_v31, by decide, rfl⟩,
    ⟨main_cst_7, by decide, rfl⟩,
    ⟨main_v32, by decide, rfl⟩,
    ⟨main_cst_8, by decide, rfl⟩,
    ⟨main_v33, by decide, rfl⟩,
    ⟨main_cst_9, by decide, rfl⟩,
    ⟨main_v34, by decide, rfl⟩,
    ⟨main_cst_10, by decide, rfl⟩,
    ⟨main_v35, by decide, rfl⟩,
    ⟨main_v36, by decide, rfl⟩,
    ⟨main_v37, by decide, rfl⟩,
    ⟨main_v38, by decide, rfl⟩,
    ⟨main_v39, by decide, rfl⟩,
    ⟨main_v40, by decide, rfl⟩⟩

/-- A reference outside that list is written by no operation after the region. -/
theorem hostOps1_keeps_of (b : Ref sig .tc) (hb : b ∉ wr1) :
    ∀ op ∈ (hostOps1 : List (HloOp τ sig (Elt F))), Proc.devRef (τ := τ) .tc b ∉ op.writes := by
  intro op hop
  obtain ⟨y, hy, e⟩ := (List.forall_iff_forall_mem.mp hostOps1_writes) op hop
  rw [e, Finset.mem_singleton]
  exact StableHlo.devRef_ne_of_ne (fun h => hb (h ▸ hy))

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa only [List.mem_singleton] using hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  obtain rfl : ops = hostOps1 := by simpa only [List.mem_singleton] using hops
  exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := by simpa only [List.mem_singleton] using hops
  exact hostOps1_keeps_of _ ((by decide : ∀ w, Pipeline.arrRef spec0 w ∉ wr1) w) op hop

/-- The operations before the region write no argument: each argument is entered at its launch contents. -/
theorem V_main_arg0 (c : Dev nD) : V m c main_arg0 = m ((c : Thread nD τ).loc main_arg0) := by
  dsimp only [V, V0]
  simp only [hostOps0, List.flatten_cons, List.flatten_nil, List.append_nil]
  after_results
theorem V_main_arg1 (c : Dev nD) : V m c main_arg1 = m ((c : Thread nD τ).loc main_arg1) := by
  dsimp only [V, V0]
  simp only [hostOps0, List.flatten_cons, List.flatten_nil, List.append_nil]
  after_results
theorem V_main_arg2 (c : Dev nD) : V m c main_arg2 = m ((c : Thread nD τ).loc main_arg2) := by
  dsimp only [V, V0]
  simp only [hostOps0, List.flatten_cons, List.flatten_nil, List.append_nil]
  after_results
theorem V_main_arg3 (c : Dev nD) : V m c main_arg3 = m ((c : Thread nD τ).loc main_arg3) := by
  dsimp only [V, V0]
  simp only [hostOps0, List.flatten_cons, List.flatten_nil, List.append_nil]
  after_results

/-! ## The windows' blocks -/

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A reference that is no array of the pipeline and is written by no operation after the region holds, after those
    operations, what the region was entered at. -/
theorem tail_keeps (dats : (p : Fin 1) → (c : Dev nD) → Dat τ (Elt F) Unit ℕ (UR sig nD τ) ℕ (cfgs p) c) (c : Dev nD)
    (b : Ref sig .tc) (hb : b ∉ wr1) (ha : ∀ w, Pipeline.arrRef spec0 w ≠ b) :
    Pipeline.afterTail₀ cfgs dats 0 (V0 m) [hostOps1] c b = V m c b := by
  unfold Pipeline.afterTail₀
  rw [show ([hostOps1] : List (List (HloOp τ sig (Elt F)))).flatten = hostOps1 from List.append_nil _,
    StableHlo.after_of_forall_not_mem hostOps1 _ (hostOps1_keeps_of b hb)]
  exact Pipeline.withArrays_of_ne (cfgs 0).spec c (V0 m c) _ b ha

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 rfl (by decide))).trans ((tail_keeps m dats c main_arg0 (by decide) (by decide)).trans (V_main_arg0 m c)),
     ((h c).2 main_arg1 (Pipeline.mem_restRefs_of main_arg1 rfl (by decide))).trans ((tail_keeps m dats c main_arg1 (by decide) (by decide)).trans (V_main_arg1 m c)),
     ((h c).2 main_arg2 (Pipeline.mem_restRefs_of main_arg2 rfl (by decide))).trans ((tail_keeps m dats c main_arg2 (by decide) (by decide)).trans (V_main_arg2 m c)),
     ((h c).1 1).trans (((dats 0 c).arrAt_in 1 rfl _).trans ((hA c 1).trans (V_main_arg3 m c)))⟩) h

/-! ## The body's branch conditions -/

/-- The first condition holds at the grid's first point only. -/
theorem hcondFirst : ∀ t : Fin cfg0.N, condFirst (grid0.coords t) ↔ t.val = 0 :=
  (by decide +kernel : ∀ t : Fin grid0.N, condFirst (grid0.coords t) ↔ t.val = 0)
/-- The second condition holds at the grid's last point only. -/
theorem hcondLast : ∀ t : Fin cfg0.N, condLast (grid0.coords t) ↔ t.val = 255 :=
  (by decide +kernel : ∀ t : Fin grid0.N, condLast (grid0.coords t) ↔ t.val = 255)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem idleAt0_3 : ∀ t : Fin cfg0.N, ¬condLast (grid0.coords t) → cfg0.idle 3 (grid0.coords t) = true := by decide +kernel
theorem idleAt0_4 : ∀ t : Fin cfg0.N, ¬condLast (grid0.coords t) → cfg0.idle 4 (grid0.coords t) = true := by decide +kernel
theorem noFlush0_3 : ∀ t : Fin cfg0.N, ¬condLast (grid0.coords t) → (cfg0.win 3).flush t = false := by decide +kernel
theorem noFlush0_4 : ∀ t : Fin cfg0.N, ¬condLast (grid0.coords t) → (cfg0.win 4).flush t = false := by decide +kernel
theorem liveAt0_3 : ∀ t : Fin cfg0.N, condLast (grid0.coords t) → cfg0.idle 3 (grid0.coords t) = false := by decide +kernel
theorem liveAt0_4 : ∀ t : Fin cfg0.N, condLast (grid0.coords t) → cfg0.idle 4 (grid0.coords t) = false := by decide +kernel

/-! ## The staging and scratch memrefs -/

abbrev ms0_0 (t : Fin cfg0.N) : Memref sig .tc .vmem S8x256x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1 .f32 := win0_4.stage (cfg0.slots t 4)
abbrev hs0_4 (t : Fin cfg0.N) : (ms0_4 t).IsWhole := hstage0_4 ((cfg0.slots t 4).cast nbuf0_4)
/-- The four running-minimum buffers: whole scoped buffers of the kernel's own, passed beside the windows. -/
abbrev scM0_0 : Memref sig .tc .vmem S8x4096 .f32 := Memref.whole cc0_scratch0
abbrev scM0_1 : Memref sig .tc .vmem S8x4096 .f32 := Memref.whole cc0_scratch1
abbrev scM0_2 : Memref sig .tc .vmem S8x4096 .f32 := Memref.whole cc0_scratch2
abbrev scM0_3 : Memref sig .tc .vmem S8x4096 .f32 := Memref.whole cc0_scratch3

/-- The kernel body at a point is the body called on these memrefs. -/
theorem bodyAt0_eq (t : Fin cfg0.N) : (bodyAt0 t : Prog (TpuEff nD τ sig (Elt F) Λ₀ .tc) PUnit)
    = cc0__chamfer_kernel (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) scM0_2 (Memref.isWhole_whole _) scM0_3 (Memref.isWhole_whole _) := rfl

/-- The region invariant with the four buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.K.RunLemmas.lean ====
import proofs.«166136_j14345190769122_1_alg».proof.Proof.K.RunDefs
import proofs.«166136_j14345190769122_1_alg».proof.Proof.Gen.Kernel.Launch
import proofs.«166136_j14345190769122_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A whole buffer that read `s`, after ONE store of `w` through the slice at offsets `o`, reads `sliceWr o inb s w`:
    the new value under the slice, the old one elsewhere. -/
theorem read_writes_slice (arg : Memref sig .tc .vmem S8x4096 .f32) (harg : arg.IsWhole) (o : Fin 2 → ℕ)
    (inb : ∀ a, o a + S8x256.size a ≤ S8x4096.size a) (s : Vec F S8x4096 .f32) (w : Vec F S8x256 .f32) :
    arg.view.read (Elt F) (arg.view.writes (Elt F) (harg.unread s)
        [(⟨Rect.unit (s := S8x4096) o S8x256.size inb, w⟩ : View.Piece (Elt F) S8x4096 .f32)])
      = sliceWr o inb s w := by
  funext y
  rw [View.read_writes_cons_unit arg.view (harg.unread s) inb w [] y rfl]
  unfold sliceWr
  simp only [View.writes_nil, harg.read_unread]

/-- What a load through the slice reads of a whole buffer that reads `s`. -/
theorem readAt_slice (arg : Memref sig .tc .vmem S8x4096 .f32) (harg : arg.IsWhole) (o : Fin 2 → ℕ)
    (inb : ∀ a, o a + S8x256.size a ≤ S8x4096.size a) (s : Vec F S8x4096 .f32) :
    View.readAt (Elt F) arg.view (Rect.unit (s := S8x4096) o S8x256.size inb).toLoadRect (harg.unread s) = sliceRd o inb s := by
  rw [View.readAt_eq_ld, harg.read_unread]; rfl

/-- The same over ANY earlier stores `L` and prior contents `f`, once what they leave reads `p`: one more store of
    `w` through the slice leaves `sliceWr o inb p w`. -/
theorem read_writes_slice_over (arg : Memref sig .tc .vmem S8x4096 .f32) (f : arg.view.ty.Contents (Elt F)) (o : Fin 2 → ℕ)
    (inb : ∀ a, o a + S8x256.size a ≤ S8x4096.size a) (p : Vec F S8x4096 .f32) (w : Vec F S8x256 .f32)
    (L : List (View.Piece (Elt F) S8x4096 .f32)) (hL : arg.view.read (Elt F) (arg.view.writes (Elt F) f L) = p) :
    arg.view.read (Elt F) (arg.view.writes (Elt F) f
        ((⟨Rect.unit (s := S8x4096) o S8x256.size inb, w⟩ : View.Piece (Elt F) S8x4096 .f32) :: L))
      = sliceWr o inb p w := by
  funext y
  rw [View.read_writes_cons_unit arg.view f inb w L y rfl]
  unfold sliceWr
  rw [hL]

/-- A load through the slice of a buffer whose pending stores leave it reading `p`. -/
theorem readAt_slice_over (arg : Memref sig .tc .vmem S8x4096 .f32) (f : arg.view.ty.Contents (Elt F)) (o : Fin 2 → ℕ)
    (inb : ∀ a, o a + S8x256.size a ≤ S8x4096.size a) (p : Vec F S8x4096 .f32)
    (L : List (View.Piece (Elt F) S8x4096 .f32)) (hL : arg.view.read (Elt F) (arg.view.writes (Elt F) f L) = p) :
    View.readAt (Elt F) arg.view (Rect.unit (s := S8x4096) o S8x256.size inb).toLoadRect (arg.view.writes (Elt F) f L)
      = sliceRd o inb p := by
  rw [View.readAt_eq_ld, hL]; rfl

/-- ONE store through the whole-shape rectangle at zero offsets leaves its payload, whatever was there. -/
theorem read_writes_whole_unit {S : Shape} (arg : Memref sig .tc .vmem S .f32) (f : arg.view.ty.Contents (Elt F))
    {off : Fin S.rank → ℕ} (hz : off = fun _ => 0) (inb : ∀ a, off a + S.size a ≤ S.size a) (p : Vec F S .f32)
    (L : List (View.Piece (Elt F) S .f32)) :
    arg.view.read (Elt F) (arg.view.writes (Elt F) f ((⟨Rect.unit (s := S) off S.size inb, p⟩ : View.Piece (Elt F) S .f32) :: L)) = p := by
  funext y
  exact View.read_writes_cons_unit_of_mem arg.view f inb p L y y rfl (fun a => by subst hz; exact (Nat.zero_add _).symm)

end Cert.Kernel.Hand

end
-- ==== Proof.K.RunA.lean ====
/-
  The kernel body at the grid's FIRST point, run whole: the four running-minimum buffers are first filled with the
  largest value and then each has one slice lowered by the tile's minima.
-/
import proofs.«166136_j14345190769122_1_alg».proof.Proof.K.RunDefs
import proofs.«166136_j14345190769122_1_alg».proof.Proof.Gen.Kernel.Launch
import proofs.«166136_j14345190769122_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«166136_j14345190769122_1_alg».proof.Proof.K.RunLemmas
import Idealize.ShloMosaic.Lib.Pipeline.Value
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- THE BODY AT THE FIRST POINT. On whole memrefs — the three input blocks at their contents, the two result blocks and
    the four running-minimum buffers at anything — the body runs to its end holding the inputs as they were, the
    result blocks untouched, and the four buffers at `scStep i x0 x1 x2 scInit`: each was filled with the largest
    value and then had ONE slice overwritten by that slice lowered by the tile's minima. -/
theorem runA (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256x3 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S8x4096 .f32) (harg10 : arg10.IsWhole)
    (hc0 : condFirst i) (hc1 : ¬condLast i) (x0 x1 x2 : Vec F S8x256x3 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare (scStep i x0 x1 x2 scInit).1 ∗ owns (c : Thread nD τ) arg8 fullShare (scStep i x0 x1 x2 scInit).2.1 ∗ owns (c : Thread nD τ) arg9 fullShare (scStep i x0 x1 x2 scInit).2.2.1 ∗ owns (c : Thread nD τ) arg10 fullShare (scStep i x0 x1 x2 scInit).2.2.2) -∗ K ⟨⟩))
      ⊢ wp frame (wpE (defs₀ (F := F)) Variants.none c none) E (cc0__chamfer_kernel i arg2 harg2 arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2
  have hz3 : (![0, 0, 0] : Fin S8x256x3.rank → ℕ) = fun _ => 0 := funext fun a => by fin_cases a <;> rfl
  have hz2 : (![0, 0] : Fin S8x4096.rank → ℕ) = fun _ => 0 := funext fun a => by fin_cases a <;> rfl
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H5]; · iexists (View.read (Elt F) arg5.view f5); iexists f5; isplitr; · ipureintro; rfl
                  iexact H5
  isplitl [H6]; · iexists (View.read (Elt F) arg6.view f6); iexists f6; isplitr; · ipureintro; rfl
                  iexact H6
  isplitl [H7]
  · iexists _; isplitr; swap; · iexact H7
    ipureintro
    have hL : arg7.view.read (Elt F) (arg7.view.writes (Elt F) arg7.view.junk runA.sl.H7_1) = k0_pay1 := by
      sl_unfold_words; exact read_writes_whole_unit arg7 _ hz2 _ k0_pay1 []
    refine (read_writes_slice_over arg7 _ (k0_off1 i) (k0_off1_inb i) k0_pay1 _ _ hL).trans ?_
    refine congrArg (sliceWr (k0_off1 i) (k0_off1_inb i) k0_pay1) ?_
    rw [readAt_slice_over arg7 _ (k0_off1 i) (k0_off1_inb i) k0_pay1 _ hL]
    refine congrArg (fun z => k0_pay11 z _) ?_
    sl_unfold_words
    simp only [View.readAt_eq_ld, harg2.read_unread, harg3.read_unread, View.ld_unit_zero (S := S8x256x3) hz3]
  isplitl [H8]
  · iexists _; isplitr; swap; · iexact H8
    ipureintro
    have hL : arg8.view.read (Elt F) (arg8.view.writes (Elt F) arg8.view.junk runA.sl.H8_1) = k0_pay2 := by
      sl_unfold_words; exact read_writes_whole_unit arg8 _ hz2 _ k0_pay2 []
    refine (read_writes_slice_over arg8 _ (k0_off1 i) (k0_off1_inb i) k0_pay2 _ _ hL).trans ?_
    refine congrArg (sliceWr (k0_off1 i) (k0_off1_inb i) k0_pay2) ?_
    rw [readAt_slice_over arg8 _ (k0_off1 i) (k0_off1_inb i) k0_pay2 _ hL]
    refine congrArg (fun z => k0_pay12 z _) ?_
    sl_unfold_words
    simp only [View.readAt_eq_ld, harg2.read_unread, harg4.read_unread, View.ld_unit_zero (S := S8x256x3) hz3]
  isplitl [H9]
  · iexists _; isplitr; swap; · iexact H9
    ipureintro
    have hL : arg9.view.read (Elt F) (arg9.view.writes (Elt F) arg9.view.junk runA.sl.H9_1) = k0_pay3 := by
      sl_unfold_words; exact read_writes_whole_unit arg9 _ hz2 _ k0_pay3 []
    refine (read_writes_slice_over arg9 _ (k0_off2 i) (k0_off2_inb i) k0_pay3 _ _ hL).trans ?_
    refine congrArg (sliceWr (k0_off2 i) (k0_off2_inb i) k0_pay3) ?_
    rw [readAt_slice_over arg9 _ (k0_off2 i) (k0_off2_inb i) k0_pay3 _ hL]
    refine congrArg (fun z => k0_pay13 z _) ?_
    sl_unfold_words
    simp only [View.readAt_eq_ld, harg2.read_unread, harg3.read_unread, View.ld_unit_zero (S := S8x256x3) hz3]
  · iexists _; isplitr; swap; · iexact H10
    ipureintro
    have hL : arg10.view.read (Elt F) (arg10.view.writes (Elt F) arg10.view.junk runA.sl.H10_1) = k0_pay4 := by
      sl_unfold_words; exact read_writes_whole_unit arg10 _ hz2 _ k0_pay4 []
    refine (read_writes_slice_over arg10 _ (k0_off2 i) (k0_off2_inb i) k0_pay4 _ _ hL).trans ?_
    refine congrArg (sliceWr (k0_off2 i) (k0_off2_inb i) k0_pay4) ?_
    rw [readAt_slice_over arg10 _ (k0_off2 i) (k0_off2_inb i) k0_pay4 _ hL]
    refine congrArg (fun z => k0_pay14 z _) ?_
    sl_unfold_words
    simp only [View.readAt_eq_ld, harg2.read_unread, harg4.read_unread, View.ld_unit_zero (S := S8x256x3) hz3]

end Cert.Kernel.Hand

end
-- ==== Proof.K.RunB.lean ====
import proofs.«166136_j14345190769122_1_alg».proof.Proof.K.RunDefs
import proofs.«166136_j14345190769122_1_alg».proof.Proof.Gen.Kernel.Launch
import proofs.«166136_j14345190769122_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«166136_j14345190769122_1_alg».proof.Proof.K.RunLemmas
import Idealize.ShloMosaic.Lib.Pipeline.Value
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- THE BODY AT A POINT THAT IS NEITHER THE FIRST NOR THE LAST. On whole memrefs — the three input blocks at their
    contents, the two result blocks at anything, the four running-minimum buffers at `s` — the body runs to its end
    holding the inputs as they were, the result blocks untouched, and the four buffers at `scStep i x0 x1 x2 s`:
    each had ONE slice overwritten by the old slice lowered by the tile's minima. -/
theorem runB (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256x3 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S8x4096 .f32) (harg10 : arg10.IsWhole)
    (hc0 : ¬condFirst i) (hc1 : ¬condLast i) (x0 x1 x2 : Vec F S8x256x3 .f32) (s : Sc F)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare s.1 ∗ owns (c : Thread nD τ) arg8 fullShare s.2.1
        ∗ owns (c : Thread nD τ) arg9 fullShare s.2.2.1 ∗ owns (c : Thread nD τ) arg10 fullShare s.2.2.2
        ∗ (iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare (scStep i x0 x1 x2 s).1 ∗ owns (c : Thread nD τ) arg8 fullShare (scStep i x0 x1 x2 s).2.1
            ∗ owns (c : Thread nD τ) arg9 fullShare (scStep i x0 x1 x2 s).2.2.1 ∗ owns (c : Thread nD τ) arg10 fullShare (scStep i x0 x1 x2 s).2.2.2) -∗ K ⟨⟩))
      ⊢ wp frame (wpE (defs₀ (F := F)) Variants.none c none) E (cc0__chamfer_kernel i arg2 harg2 arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d5, %f5, -, H5⟩, ⟨%d6, %f6, -, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2
  obtain rfl := harg7.eq_unread hf7; obtain rfl := harg8.eq_unread hf8; obtain rfl := harg9.eq_unread hf9; obtain rfl := harg10.eq_unread hf10
  have hz3 : (![0, 0, 0] : Fin S8x256x3.rank → ℕ) = fun _ => 0 := funext fun a => by fin_cases a <;> rfl
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H5]; · iexists (View.read (Elt F) arg5.view f5); iexists f5; isplitr; · ipureintro; rfl
                  iexact H5
  isplitl [H6]; · iexists (View.read (Elt F) arg6.view f6); iexists f6; isplitr; · ipureintro; rfl
                  iexact H6
  isplitl [H7]
  · iexists _; isplitr; swap; · iexact H7
    ipureintro
    refine (read_writes_slice arg7 harg7 (k0_off1 i) (k0_off1_inb i) s.1 _).trans ?_
    refine congrArg (sliceWr (k0_off1 i) (k0_off1_inb i) s.1) ?_
    rw [readAt_slice]
    refine congrArg (fun z => k0_pay11 z _) ?_
    sl_unfold_words
    simp only [View.readAt_eq_ld, harg2.read_unread, harg3.read_unread, View.ld_unit_zero (S := S8x256x3) hz3]
  isplitl [H8]
  · iexists _; isplitr; swap; · iexact H8
    ipureintro
    refine (read_writes_slice arg8 harg8 (k0_off1 i) (k0_off1_inb i) s.2.1 _).trans ?_
    refine congrArg (sliceWr (k0_off1 i) (k0_off1_inb i) s.2.1) ?_
    rw [readAt_slice]
    refine congrArg (fun z => k0_pay12 z _) ?_
    sl_unfold_words
    simp only [View.readAt_eq_ld, harg2.read_unread, harg4.read_unread, View.ld_unit_zero (S := S8x256x3) hz3]
  isplitl [H9]
  · iexists _; isplitr; swap; · iexact H9
    ipureintro
    refine (read_writes_slice arg9 harg9 (k0_off2 i) (k0_off2_inb i) s.2.2.1 _).trans ?_
    refine congrArg (sliceWr (k0_off2 i) (k0_off2_inb i) s.2.2.1) ?_
    rw [readAt_slice]
    refine congrArg (fun z => k0_pay13 z _) ?_
    sl_unfold_words
    simp only [View.readAt_eq_ld, harg2.read_unread, harg3.read_unread, View.ld_unit_zero (S := S8x256x3) hz3]
  · iexists _; isplitr; swap; · iexact H10
    ipureintro
    refine (read_writes_slice arg10 harg10 (k0_off2 i) (k0_off2_inb i) s.2.2.2 _).trans ?_
    refine congrArg (sliceWr (k0_off2 i) (k0_off2_inb i) s.2.2.2) ?_
    rw [readAt_slice]
    refine congrArg (fun z => k0_pay14 z _) ?_
    sl_unfold_words
    simp only [View.readAt_eq_ld, harg2.read_unread, harg4.read_unread, View.ld_unit_zero (S := S8x256x3) hz3]

end Cert.Kernel.Hand

end
-- ==== Proof.K.RunC.lean ====
/-
  The kernel body at the grid's LAST point, run whole: each of the four running-minimum buffers has one slice lowered
  by the tile's minima, and the two result blocks are stored from the buffers as they then are.
-/
import proofs.«166136_j14345190769122_1_alg».proof.Proof.K.RunDefs
import proofs.«166136_j14345190769122_1_alg».proof.Proof.Gen.Kernel.Launch
import proofs.«166136_j14345190769122_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«166136_j14345190769122_1_alg».proof.Proof.K.RunLemmas
import Idealize.ShloMosaic.Lib.Pipeline.Value
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- THE BODY AT THE LAST POINT. On whole memrefs — the three input blocks at their contents, the two result blocks at
    anything, the four running-minimum buffers at `s` — the body runs to its end holding the inputs as they were, the
    four buffers at `scStep i x0 x1 x2 s` (each had ONE slice overwritten by the old slice lowered by the tile's
    minima), and the two result blocks at the means read off those buffers: `outA` and `outB` of them. -/
theorem runC (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256x3 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S8x4096 .f32) (harg10 : arg10.IsWhole)
    (hc0 : ¬condFirst i) (hc1 : condLast i) (x0 x1 x2 : Vec F S8x256x3 .f32) (s : Sc F)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare (s).1 ∗ owns (c : Thread nD τ) arg8 fullShare (s).2.1 ∗ owns (c : Thread nD τ) arg9 fullShare (s).2.2.1 ∗ owns (c : Thread nD τ) arg10 fullShare (s).2.2.2
        ∗ (iprop(owns (c : Thread nD τ) arg2 fullShare x0 ∗ owns (c : Thread nD τ) arg3 fullShare x1 ∗ owns (c : Thread nD τ) arg4 fullShare x2
            ∗ owns (c : Thread nD τ) arg5 fullShare (outA (scStep i x0 x1 x2 s)) ∗ owns (c : Thread nD τ) arg6 fullShare (outB (scStep i x0 x1 x2 s))
            ∗ owns (c : Thread nD τ) arg7 fullShare (scStep i x0 x1 x2 s).1 ∗ owns (c : Thread nD τ) arg8 fullShare (scStep i x0 x1 x2 s).2.1 ∗ owns (c : Thread nD τ) arg9 fullShare (scStep i x0 x1 x2 s).2.2.1 ∗ owns (c : Thread nD τ) arg10 fullShare (scStep i x0 x1 x2 s).2.2.2) -∗ K ⟨⟩))
      ⊢ wp frame (wpE (defs₀ (F := F)) Variants.none c none) E (cc0__chamfer_kernel i arg2 harg2 arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d5, %f5, -, H5⟩, ⟨%d6, %f6, -, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2
  obtain rfl := harg7.eq_unread hf7; obtain rfl := harg8.eq_unread hf8; obtain rfl := harg9.eq_unread hf9; obtain rfl := harg10.eq_unread hf10
  have hz3 : (![0, 0, 0] : Fin S8x256x3.rank → ℕ) = fun _ => 0 := funext fun a => by fin_cases a <;> rfl
  have hz2 : (![0, 0] : Fin S8x4096.rank → ℕ) = fun _ => 0 := funext fun a => by fin_cases a <;> rfl
  have hz1 : (![0, 0] : Fin S8x1.rank → ℕ) = fun _ => 0 := funext fun a => by fin_cases a <;> rfl
  sl_exec (disch := first | exact hc0 | exact hc1)
  sl_step
  -- what each buffer reads after its one slice store
  have h7 : arg7.view.read (Elt F) (arg7.view.writes (Elt F) (harg7.unread s.1) (runC.sl.H7_1 c i arg2 harg2 arg3 harg3 arg7 harg7 x0 x1 s)) = (scStep i x0 x1 x2 s).1 := by
    sl_unfold_run_names
    refine (read_writes_slice arg7 harg7 (k0_off1 i) (k0_off1_inb i) s.1 _).trans ?_
    refine congrArg (sliceWr (k0_off1 i) (k0_off1_inb i) s.1) ?_
    rw [readAt_slice]
    refine congrArg (fun z => k0_pay11 z _) ?_
    simp only [View.readAt_eq_ld, harg2.read_unread, harg3.read_unread, View.ld_unit_zero (S := S8x256x3) hz3]
  have h8 : arg8.view.read (Elt F) (arg8.view.writes (Elt F) (harg8.unread s.2.1) (runC.sl.H8_1 c i arg2 harg2 arg4 harg4 arg8 harg8 x0 x2 s)) = (scStep i x0 x1 x2 s).2.1 := by
    sl_unfold_run_names
    refine (read_writes_slice arg8 harg8 (k0_off1 i) (k0_off1_inb i) s.2.1 _).trans ?_
    refine congrArg (sliceWr (k0_off1 i) (k0_off1_inb i) s.2.1) ?_
    rw [readAt_slice]
    refine congrArg (fun z => k0_pay12 z _) ?_
    simp only [View.readAt_eq_ld, harg2.read_unread, harg4.read_unread, View.ld_unit_zero (S := S8x256x3) hz3]
  have h9 : arg9.view.read (Elt F) (arg9.view.writes (Elt F) (harg9.unread s.2.2.1) (runC.sl.H9_1 c i arg2 harg2 arg3 harg3 arg9 harg9 x0 x1 s)) = (scStep i x0 x1 x2 s).2.2.1 := by
    sl_unfold_run_names
    refine (read_writes_slice arg9 harg9 (k0_off2 i) (k0_off2_inb i) s.2.2.1 _).trans ?_
    refine congrArg (sliceWr (k0_off2 i) (k0_off2_inb i) s.2.2.1) ?_
    rw [readAt_slice]
    refine congrArg (fun z => k0_pay13 z _) ?_
    simp only [View.readAt_eq_ld, harg2.read_unread, harg3.read_unread, View.ld_unit_zero (S := S8x256x3) hz3]
  have h10 : arg10.view.read (Elt F) (arg10.view.writes (Elt F) (harg10.unread s.2.2.2) (runC.sl.H10_1 c i arg2 harg2 arg4 harg4 arg10 harg10 x0 x2 s)) = (scStep i x0 x1 x2 s).2.2.2 := by
    sl_unfold_run_names
    refine (read_writes_slice arg10 harg10 (k0_off2 i) (k0_off2_inb i) s.2.2.2 _).trans ?_
    refine congrArg (sliceWr (k0_off2 i) (k0_off2_inb i) s.2.2.2) ?_
    rw [readAt_slice]
    refine congrArg (fun z => k0_pay14 z _) ?_
    simp only [View.readAt_eq_ld, harg2.read_unread, harg4.read_unread, View.ld_unit_zero (S := S8x256x3) hz3]
  -- the four whole-buffer loads the result blocks are computed from read those
  have hv75 : runC.sl.v75 c i arg2 harg2 arg3 harg3 arg7 harg7 x0 x1 s = (scStep i x0 x1 x2 s).1 := by
    unfold runC.sl.v75
    rw [View.readAt_eq_ld, h7]
    exact View.ld_unit_zero (S := S8x4096) hz2 _ _
  have hv80 : runC.sl.v80 c i arg2 harg2 arg3 harg3 arg9 harg9 x0 x1 s = (scStep i x0 x1 x2 s).2.2.1 := by
    unfold runC.sl.v80
    rw [View.readAt_eq_ld, h9]
    exact View.ld_unit_zero (S := S8x4096) hz2 _ _
  have hv86 : runC.sl.v86 c i arg2 harg2 arg4 harg4 arg8 harg8 x0 x2 s = (scStep i x0 x1 x2 s).2.1 := by
    unfold runC.sl.v86
    rw [View.readAt_eq_ld, h8]
    exact View.ld_unit_zero (S := S8x4096) hz2 _ _
  have hv91 : runC.sl.v91 c i arg2 harg2 arg4 harg4 arg10 harg10 x0 x2 s = (scStep i x0 x1 x2 s).2.2.2 := by
    unfold runC.sl.v91
    rw [View.readAt_eq_ld, h10]
    exact View.ld_unit_zero (S := S8x4096) hz2 _ _
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H5]
  · iexists _; isplitr; swap; · iexact H5
    ipureintro
    refine (read_writes_whole_unit arg5 f5 hz1 _ _ []).trans ?_
    rw [hv75, hv80]; rfl
  isplitl [H6]
  · iexists _; isplitr; swap; · iexact H6
    ipureintro
    refine (read_writes_whole_unit arg6 f6 hz1 _ _ []).trans ?_
    rw [hv86, hv91]; rfl
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  · iexists _; isplitr; swap; · iexact H10
    ipureintro; exact h10

end Cert.Kernel.Hand

end
-- ==== Proof.K.Frame.lean ====
/-
  The frame certificate of the program: what the four running-minimum buffers hold before each grid point as the
  region's invariant, the proof data of the one pipeline (each input window left at its block, the two result windows
  at the means of the buffers' rows), the body obligation by the three cases of a point (the first, the last, any
  other), the run of @main and the frame claim.
-/
import proofs.«166136_j14345190769122_1_alg».proof.Proof.K.Kit
import proofs.«166136_j14345190769122_1_alg».proof.Proof.K.RunA
import proofs.«166136_j14345190769122_1_alg».proof.Proof.K.RunB
import proofs.«166136_j14345190769122_1_alg».proof.Proof.K.RunC
import Idealize.ShloMosaic.Lib.Pipeline.TableIdle

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant: the four buffers point by point -/

/-- The region invariant before position `n`: before the first point the four buffers at anything (the class's
    invariant); afterwards each at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scAt m c n hn).1 ∗ owns (c : Thread nD τ) scM0_1 fullShare (scAt m c n hn).2.1
      ∗ owns (c : Thread nD τ) scM0_2 fullShare (scAt m c n hn).2.2.1 ∗ owns (c : Thread nD τ) scM0_3 fullShare (scAt m c n hn).2.2.2) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the buffers at that point's contents. -/
theorem PhiS_succ (c : Dev nD) (n : ℕ) (hn : n < cfg0.N) :
    PhiS m c (n + 1) hn = iprop(iprop(owns (c : Thread nD τ) scM0_0 fullShare (scAt m c n hn).1 ∗ owns (c : Thread nD τ) scM0_1 fullShare (scAt m c n hn).2.1
      ∗ owns (c : Thread nD τ) scM0_2 fullShare (scAt m c n hn).2.2.1 ∗ owns (c : Thread nD τ) scM0_3 fullShare (scAt m c n hn).2.2.2) ∗ (∃ r, prngReg c r)) := rfl

/-- Before a point that is not the first: the buffers at what the point before left. -/
theorem PhiS_pos (c : Dev nD) (n : ℕ) (h : n ≤ cfg0.N) (hz : n ≠ 0) :
    PhiS m c n h = iprop(iprop(owns (c : Thread nD τ) scM0_0 fullShare (scAt m c (n - 1) (by omega)).1 ∗ owns (c : Thread nD τ) scM0_1 fullShare (scAt m c (n - 1) (by omega)).2.1
      ∗ owns (c : Thread nD τ) scM0_2 fullShare (scAt m c (n - 1) (by omega)).2.2.1 ∗ owns (c : Thread nD τ) scM0_3 fullShare (scAt m c (n - 1) (by omega)).2.2.2) ∗ (∃ r, prngReg c r)) := by
  cases n with
  | zero => exact absurd rfl hz
  | succ n => rfl

/-- At the first point the buffers' contents are the step from the buffers full of the largest value. -/
theorem scAt_first (c : Dev nD) (t : Fin cfg0.N) (hz : t.val = 0) :
    scAt m c t.val t.isLt = scStep (grid0.coords t) (iblk m c 0 t) (iblk m c 1 t) (iblk m c 2 t) scInit := by
  obtain ⟨n, hn⟩ := t
  cases n with
  | zero => rfl
  | succ n => exact absurd hz (Nat.succ_ne_zero n)

/-! ## The pipeline's proof data -/

/-- The proof data of the one pipeline on core `c`: the arrays as the region finds them; after the body at point `t`
    each input's buffer at its block, the two result buffers at the means read off the four buffers there (consulted
    at the last point only: elsewhere the two windows are idle and not written back); the invariant `PhiS`; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outA (scAt m c t.val t.isLt)
    | ⟨4, _⟩ => outB (scAt m c t.val t.isLt)
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outA (scAt m c t.val t.isLt) := by dsimp only [dats]
theorem after0_4 (c : Dev nD) (t : Fin cfg0.N) : (dats m 0 c).after 4 t = outB (scAt m c t.val t.isLt) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A point before which every point is not the last. -/
theorem not_last_of_lt (t j : Fin cfg0.N) (hj : j.val < t.val) : ¬condLast (grid0.coords j) := fun h => by
  have h1 := (hcondLast j).mp h
  have h2 : t.val < 256 := lt_of_lt_of_eq t.isLt (show cfg0.N = 256 from N_0)
  omega

/-- The two result windows are never fetched and, before the last point, idle and not written back: at every point
    their staging buffers hold whatever they held when the region began. -/
theorem before0_3 (c : Dev nD) (t : Fin cfg0.N) (d) : (dats m 0 c).before 3 t d = d := by
  rw [Dat.before_idle_run (dats m 0 c) 3 (fun t => (cfg0.win 3).fetch_out rfl t) d t.val t (Nat.le_refl _)
    (fun j _ hj => ⟨idleAt0_3 j (not_last_of_lt t j hj), noFlush0_3 j (not_last_of_lt t j hj)⟩)]
  exact Dat.before_out_reset _ 3 rfl _ (.inl (Nat.sub_self _)) d
theorem before0_4 (c : Dev nD) (t : Fin cfg0.N) (d) : (dats m 0 c).before 4 t d = d := by
  rw [Dat.before_idle_run (dats m 0 c) 4 (fun t => (cfg0.win 4).fetch_out rfl t) d t.val t (Nat.le_refl _)
    (fun j _ hj => ⟨idleAt0_4 j (not_last_of_lt t j hj), noFlush0_4 j (not_last_of_lt t j hj)⟩)]
  exact Dat.before_out_reset _ 4 rfl _ (.inl (Nat.sub_self _)) d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The body at any point, by the three cases of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hN : t.val < 256 := lt_of_lt_of_eq t.isLt (show cfg0.N = 256 from N_0)
  by_cases hz : t.val = 0
  · -- the first point: the buffers are handed at anything and left at the step from the largest value
    have hcF : condFirst (grid0.coords t) := (hcondFirst t).mpr hz
    have hcL : ¬condLast (grid0.coords t) := fun h => by have := (hcondLast t).mp h; omega
    rw [Dat.leavesExact_idle (dats m 0 c) 3 t (idleAt0_3 t hcL) (noFlush0_3 t hcL),
      Dat.leavesExact_idle (dats m 0 c) 4 t (idleAt0_4 t hcL) (noFlush0_4 t hcL)]
    simp only [before0_0, before0_1, before0_2, before0_3, before0_4]
    rw [PhiS_castSucc m c t, PhiS_zero m c _ _ hz, PhiA0_eq, scAt_first m c t hz]
    iintro ⟨⟨⟨S0, S1, S2, S3⟩, Hg⟩, Ho, ⟨%d0, H0⟩, ⟨%d1, H1⟩, ⟨%d2, H2⟩, H3, H4⟩
    iapply (runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hcF hcL (iblk m c 0 t) (iblk m c 1 t) (iblk m c 2 t) Set.univ _)
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨H0, H1, H2, H3, H4, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    iexact H4
  · have hcF : ¬condFirst (grid0.coords t) := fun h => hz ((hcondFirst t).mp h)
    by_cases hl : t.val = 255
    · -- the last point: the two result blocks are stored, the means of the buffers the step leaves
      have hcL : condLast (grid0.coords t) := (hcondLast t).mpr hl
      rw [show (dats m 0 c).leavesExact 3 t = owns (c : Thread nD τ) (ms0_3 t) fullShare ((dats m 0 c).after 3 t) from by
        unfold Dat.leavesExact; rw [liveAt0_3 t hcL], after0_3]
      rw [show (dats m 0 c).leavesExact 4 t = owns (c : Thread nD τ) (ms0_4 t) fullShare ((dats m 0 c).after 4 t) from by
        unfold Dat.leavesExact; rw [liveAt0_4 t hcL], after0_4]
      simp only [before0_0, before0_1, before0_2, before0_3, before0_4]
      rw [PhiS_castSucc m c t, PhiS_pos m c _ _ hz, scAt_pos m c t hz]
      iintro ⟨⟨⟨S0, S1, S2, S3⟩, Hg⟩, Ho, ⟨%d0, H0⟩, ⟨%d1, H1⟩, ⟨%d2, H2⟩, H3, H4⟩
      iapply (runC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hcF hcL (iblk m c 0 t) (iblk m c 1 t) (iblk m c 2 t) (scAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iintro ⟨H0, H1, H2, H3, H4, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      iexact H4
    · -- any other point: the two result windows idle, the buffers stepped from what the point before left
      have hcL : ¬condLast (grid0.coords t) := fun h => hl ((hcondLast t).mp h)
      rw [Dat.leavesExact_idle (dats m 0 c) 3 t (idleAt0_3 t hcL) (noFlush0_3 t hcL),
        Dat.leavesExact_idle (dats m 0 c) 4 t (idleAt0_4 t hcL) (noFlush0_4 t hcL)]
      simp only [before0_0, before0_1, before0_2, before0_3, before0_4]
      rw [PhiS_castSucc m c t, PhiS_pos m c _ _ hz, scAt_pos m c t hz]
      iintro ⟨⟨⟨S0, S1, S2, S3⟩, Hg⟩, Ho, ⟨%d0, H0⟩, ⟨%d1, H1⟩, ⟨%d2, H2⟩, H3, H4⟩
      iapply (runB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hcF hcL (iblk m c 0 t) (iblk m c 1 t) (iblk m c 2 t) (scAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iintro ⟨H0, H1, H2, H3, H4, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨S0, S1, S2, S3⟩, Hg⟩
  isplitl [S0 S1 S2 S3]
  · isplitl [S0]; · iexists _; iexact S0
    isplitl [S1]; · iexists _; iexact S1
    isplitl [S2]; · iexists _; iexact S2
    iexists _; iexact S3
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of @main on the TensorCores terminates, and every final state has every array of the
    pipeline at what the library computes from the proof data and every other unscoped buffer as the operations after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KI.RunDefs.lean ====
/-
  The pure step of the four running-minimum buffers.

  Every grid point (n, m) takes a tile of 256 source points (rows) and 256 target points (columns), forms the
  256 x 256 squared distances of each batch, and lowers four running minima kept in 8 x 4096 buffers: two indexed by
  source point (rows 256 n .. 256 n + 255: the minimum over the tile's columns), two indexed by target point (columns
  256 m .. 256 m + 255: the minimum over the tile's rows).  Here that update is one pure function of the three input
  blocks and the four buffers' previous contents, written over the body's named payloads; a slice of a buffer's
  contents is read with `sliceRd` and overwritten with `sliceWr`.
-/
import proofs.«166136_j14345190769122_1_alg».proof.Proof.Gen.KernelIdeal.Skeleton
import Idealize.ShloMosaic.Lib.Pipeline.FrameBody
import Idealize.ShloMosaic.Lib.WritesUnit

noncomputable section

namespace Cert.KernelIdeal.Hand

open Idealize.ShloMosaic Cert.KernelIdeal Cert.KernelIdeal.Gen

variable {F : FTy → Type} [FloatOps F]

/-- The contents of the four running-minimum buffers. -/
abbrev Sc (F : FTy → Type) : Type :=
  Vec F S8x4096 .f32 × Vec F S8x4096 .f32 × Vec F S8x4096 .f32 × Vec F S8x4096 .f32

/-- Columns `o 1 .. o 1 + 255` (all eight rows when `o 0 = 0`) of an 8 x 4096 array. -/
def sliceRd (o : Fin 2 → ℕ) (inb : ∀ a, o a + S8x256.size a ≤ S8x4096.size a) (s : Vec F S8x4096 .f32) :
    Vec F S8x256 .f32 :=
  View.ld s (Rect.unit (s := S8x4096) o S8x256.size inb)

/-- The array `s` with that slice replaced by `w`. -/
def sliceWr (o : Fin 2 → ℕ) (inb : ∀ a, o a + S8x256.size a ≤ S8x4096.size a) (s : Vec F S8x4096 .f32)
    (w : Vec F S8x256 .f32) : Vec F S8x4096 .f32 :=
  fun y => if h : ∀ a, o a ≤ (y a).val ∧ (y a).val < o a + S8x256.size a then
      w (Rect.unitLocal (s := S8x4096) (off := o) (size := S8x256.size) y h)
    else s y

/-- A slice read at a position: the array at the position shifted by the offsets. -/
theorem sliceRd_apply (o : Fin 2 → ℕ) (inb : ∀ a, o a + S8x256.size a ≤ S8x4096.size a) (s : Vec F S8x4096 .f32)
    (x : S8x256.Idx) (y : S8x4096.Idx) (hy : ∀ a, (y a).val = o a + (x a).val) : sliceRd o inb s x = s y := by
  unfold sliceRd View.ld
  refine congrArg s (funext fun a => Fin.ext ?_)
  show o a + 1 * (x a).val = (y a).val
  rw [hy a, Nat.one_mul]

/-- Inside the slice the overwritten array holds the new value at the position within the slice. -/
theorem sliceWr_apply_mem (o : Fin 2 → ℕ) (inb : ∀ a, o a + S8x256.size a ≤ S8x4096.size a) (s : Vec F S8x4096 .f32)
    (w : Vec F S8x256 .f32) (y : S8x4096.Idx) (x : S8x256.Idx) (hy : ∀ a, (y a).val = o a + (x a).val) :
    sliceWr o inb s w y = w x := by
  unfold sliceWr
  have h : ∀ a, o a ≤ (y a).val ∧ (y a).val < o a + S8x256.size a := fun a => by
    have := hy a; have := (x a).isLt; omega
  rw [dif_pos h]
  refine congrArg w (funext fun a => Fin.ext ?_)
  rw [Rect.unitLocal_val]; have := hy a; omega

/-- Outside the slice (on some axis) it holds what it held. -/
theorem sliceWr_apply_not_mem (o : Fin 2 → ℕ) (inb : ∀ a, o a + S8x256.size a ≤ S8x4096.size a) (s : Vec F S8x4096 .f32)
    (w : Vec F S8x256 .f32) (y : S8x4096.Idx) (a : Fin 2) (ha : (y a).val < o a ∨ o a + S8x256.size a ≤ (y a).val) :
    sliceWr o inb s w y = s y := by
  unfold sliceWr
  rw [dif_neg]
  intro h; have := h a; omega

/-- The buffers before the first point: every entry the largest value. -/
def scInit : Sc F := (k0_pay1, k0_pay2, k0_pay3, k0_pay4)

/-- ONE GRID POINT's update of the four buffers, from the three input blocks (source tile `x0`, target tile `x1`,
    second target tile `x2`): rows' minima against `x1`, rows' minima against `x2`, columns' minima against `x1`,
    columns' minima against `x2`, each the old slice lowered by the tile's minima. -/
def scStep (i : grid0.Coords) (x0 x1 x2 : Vec F S8x256x3 .f32) (s : Sc F) : Sc F :=
  ( sliceWr (k0_off1 i) (k0_off1_inb i) s.1 (k0_pay11 (k0_pay9 x0 x1) (sliceRd (k0_off1 i) (k0_off1_inb i) s.1)),
    sliceWr (k0_off1 i) (k0_off1_inb i) s.2.1 (k0_pay12 (k0_pay10 x0 x2) (sliceRd (k0_off1 i) (k0_off1_inb i) s.2.1)),
    sliceWr (k0_off2 i) (k0_off2_inb i) s.2.2.1 (k0_pay13 (k0_pay7 x0 x1) (sliceRd (k0_off2 i) (k0_off2_inb i) s.2.2.1)),
    sliceWr (k0_off2 i) (k0_off2_inb i) s.2.2.2 (k0_pay14 (k0_pay8 x0 x2) (sliceRd (k0_off2 i) (k0_off2_inb i) s.2.2.2)) )

/-- The first result block from the buffers after the last point: mean of the first rows' minima plus mean of the
    first columns' minima. -/
def outA (s : Sc F) : Vec F S8x1 .f32 := k0_pay15 s.1 s.2.2.1
/-- The second result block: the same of the second pair. -/
def outB (s : Sc F) : Vec F S8x1 .f32 := k0_pay16 s.2.1 s.2.2.2

/-- The body's first branch condition (taken at the grid's first point only). -/
abbrev condFirst (i : grid0.Coords) : Prop :=
  Scalar.cmpi .ne (Scalar.extui (Scalar.andi (Scalar.cmpi .eq (BitVec.ofNat 32 (i 0).val) 0#32)
    (Scalar.cmpi .eq (BitVec.ofNat 32 (i 1).val) 0#32))) 0#32 = 1#1
/-- The body's second branch condition (taken at the grid's last point only). -/
abbrev condLast (i : grid0.Coords) : Prop := k0_cond2 i = 1#1

end Cert.KernelIdeal.Hand

end
-- ==== Proof.KI.Blocks.lean ====
import proofs.«166136_j14345190769122_1_alg».proof.Proof.KI.RunDefs
import proofs.«166136_j14345190769122_1_alg».proof.Proof.Gen.KernelIdeal.Launch
import proofs.«166136_j14345190769122_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, the blocks, and the running minima point by point -/

/-- Core `c`'s TensorCore buffer contents when the region is entered, as a valuation: after the seven host operations
    before it (the two transformed source clouds are computed there). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- THE ACCUMULATION. What the four running-minimum buffers hold after the body at position `n`: the first point
    starts from buffers full of the largest value, every later point from what the point before left; each lowers
    one slice of each buffer by its tile's minima (`scStep`). -/
def scAt (c : Dev nD) : (n : ℕ) → n < cfg0.N → Sc F
  | 0, hn => scStep (grid0.coords ⟨0, hn⟩) (iblk m c 0 ⟨0, hn⟩) (iblk m c 1 ⟨0, hn⟩) (iblk m c 2 ⟨0, hn⟩) scInit
  | n + 1, hn => scStep (grid0.coords ⟨n + 1, hn⟩) (iblk m c 0 ⟨n + 1, hn⟩) (iblk m c 1 ⟨n + 1, hn⟩) (iblk m c 2 ⟨n + 1, hn⟩)
      (scAt c n (Nat.lt_of_succ_lt hn))

theorem scAt_zero (c : Dev nD) (hn : 0 < cfg0.N) :
    scAt m c 0 hn = scStep (grid0.coords ⟨0, hn⟩) (iblk m c 0 ⟨0, hn⟩) (iblk m c 1 ⟨0, hn⟩) (iblk m c 2 ⟨0, hn⟩) scInit := rfl

theorem scAt_succ (c : Dev nD) (n : ℕ) (hn : n + 1 < cfg0.N) :
    scAt m c (n + 1) hn = scStep (grid0.coords ⟨n + 1, hn⟩) (iblk m c 0 ⟨n + 1, hn⟩) (iblk m c 1 ⟨n + 1, hn⟩) (iblk m c 2 ⟨n + 1, hn⟩)
      (scAt m c n (Nat.lt_of_succ_lt hn)) := rfl

/-- At a point that is not the first: the step over what the point before left. -/
theorem scAt_pos (c : Dev nD) (t : Fin cfg0.N) (hz : t.val ≠ 0) :
    scAt m c t.val t.isLt = scStep (grid0.coords t) (iblk m c 0 t) (iblk m c 1 t) (iblk m c 2 t)
      (scAt m c (t.val - 1) (Nat.lt_of_le_of_lt (Nat.sub_le _ _) t.isLt)) := by
  obtain ⟨n, hn⟩ := t
  cases n with
  | zero => exact absurd rfl hz
  | succ n => rfl

end Cert.KernelIdeal.Hand

end
-- ==== Proof.KI.Kit.lean ====
/-
  What the frame of the program rests on: @main around its one region (seven host operations, the region,
  forty-five host operations), the arguments at the contents the region is entered at, that the input windows' staging
  buffers hold their blocks, the post of the frame claim from the frame run's, the two branch conditions decided over
  the 16 x 16 grid, where the two output windows are idle, and the region invariant with the four running-minimum
  buffers as owned memrefs.
-/
import proofs.«166136_j14345190769122_1_alg».proof.Proof.KI.RunDefs
import proofs.«166136_j14345190769122_1_alg».proof.Proof.KI.Blocks
import proofs.«166136_j14345190769122_1_alg».proof.Proof.Gen.KernelIdeal.Launch
import proofs.«166136_j14345190769122_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The operations before the region allocate nothing. -/
theorem hostOps0_fresh : (hostOps0 : List (HloOp τ sig (Elt F))).Forall fun op => op.fresh = ∅ := by
  simp only [List.Forall]; repeat' constructor

/-- The operations after the region allocate nothing. -/
theorem hostOps1_fresh : (hostOps1 : List (HloOp τ sig (Elt F))).Forall fun op => op.fresh = ∅ := by
  simp only [List.Forall]; repeat' constructor

/-- @main reduces to the region continued by the later operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The references the operations after the region write, in order: each its own result. -/
abbrev wr1 : List (Ref sig .tc) :=
  [main_v7, main_v8, main_v9, main_v10, main_v11, main_v12, main_v13, main_v14, main_v15, main_v16, main_v17, main_cst_0, main_v18, main_v19, main_v20, main_cst_1, main_v21, main_v22, main_v23, main_v24, main_cst_2, main_v25, main_v26, main_v27, main_cst_3, main_v28, main_cst_4, main_v29, main_cst_5, main_v30, main_cst_6, main_v31, main_cst_7, main_v32, main_cst_8, main_v33, main_cst_9, main_v34, main_cst_10, main_v35, main_v36, main_v37, main_v38, main_v39, main_v40]

/-- Each operation after the region writes exactly one reference of that list. -/
theorem hostOps1_writes : (hostOps1 : List (HloOp τ sig (Elt F))).Forall fun op =>
    ∃ y ∈ wr1, op.writes = {Proc.devRef (τ := τ) .tc y} := by
  simp only [List.Forall]
  exact ⟨⟨main_v7, by decide, rfl⟩,
    ⟨main_v8, by decide, rfl⟩,
    ⟨main_v9, by decide, rfl⟩,
    ⟨main_v10, by decide, rfl⟩,
    ⟨main_v11, by decide, rfl⟩,
    ⟨main_v12, by decide, rfl⟩,
    ⟨main_v13, by decide, rfl⟩,
    ⟨main_v14, by decide, rfl⟩,
    ⟨main_v15, by decide, rfl⟩,
    ⟨main_v16, by decide, rfl⟩,
    ⟨main_v17, by decide, rfl⟩,
    ⟨main_cst_0, by decide, rfl⟩,
    ⟨main_v18, by decide, rfl⟩,
    ⟨main_v19, by decide, rfl⟩,
    ⟨main_v20, by decide, rfl⟩,
    ⟨main_cst_1, by decide, rfl⟩,
    ⟨main_v21, by decide, rfl⟩,
    ⟨main_v22, by decide, rfl⟩,
    ⟨main_v23, by decide, rfl⟩,
    ⟨main_v24, by decide, rfl⟩,
    ⟨main_cst_2, by decide, rfl⟩,
    ⟨main_v25, by decide, rfl⟩,
    ⟨main_v26, by decide, rfl⟩,
    ⟨main_v27, by decide, rfl⟩,
    ⟨main_cst_3, by decide, rfl⟩,
    ⟨main_v28, by decide, rfl⟩,
    ⟨main_cst_4, by decide, rfl⟩,
    ⟨main_v29, by decide, rfl⟩,
    ⟨main_cst_5, by decide, rfl⟩,
    ⟨main_v30, by decide, rfl⟩,
    ⟨main_cst_6, by decide, rfl⟩,
    ⟨main_v31, by decide, rfl⟩,
    ⟨main_cst_7, by decide, rfl⟩,
    ⟨main_v32, by decide, rfl⟩,
    ⟨main_cst_8, by decide, rfl⟩,
    ⟨main_v33, by decide, rfl⟩,
    ⟨main_cst_9, by decide, rfl⟩,
    ⟨main_v34, by decide, rfl⟩,
    ⟨main_cst_10, by decide, rfl⟩,
    ⟨main_v35, by decide, rfl⟩,
    ⟨main_v36, by decide, rfl⟩,
    ⟨main_v37, by decide, rfl⟩,
    ⟨main_v38, by decide, rfl⟩,
    ⟨main_v39, by decide, rfl⟩,
    ⟨main_v40, by decide, rfl⟩⟩

/-- A reference outside that list is written by no operation after the region. -/
theorem hostOps1_keeps_of (b : Ref sig .tc) (hb : b ∉ wr1) :
    ∀ op ∈ (hostOps1 : List (HloOp τ sig (Elt F))), Proc.devRef (τ := τ) .tc b ∉ op.writes := by
  intro op hop
  obtain ⟨y, hy, e⟩ := (List.forall_iff_forall_mem.mp hostOps1_writes) op hop
  rw [e, Finset.mem_singleton]
  exact StableHlo.devRef_ne_of_ne (fun h => hb (h ▸ hy))

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa only [List.mem_singleton] using hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  obtain rfl : ops = hostOps1 := by simpa only [List.mem_singleton] using hops
  exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := by simpa only [List.mem_singleton] using hops
  exact hostOps1_keeps_of _ ((by decide : ∀ w, Pipeline.arrRef spec0 w ∉ wr1) w) op hop

/-- The operations before the region write no argument: each argument is entered at its launch contents. -/
theorem V_main_arg0 (c : Dev nD) : V m c main_arg0 = m ((c : Thread nD τ).loc main_arg0) := by
  dsimp only [V, V0]
  simp only [hostOps0, List.flatten_cons, List.flatten_nil, List.append_nil]
  after_results
theorem V_main_arg1 (c : Dev nD) : V m c main_arg1 = m ((c : Thread nD τ).loc main_arg1) := by
  dsimp only [V, V0]
  simp only [hostOps0, List.flatten_cons, List.flatten_nil, List.append_nil]
  after_results
theorem V_main_arg2 (c : Dev nD) : V m c main_arg2 = m ((c : Thread nD τ).loc main_arg2) := by
  dsimp only [V, V0]
  simp only [hostOps0, List.flatten_cons, List.flatten_nil, List.append_nil]
  after_results
theorem V_main_arg3 (c : Dev nD) : V m c main_arg3 = m ((c : Thread nD τ).loc main_arg3) := by
  dsimp only [V, V0]
  simp only [hostOps0, List.flatten_cons, List.flatten_nil, List.append_nil]
  after_results

/-! ## The windows' blocks -/

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A reference that is no array of the pipeline and is written by no operation after the region holds, after those
    operations, what the region was entered at. -/
theorem tail_keeps (dats : (p : Fin 1) → (c : Dev nD) → Dat τ (Elt F) Unit ℕ (UR sig nD τ) ℕ (cfgs p) c) (c : Dev nD)
    (b : Ref sig .tc) (hb : b ∉ wr1) (ha : ∀ w, Pipeline.arrRef spec0 w ≠ b) :
    Pipeline.afterTail₀ cfgs dats 0 (V0 m) [hostOps1] c b = V m c b := by
  unfold Pipeline.afterTail₀
  rw [show ([hostOps1] : List (List (HloOp τ sig (Elt F)))).flatten = hostOps1 from List.append_nil _,
    StableHlo.after_of_forall_not_mem hostOps1 _ (hostOps1_keeps_of b hb)]
  exact Pipeline.withArrays_of_ne (cfgs 0).spec c (V0 m c) _ b ha

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 rfl (by decide))).trans ((tail_keeps m dats c main_arg0 (by decide) (by decide)).trans (V_main_arg0 m c)),
     ((h c).2 main_arg1 (Pipeline.mem_restRefs_of main_arg1 rfl (by decide))).trans ((tail_keeps m dats c main_arg1 (by decide) (by decide)).trans (V_main_arg1 m c)),
     ((h c).2 main_arg2 (Pipeline.mem_restRefs_of main_arg2 rfl (by decide))).trans ((tail_keeps m dats c main_arg2 (by decide) (by decide)).trans (V_main_arg2 m c)),
     ((h c).1 1).trans (((dats 0 c).arrAt_in 1 rfl _).trans ((hA c 1).trans (V_main_arg3 m c)))⟩) h

/-! ## The body's branch conditions -/

/-- The first condition holds at the grid's first point only. -/
theorem hcondFirst : ∀ t : Fin cfg0.N, condFirst (grid0.coords t) ↔ t.val = 0 :=
  (by decide +kernel : ∀ t : Fin grid0.N, condFirst (grid0.coords t) ↔ t.val = 0)
/-- The second condition holds at the grid's last point only. -/
theorem hcondLast : ∀ t : Fin cfg0.N, condLast (grid0.coords t) ↔ t.val = 255 :=
  (by decide +kernel : ∀ t : Fin grid0.N, condLast (grid0.coords t) ↔ t.val = 255)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem idleAt0_3 : ∀ t : Fin cfg0.N, ¬condLast (grid0.coords t) → cfg0.idle 3 (grid0.coords t) = true := by decide +kernel
theorem idleAt0_4 : ∀ t : Fin cfg0.N, ¬condLast (grid0.coords t) → cfg0.idle 4 (grid0.coords t) = true := by decide +kernel
theorem noFlush0_3 : ∀ t : Fin cfg0.N, ¬condLast (grid0.coords t) → (cfg0.win 3).flush t = false := by decide +kernel
theorem noFlush0_4 : ∀ t : Fin cfg0.N, ¬condLast (grid0.coords t) → (cfg0.win 4).flush t = false := by decide +kernel
theorem liveAt0_3 : ∀ t : Fin cfg0.N, condLast (grid0.coords t) → cfg0.idle 3 (grid0.coords t) = false := by decide +kernel
theorem liveAt0_4 : ∀ t : Fin cfg0.N, condLast (grid0.coords t) → cfg0.idle 4 (grid0.coords t) = false := by decide +kernel

/-! ## The staging and scratch memrefs -/

abbrev ms0_0 (t : Fin cfg0.N) : Memref sig .tc .vmem S8x256x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1 .f32 := win0_4.stage (cfg0.slots t 4)
abbrev hs0_4 (t : Fin cfg0.N) : (ms0_4 t).IsWhole := hstage0_4 ((cfg0.slots t 4).cast nbuf0_4)
/-- The four running-minimum buffers: whole scoped buffers of the kernel's own, passed beside the windows. -/
abbrev scM0_0 : Memref sig .tc .vmem S8x4096 .f32 := Memref.whole cc0_scratch0
abbrev scM0_1 : Memref sig .tc .vmem S8x4096 .f32 := Memref.whole cc0_scratch1
abbrev scM0_2 : Memref sig .tc .vmem S8x4096 .f32 := Memref.whole cc0_scratch2
abbrev scM0_3 : Memref sig .tc .vmem S8x4096 .f32 := Memref.whole cc0_scratch3

/-- The kernel body at a point is the body called on these memrefs. -/
theorem bodyAt0_eq (t : Fin cfg0.N) : (bodyAt0 t : Prog (TpuEff nD τ sig (Elt F) Λ₀ .tc) PUnit)
    = cc0__chamfer_kernel (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) scM0_2 (Memref.isWhole_whole _) scM0_3 (Memref.isWhole_whole _) := rfl

/-- The region invariant with the four buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KI.RunLemmas.lean ====
import proofs.«166136_j14345190769122_1_alg».proof.Proof.KI.RunDefs
import proofs.«166136_j14345190769122_1_alg».proof.Proof.Gen.KernelIdeal.Launch
import proofs.«166136_j14345190769122_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A whole buffer that read `s`, after ONE store of `w` through the slice at offsets `o`, reads `sliceWr o inb s w`:
    the new value under the slice, the old one elsewhere. -/
theorem read_writes_slice (arg : Memref sig .tc .vmem S8x4096 .f32) (harg : arg.IsWhole) (o : Fin 2 → ℕ)
    (inb : ∀ a, o a + S8x256.size a ≤ S8x4096.size a) (s : Vec F S8x4096 .f32) (w : Vec F S8x256 .f32) :
    arg.view.read (Elt F) (arg.view.writes (Elt F) (harg.unread s)
        [(⟨Rect.unit (s := S8x4096) o S8x256.size inb, w⟩ : View.Piece (Elt F) S8x4096 .f32)])
      = sliceWr o inb s w := by
  funext y
  rw [View.read_writes_cons_unit arg.view (harg.unread s) inb w [] y rfl]
  unfold sliceWr
  simp only [View.writes_nil, harg.read_unread]

/-- What a load through the slice reads of a whole buffer that reads `s`. -/
theorem readAt_slice (arg : Memref sig .tc .vmem S8x4096 .f32) (harg : arg.IsWhole) (o : Fin 2 → ℕ)
    (inb : ∀ a, o a + S8x256.size a ≤ S8x4096.size a) (s : Vec F S8x4096 .f32) :
    View.readAt (Elt F) arg.view (Rect.unit (s := S8x4096) o S8x256.size inb).toLoadRect (harg.unread s) = sliceRd o inb s := by
  rw [View.readAt_eq_ld, harg.read_unread]; rfl

/-- The same over ANY earlier stores `L` and prior contents `f`, once what they leave reads `p`: one more store of
    `w` through the slice leaves `sliceWr o inb p w`. -/
theorem read_writes_slice_over (arg : Memref sig .tc .vmem S8x4096 .f32) (f : arg.view.ty.Contents (Elt F)) (o : Fin 2 → ℕ)
    (inb : ∀ a, o a + S8x256.size a ≤ S8x4096.size a) (p : Vec F S8x4096 .f32) (w : Vec F S8x256 .f32)
    (L : List (View.Piece (Elt F) S8x4096 .f32)) (hL : arg.view.read (Elt F) (arg.view.writes (Elt F) f L) = p) :
    arg.view.read (Elt F) (arg.view.writes (Elt F) f
        ((⟨Rect.unit (s := S8x4096) o S8x256.size inb, w⟩ : View.Piece (Elt F) S8x4096 .f32) :: L))
      = sliceWr o inb p w := by
  funext y
  rw [View.read_writes_cons_unit arg.view f inb w L y rfl]
  unfold sliceWr
  rw [hL]

/-- A load through the slice of a buffer whose pending stores leave it reading `p`. -/
theorem readAt_slice_over (arg : Memref sig .tc .vmem S8x4096 .f32) (f : arg.view.ty.Contents (Elt F)) (o : Fin 2 → ℕ)
    (inb : ∀ a, o a + S8x256.size a ≤ S8x4096.size a) (p : Vec F S8x4096 .f32)
    (L : List (View.Piece (Elt F) S8x4096 .f32)) (hL : arg.view.read (Elt F) (arg.view.writes (Elt F) f L) = p) :
    View.readAt (Elt F) arg.view (Rect.unit (s := S8x4096) o S8x256.size inb).toLoadRect (arg.view.writes (Elt F) f L)
      = sliceRd o inb p := by
  rw [View.readAt_eq_ld, hL]; rfl

/-- ONE store through the whole-shape rectangle at zero offsets leaves its payload, whatever was there. -/
theorem read_writes_whole_unit {S : Shape} (arg : Memref sig .tc .vmem S .f32) (f : arg.view.ty.Contents (Elt F))
    {off : Fin S.rank → ℕ} (hz : off = fun _ => 0) (inb : ∀ a, off a + S.size a ≤ S.size a) (p : Vec F S .f32)
    (L : List (View.Piece (Elt F) S .f32)) :
    arg.view.read (Elt F) (arg.view.writes (Elt F) f ((⟨Rect.unit (s := S) off S.size inb, p⟩ : View.Piece (Elt F) S .f32) :: L)) = p := by
  funext y
  exact View.read_writes_cons_unit_of_mem arg.view f inb p L y y rfl (fun a => by subst hz; exact (Nat.zero_add _).symm)

end Cert.KernelIdeal.Hand

end
-- ==== Proof.KI.RunA.lean ====
/-
  The kernel body at the grid's FIRST point, run whole: the four running-minimum buffers are first filled with the
  largest value and then each has one slice lowered by the tile's minima.
-/
import proofs.«166136_j14345190769122_1_alg».proof.Proof.KI.RunDefs
import proofs.«166136_j14345190769122_1_alg».proof.Proof.Gen.KernelIdeal.Launch
import proofs.«166136_j14345190769122_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«166136_j14345190769122_1_alg».proof.Proof.KI.RunLemmas
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- THE BODY AT THE FIRST POINT. On whole memrefs — the three input blocks at their contents, the two result blocks and
    the four running-minimum buffers at anything — the body runs to its end holding the inputs as they were, the
    result blocks untouched, and the four buffers at `scStep i x0 x1 x2 scInit`: each was filled with the largest
    value and then had ONE slice overwritten by that slice lowered by the tile's minima. -/
theorem runA (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256x3 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S8x4096 .f32) (harg10 : arg10.IsWhole)
    (hc0 : condFirst i) (hc1 : ¬condLast i) (x0 x1 x2 : Vec F S8x256x3 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare (scStep i x0 x1 x2 scInit).1 ∗ owns (c : Thread nD τ) arg8 fullShare (scStep i x0 x1 x2 scInit).2.1 ∗ owns (c : Thread nD τ) arg9 fullShare (scStep i x0 x1 x2 scInit).2.2.1 ∗ owns (c : Thread nD τ) arg10 fullShare (scStep i x0 x1 x2 scInit).2.2.2) -∗ K ⟨⟩))
      ⊢ wp frame (wpE (defs₀ (F := F)) Variants.none c none) E (cc0__chamfer_kernel i arg2 harg2 arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2
  have hz3 : (![0, 0, 0] : Fin S8x256x3.rank → ℕ) = fun _ => 0 := funext fun a => by fin_cases a <;> rfl
  have hz2 : (![0, 0] : Fin S8x4096.rank → ℕ) = fun _ => 0 := funext fun a => by fin_cases a <;> rfl
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H5]; · iexists (View.read (Elt F) arg5.view f5); iexists f5; isplitr; · ipureintro; rfl
                  iexact H5
  isplitl [H6]; · iexists (View.read (Elt F) arg6.view f6); iexists f6; isplitr; · ipureintro; rfl
                  iexact H6
  isplitl [H7]
  · iexists _; isplitr; swap; · iexact H7
    ipureintro
    have hL : arg7.view.read (Elt F) (arg7.view.writes (Elt F) arg7.view.junk runA.sl.H7_1) = k0_pay1 := by
      sl_unfold_words; exact read_writes_whole_unit arg7 _ hz2 _ k0_pay1 []
    refine (read_writes_slice_over arg7 _ (k0_off1 i) (k0_off1_inb i) k0_pay1 _ _ hL).trans ?_
    refine congrArg (sliceWr (k0_off1 i) (k0_off1_inb i) k0_pay1) ?_
    rw [readAt_slice_over arg7 _ (k0_off1 i) (k0_off1_inb i) k0_pay1 _ hL]
    refine congrArg (fun z => k0_pay11 z _) ?_
    sl_unfold_words
    simp only [View.readAt_eq_ld, harg2.read_unread, harg3.read_unread, View.ld_unit_zero (S := S8x256x3) hz3]
  isplitl [H8]
  · iexists _; isplitr; swap; · iexact H8
    ipureintro
    have hL : arg8.view.read (Elt F) (arg8.view.writes (Elt F) arg8.view.junk runA.sl.H8_1) = k0_pay2 := by
      sl_unfold_words; exact read_writes_whole_unit arg8 _ hz2 _ k0_pay2 []
    refine (read_writes_slice_over arg8 _ (k0_off1 i) (k0_off1_inb i) k0_pay2 _ _ hL).trans ?_
    refine congrArg (sliceWr (k0_off1 i) (k0_off1_inb i) k0_pay2) ?_
    rw [readAt_slice_over arg8 _ (k0_off1 i) (k0_off1_inb i) k0_pay2 _ hL]
    refine congrArg (fun z => k0_pay12 z _) ?_
    sl_unfold_words
    simp only [View.readAt_eq_ld, harg2.read_unread, harg4.read_unread, View.ld_unit_zero (S := S8x256x3) hz3]
  isplitl [H9]
  · iexists _; isplitr; swap; · iexact H9
    ipureintro
    have hL : arg9.view.read (Elt F) (arg9.view.writes (Elt F) arg9.view.junk runA.sl.H9_1) = k0_pay3 := by
      sl_unfold_words; exact read_writes_whole_unit arg9 _ hz2 _ k0_pay3 []
    refine (read_writes_slice_over arg9 _ (k0_off2 i) (k0_off2_inb i) k0_pay3 _ _ hL).trans ?_
    refine congrArg (sliceWr (k0_off2 i) (k0_off2_inb i) k0_pay3) ?_
    rw [readAt_slice_over arg9 _ (k0_off2 i) (k0_off2_inb i) k0_pay3 _ hL]
    refine congrArg (fun z => k0_pay13 z _) ?_
    sl_unfold_words
    simp only [View.readAt_eq_ld, harg2.read_unread, harg3.read_unread, View.ld_unit_zero (S := S8x256x3) hz3]
  · iexists _; isplitr; swap; · iexact H10
    ipureintro
    have hL : arg10.view.read (Elt F) (arg10.view.writes (Elt F) arg10.view.junk runA.sl.H10_1) = k0_pay4 := by
      sl_unfold_words; exact read_writes_whole_unit arg10 _ hz2 _ k0_pay4 []
    refine (read_writes_slice_over arg10 _ (k0_off2 i) (k0_off2_inb i) k0_pay4 _ _ hL).trans ?_
    refine congrArg (sliceWr (k0_off2 i) (k0_off2_inb i) k0_pay4) ?_
    rw [readAt_slice_over arg10 _ (k0_off2 i) (k0_off2_inb i) k0_pay4 _ hL]
    refine congrArg (fun z => k0_pay14 z _) ?_
    sl_unfold_words
    simp only [View.readAt_eq_ld, harg2.read_unread, harg4.read_unread, View.ld_unit_zero (S := S8x256x3) hz3]

end Cert.KernelIdeal.Hand

end
-- ==== Proof.KI.RunB.lean ====
import proofs.«166136_j14345190769122_1_alg».proof.Proof.KI.RunDefs
import proofs.«166136_j14345190769122_1_alg».proof.Proof.Gen.KernelIdeal.Launch
import proofs.«166136_j14345190769122_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«166136_j14345190769122_1_alg».proof.Proof.KI.RunLemmas
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- THE BODY AT A POINT THAT IS NEITHER THE FIRST NOR THE LAST. On whole memrefs — the three input blocks at their
    contents, the two result blocks at anything, the four running-minimum buffers at `s` — the body runs to its end
    holding the inputs as they were, the result blocks untouched, and the four buffers at `scStep i x0 x1 x2 s`:
    each had ONE slice overwritten by the old slice lowered by the tile's minima. -/
theorem runB (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256x3 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S8x4096 .f32) (harg10 : arg10.IsWhole)
    (hc0 : ¬condFirst i) (hc1 : ¬condLast i) (x0 x1 x2 : Vec F S8x256x3 .f32) (s : Sc F)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare s.1 ∗ owns (c : Thread nD τ) arg8 fullShare s.2.1
        ∗ owns (c : Thread nD τ) arg9 fullShare s.2.2.1 ∗ owns (c : Thread nD τ) arg10 fullShare s.2.2.2
        ∗ (iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare (scStep i x0 x1 x2 s).1 ∗ owns (c : Thread nD τ) arg8 fullShare (scStep i x0 x1 x2 s).2.1
            ∗ owns (c : Thread nD τ) arg9 fullShare (scStep i x0 x1 x2 s).2.2.1 ∗ owns (c : Thread nD τ) arg10 fullShare (scStep i x0 x1 x2 s).2.2.2) -∗ K ⟨⟩))
      ⊢ wp frame (wpE (defs₀ (F := F)) Variants.none c none) E (cc0__chamfer_kernel i arg2 harg2 arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d5, %f5, -, H5⟩, ⟨%d6, %f6, -, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2
  obtain rfl := harg7.eq_unread hf7; obtain rfl := harg8.eq_unread hf8; obtain rfl := harg9.eq_unread hf9; obtain rfl := harg10.eq_unread hf10
  have hz3 : (![0, 0, 0] : Fin S8x256x3.rank → ℕ) = fun _ => 0 := funext fun a => by fin_cases a <;> rfl
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H5]; · iexists (View.read (Elt F) arg5.view f5); iexists f5; isplitr; · ipureintro; rfl
                  iexact H5
  isplitl [H6]; · iexists (View.read (Elt F) arg6.view f6); iexists f6; isplitr; · ipureintro; rfl
                  iexact H6
  isplitl [H7]
  · iexists _; isplitr; swap; · iexact H7
    ipureintro
    refine (read_writes_slice arg7 harg7 (k0_off1 i) (k0_off1_inb i) s.1 _).trans ?_
    refine congrArg (sliceWr (k0_off1 i) (k0_off1_inb i) s.1) ?_
    rw [readAt_slice]
    refine congrArg (fun z => k0_pay11 z _) ?_
    sl_unfold_words
    simp only [View.readAt_eq_ld, harg2.read_unread, harg3.read_unread, View.ld_unit_zero (S := S8x256x3) hz3]
  isplitl [H8]
  · iexists _; isplitr; swap; · iexact H8
    ipureintro
    refine (read_writes_slice arg8 harg8 (k0_off1 i) (k0_off1_inb i) s.2.1 _).trans ?_
    refine congrArg (sliceWr (k0_off1 i) (k0_off1_inb i) s.2.1) ?_
    rw [readAt_slice]
    refine congrArg (fun z => k0_pay12 z _) ?_
    sl_unfold_words
    simp only [View.readAt_eq_ld, harg2.read_unread, harg4.read_unread, View.ld_unit_zero (S := S8x256x3) hz3]
  isplitl [H9]
  · iexists _; isplitr; swap; · iexact H9
    ipureintro
    refine (read_writes_slice arg9 harg9 (k0_off2 i) (k0_off2_inb i) s.2.2.1 _).trans ?_
    refine congrArg (sliceWr (k0_off2 i) (k0_off2_inb i) s.2.2.1) ?_
    rw [readAt_slice]
    refine congrArg (fun z => k0_pay13 z _) ?_
    sl_unfold_words
    simp only [View.readAt_eq_ld, harg2.read_unread, harg3.read_unread, View.ld_unit_zero (S := S8x256x3) hz3]
  · iexists _; isplitr; swap; · iexact H10
    ipureintro
    refine (read_writes_slice arg10 harg10 (k0_off2 i) (k0_off2_inb i) s.2.2.2 _).trans ?_
    refine congrArg (sliceWr (k0_off2 i) (k0_off2_inb i) s.2.2.2) ?_
    rw [readAt_slice]
    refine congrArg (fun z => k0_pay14 z _) ?_
    sl_unfold_words
    simp only [View.readAt_eq_ld, harg2.read_unread, harg4.read_unread, View.ld_unit_zero (S := S8x256x3) hz3]

end Cert.KernelIdeal.Hand

end
-- ==== Proof.KI.RunC.lean ====
/-
  The kernel body at the grid's LAST point, run whole: each of the four running-minimum buffers has one slice lowered
  by the tile's minima, and the two result blocks are stored from the buffers as they then are.
-/
import proofs.«166136_j14345190769122_1_alg».proof.Proof.KI.RunDefs
import proofs.«166136_j14345190769122_1_alg».proof.Proof.Gen.KernelIdeal.Launch
import proofs.«166136_j14345190769122_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«166136_j14345190769122_1_alg».proof.Proof.KI.RunLemmas
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- THE BODY AT THE LAST POINT. On whole memrefs — the three input blocks at their contents, the two result blocks at
    anything, the four running-minimum buffers at `s` — the body runs to its end holding the inputs as they were, the
    four buffers at `scStep i x0 x1 x2 s` (each had ONE slice overwritten by the old slice lowered by the tile's
    minima), and the two result blocks at the means read off those buffers: `outA` and `outB` of them. -/
theorem runC (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256x3 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S8x4096 .f32) (harg10 : arg10.IsWhole)
    (hc0 : ¬condFirst i) (hc1 : condLast i) (x0 x1 x2 : Vec F S8x256x3 .f32) (s : Sc F)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare (s).1 ∗ owns (c : Thread nD τ) arg8 fullShare (s).2.1 ∗ owns (c : Thread nD τ) arg9 fullShare (s).2.2.1 ∗ owns (c : Thread nD τ) arg10 fullShare (s).2.2.2
        ∗ (iprop(owns (c : Thread nD τ) arg2 fullShare x0 ∗ owns (c : Thread nD τ) arg3 fullShare x1 ∗ owns (c : Thread nD τ) arg4 fullShare x2
            ∗ owns (c : Thread nD τ) arg5 fullShare (outA (scStep i x0 x1 x2 s)) ∗ owns (c : Thread nD τ) arg6 fullShare (outB (scStep i x0 x1 x2 s))
            ∗ owns (c : Thread nD τ) arg7 fullShare (scStep i x0 x1 x2 s).1 ∗ owns (c : Thread nD τ) arg8 fullShare (scStep i x0 x1 x2 s).2.1 ∗ owns (c : Thread nD τ) arg9 fullShare (scStep i x0 x1 x2 s).2.2.1 ∗ owns (c : Thread nD τ) arg10 fullShare (scStep i x0 x1 x2 s).2.2.2) -∗ K ⟨⟩))
      ⊢ wp frame (wpE (defs₀ (F := F)) Variants.none c none) E (cc0__chamfer_kernel i arg2 harg2 arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d5, %f5, -, H5⟩, ⟨%d6, %f6, -, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2
  obtain rfl := harg7.eq_unread hf7; obtain rfl := harg8.eq_unread hf8; obtain rfl := harg9.eq_unread hf9; obtain rfl := harg10.eq_unread hf10
  have hz3 : (![0, 0, 0] : Fin S8x256x3.rank → ℕ) = fun _ => 0 := funext fun a => by fin_cases a <;> rfl
  have hz2 : (![0, 0] : Fin S8x4096.rank → ℕ) = fun _ => 0 := funext fun a => by fin_cases a <;> rfl
  have hz1 : (![0, 0] : Fin S8x1.rank → ℕ) = fun _ => 0 := funext fun a => by fin_cases a <;> rfl
  sl_exec (disch := first | exact hc0 | exact hc1)
  sl_step
  -- what each buffer reads after its one slice store
  have h7 : arg7.view.read (Elt F) (arg7.view.writes (Elt F) (harg7.unread s.1) (runC.sl.H7_1 c i arg2 harg2 arg3 harg3 arg7 harg7 x0 x1 s)) = (scStep i x0 x1 x2 s).1 := by
    sl_unfold_run_names
    refine (read_writes_slice arg7 harg7 (k0_off1 i) (k0_off1_inb i) s.1 _).trans ?_
    refine congrArg (sliceWr (k0_off1 i) (k0_off1_inb i) s.1) ?_
    rw [readAt_slice]
    refine congrArg (fun z => k0_pay11 z _) ?_
    simp only [View.readAt_eq_ld, harg2.read_unread, harg3.read_unread, View.ld_unit_zero (S := S8x256x3) hz3]
  have h8 : arg8.view.read (Elt F) (arg8.view.writes (Elt F) (harg8.unread s.2.1) (runC.sl.H8_1 c i arg2 harg2 arg4 harg4 arg8 harg8 x0 x2 s)) = (scStep i x0 x1 x2 s).2.1 := by
    sl_unfold_run_names
    refine (read_writes_slice arg8 harg8 (k0_off1 i) (k0_off1_inb i) s.2.1 _).trans ?_
    refine congrArg (sliceWr (k0_off1 i) (k0_off1_inb i) s.2.1) ?_
    rw [readAt_slice]
    refine congrArg (fun z => k0_pay12 z _) ?_
    simp only [View.readAt_eq_ld, harg2.read_unread, harg4.read_unread, View.ld_unit_zero (S := S8x256x3) hz3]
  have h9 : arg9.view.read (Elt F) (arg9.view.writes (Elt F) (harg9.unread s.2.2.1) (runC.sl.H9_1 c i arg2 harg2 arg3 harg3 arg9 harg9 x0 x1 s)) = (scStep i x0 x1 x2 s).2.2.1 := by
    sl_unfold_run_names
    refine (read_writes_slice arg9 harg9 (k0_off2 i) (k0_off2_inb i) s.2.2.1 _).trans ?_
    refine congrArg (sliceWr (k0_off2 i) (k0_off2_inb i) s.2.2.1) ?_
    rw [readAt_slice]
    refine congrArg (fun z => k0_pay13 z _) ?_
    simp only [View.readAt_eq_ld, harg2.read_unread, harg3.read_unread, View.ld_unit_zero (S := S8x256x3) hz3]
  have h10 : arg10.view.read (Elt F) (arg10.view.writes (Elt F) (harg10.unread s.2.2.2) (runC.sl.H10_1 c i arg2 harg2 arg4 harg4 arg10 harg10 x0 x2 s)) = (scStep i x0 x1 x2 s).2.2.2 := by
    sl_unfold_run_names
    refine (read_writes_slice arg10 harg10 (k0_off2 i) (k0_off2_inb i) s.2.2.2 _).trans ?_
    refine congrArg (sliceWr (k0_off2 i) (k0_off2_inb i) s.2.2.2) ?_
    rw [readAt_slice]
    refine congrArg (fun z => k0_pay14 z _) ?_
    simp only [View.readAt_eq_ld, harg2.read_unread, harg4.read_unread, View.ld_unit_zero (S := S8x256x3) hz3]
  -- the four whole-buffer loads the result blocks are computed from read those
  have hv75 : runC.sl.v75 c i arg2 harg2 arg3 harg3 arg7 harg7 x0 x1 s = (scStep i x0 x1 x2 s).1 := by
    unfold runC.sl.v75
    rw [View.readAt_eq_ld, h7]
    exact View.ld_unit_zero (S := S8x4096) hz2 _ _
  have hv80 : runC.sl.v80 c i arg2 harg2 arg3 harg3 arg9 harg9 x0 x1 s = (scStep i x0 x1 x2 s).2.2.1 := by
    unfold runC.sl.v80
    rw [View.readAt_eq_ld, h9]
    exact View.ld_unit_zero (S := S8x4096) hz2 _ _
  have hv86 : runC.sl.v86 c i arg2 harg2 arg4 harg4 arg8 harg8 x0 x2 s = (scStep i x0 x1 x2 s).2.1 := by
    unfold runC.sl.v86
    rw [View.readAt_eq_ld, h8]
    exact View.ld_unit_zero (S := S8x4096) hz2 _ _
  have hv91 : runC.sl.v91 c i arg2 harg2 arg4 harg4 arg10 harg10 x0 x2 s = (scStep i x0 x1 x2 s).2.2.2 := by
    unfold runC.sl.v91
    rw [View.readAt_eq_ld, h10]
    exact View.ld_unit_zero (S := S8x4096) hz2 _ _
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H5]
  · iexists _; isplitr; swap; · iexact H5
    ipureintro
    refine (read_writes_whole_unit arg5 f5 hz1 _ _ []).trans ?_
    rw [hv75, hv80]; rfl
  isplitl [H6]
  · iexists _; isplitr; swap; · iexact H6
    ipureintro
    refine (read_writes_whole_unit arg6 f6 hz1 _ _ []).trans ?_
    rw [hv86, hv91]; rfl
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  · iexists _; isplitr; swap; · iexact H10
    ipureintro; exact h10

end Cert.KernelIdeal.Hand

end
-- ==== Proof.KI.Frame.lean ====
/-
  The frame certificate of the program: what the four running-minimum buffers hold before each grid point as the
  region's invariant, the proof data of the one pipeline (each input window left at its block, the two result windows
  at the means of the buffers' rows), the body obligation by the three cases of a point (the first, the last, any
  other), the run of @main and the frame claim.
-/
import proofs.«166136_j14345190769122_1_alg».proof.Proof.KI.Kit
import proofs.«166136_j14345190769122_1_alg».proof.Proof.KI.RunA
import proofs.«166136_j14345190769122_1_alg».proof.Proof.KI.RunB
import proofs.«166136_j14345190769122_1_alg».proof.Proof.KI.RunC
import Idealize.ShloMosaic.Lib.Pipeline.TableIdle

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant: the four buffers point by point -/

/-- The region invariant before position `n`: before the first point the four buffers at anything (the class's
    invariant); afterwards each at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scAt m c n hn).1 ∗ owns (c : Thread nD τ) scM0_1 fullShare (scAt m c n hn).2.1
      ∗ owns (c : Thread nD τ) scM0_2 fullShare (scAt m c n hn).2.2.1 ∗ owns (c : Thread nD τ) scM0_3 fullShare (scAt m c n hn).2.2.2) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the buffers at that point's contents. -/
theorem PhiS_succ (c : Dev nD) (n : ℕ) (hn : n < cfg0.N) :
    PhiS m c (n + 1) hn = iprop(iprop(owns (c : Thread nD τ) scM0_0 fullShare (scAt m c n hn).1 ∗ owns (c : Thread nD τ) scM0_1 fullShare (scAt m c n hn).2.1
      ∗ owns (c : Thread nD τ) scM0_2 fullShare (scAt m c n hn).2.2.1 ∗ owns (c : Thread nD τ) scM0_3 fullShare (scAt m c n hn).2.2.2) ∗ (∃ r, prngReg c r)) := rfl

/-- Before a point that is not the first: the buffers at what the point before left. -/
theorem PhiS_pos (c : Dev nD) (n : ℕ) (h : n ≤ cfg0.N) (hz : n ≠ 0) :
    PhiS m c n h = iprop(iprop(owns (c : Thread nD τ) scM0_0 fullShare (scAt m c (n - 1) (by omega)).1 ∗ owns (c : Thread nD τ) scM0_1 fullShare (scAt m c (n - 1) (by omega)).2.1
      ∗ owns (c : Thread nD τ) scM0_2 fullShare (scAt m c (n - 1) (by omega)).2.2.1 ∗ owns (c : Thread nD τ) scM0_3 fullShare (scAt m c (n - 1) (by omega)).2.2.2) ∗ (∃ r, prngReg c r)) := by
  cases n with
  | zero => exact absurd rfl hz
  | succ n => rfl

/-- At the first point the buffers' contents are the step from the buffers full of the largest value. -/
theorem scAt_first (c : Dev nD) (t : Fin cfg0.N) (hz : t.val = 0) :
    scAt m c t.val t.isLt = scStep (grid0.coords t) (iblk m c 0 t) (iblk m c 1 t) (iblk m c 2 t) scInit := by
  obtain ⟨n, hn⟩ := t
  cases n with
  | zero => rfl
  | succ n => exact absurd hz (Nat.succ_ne_zero n)

/-! ## The pipeline's proof data -/

/-- The proof data of the one pipeline on core `c`: the arrays as the region finds them; after the body at point `t`
    each input's buffer at its block, the two result buffers at the means read off the four buffers there (consulted
    at the last point only: elsewhere the two windows are idle and not written back); the invariant `PhiS`; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outA (scAt m c t.val t.isLt)
    | ⟨4, _⟩ => outB (scAt m c t.val t.isLt)
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outA (scAt m c t.val t.isLt) := by dsimp only [dats]
theorem after0_4 (c : Dev nD) (t : Fin cfg0.N) : (dats m 0 c).after 4 t = outB (scAt m c t.val t.isLt) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A point before which every point is not the last. -/
theorem not_last_of_lt (t j : Fin cfg0.N) (hj : j.val < t.val) : ¬condLast (grid0.coords j) := fun h => by
  have h1 := (hcondLast j).mp h
  have h2 : t.val < 256 := lt_of_lt_of_eq t.isLt (show cfg0.N = 256 from N_0)
  omega

/-- The two result windows are never fetched and, before the last point, idle and not written back: at every point
    their staging buffers hold whatever they held when the region began. -/
theorem before0_3 (c : Dev nD) (t : Fin cfg0.N) (d) : (dats m 0 c).before 3 t d = d := by
  rw [Dat.before_idle_run (dats m 0 c) 3 (fun t => (cfg0.win 3).fetch_out rfl t) d t.val t (Nat.le_refl _)
    (fun j _ hj => ⟨idleAt0_3 j (not_last_of_lt t j hj), noFlush0_3 j (not_last_of_lt t j hj)⟩)]
  exact Dat.before_out_reset _ 3 rfl _ (.inl (Nat.sub_self _)) d
theorem before0_4 (c : Dev nD) (t : Fin cfg0.N) (d) : (dats m 0 c).before 4 t d = d := by
  rw [Dat.before_idle_run (dats m 0 c) 4 (fun t => (cfg0.win 4).fetch_out rfl t) d t.val t (Nat.le_refl _)
    (fun j _ hj => ⟨idleAt0_4 j (not_last_of_lt t j hj), noFlush0_4 j (not_last_of_lt t j hj)⟩)]
  exact Dat.before_out_reset _ 4 rfl _ (.inl (Nat.sub_self _)) d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The body at any point, by the three cases of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hN : t.val < 256 := lt_of_lt_of_eq t.isLt (show cfg0.N = 256 from N_0)
  by_cases hz : t.val = 0
  · -- the first point: the buffers are handed at anything and left at the step from the largest value
    have hcF : condFirst (grid0.coords t) := (hcondFirst t).mpr hz
    have hcL : ¬condLast (grid0.coords t) := fun h => by have := (hcondLast t).mp h; omega
    rw [Dat.leavesExact_idle (dats m 0 c) 3 t (idleAt0_3 t hcL) (noFlush0_3 t hcL),
      Dat.leavesExact_idle (dats m 0 c) 4 t (idleAt0_4 t hcL) (noFlush0_4 t hcL)]
    simp only [before0_0, before0_1, before0_2, before0_3, before0_4]
    rw [PhiS_castSucc m c t, PhiS_zero m c _ _ hz, PhiA0_eq, scAt_first m c t hz]
    iintro ⟨⟨⟨S0, S1, S2, S3⟩, Hg⟩, Ho, ⟨%d0, H0⟩, ⟨%d1, H1⟩, ⟨%d2, H2⟩, H3, H4⟩
    iapply (runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hcF hcL (iblk m c 0 t) (iblk m c 1 t) (iblk m c 2 t) Set.univ _)
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨H0, H1, H2, H3, H4, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    iexact H4
  · have hcF : ¬condFirst (grid0.coords t) := fun h => hz ((hcondFirst t).mp h)
    by_cases hl : t.val = 255
    · -- the last point: the two result blocks are stored, the means of the buffers the step leaves
      have hcL : condLast (grid0.coords t) := (hcondLast t).mpr hl
      rw [show (dats m 0 c).leavesExact 3 t = owns (c : Thread nD τ) (ms0_3 t) fullShare ((dats m 0 c).after 3 t) from by
        unfold Dat.leavesExact; rw [liveAt0_3 t hcL], after0_3]
      rw [show (dats m 0 c).leavesExact 4 t = owns (c : Thread nD τ) (ms0_4 t) fullShare ((dats m 0 c).after 4 t) from by
        unfold Dat.leavesExact; rw [liveAt0_4 t hcL], after0_4]
      simp only [before0_0, before0_1, before0_2, before0_3, before0_4]
      rw [PhiS_castSucc m c t, PhiS_pos m c _ _ hz, scAt_pos m c t hz]
      iintro ⟨⟨⟨S0, S1, S2, S3⟩, Hg⟩, Ho, ⟨%d0, H0⟩, ⟨%d1, H1⟩, ⟨%d2, H2⟩, H3, H4⟩
      iapply (runC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hcF hcL (iblk m c 0 t) (iblk m c 1 t) (iblk m c 2 t) (scAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iintro ⟨H0, H1, H2, H3, H4, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      iexact H4
    · -- any other point: the two result windows idle, the buffers stepped from what the point before left
      have hcL : ¬condLast (grid0.coords t) := fun h => hl ((hcondLast t).mp h)
      rw [Dat.leavesExact_idle (dats m 0 c) 3 t (idleAt0_3 t hcL) (noFlush0_3 t hcL),
        Dat.leavesExact_idle (dats m 0 c) 4 t (idleAt0_4 t hcL) (noFlush0_4 t hcL)]
      simp only [before0_0, before0_1, before0_2, before0_3, before0_4]
      rw [PhiS_castSucc m c t, PhiS_pos m c _ _ hz, scAt_pos m c t hz]
      iintro ⟨⟨⟨S0, S1, S2, S3⟩, Hg⟩, Ho, ⟨%d0, H0⟩, ⟨%d1, H1⟩, ⟨%d2, H2⟩, H3, H4⟩
      iapply (runB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hcF hcL (iblk m c 0 t) (iblk m c 1 t) (iblk m c 2 t) (scAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iintro ⟨H0, H1, H2, H3, H4, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨S0, S1, S2, S3⟩, Hg⟩
  isplitl [S0 S1 S2 S3]
  · isplitl [S0]; · iexists _; iexact S0
    isplitl [S1]; · iexists _; iexact S1
    isplitl [S2]; · iexists _; iexact S2
    iexists _; iexact S3
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of @main on the TensorCores terminates, and every final state has every array of the
    pipeline at what the library computes from the proof data and every other unscoped buffer as the operations after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KI.HostSide.lean ====
/-
  The host side of the program around its one region, as functions of the launch contents: the two transformed
  source clouds computed before the region (the source cloud with a fourth coordinate 1 appended, multiplied by a
  batch of 4 x 4 matrices, the first three coordinates kept), the two matrix-difference norms computed after it (the
  Frobenius norm of the difference of the upper-left 3 x 3 blocks, the norm of the difference of the fourth columns'
  first three entries), and the final four numbers from the region's two result columns and those norms: the means
  over the eight batches of r0 + (s1 + s2) + half * r1, of r0, of s1 + s2 and of r1. Then what the run leaves in the
  result buffer, and the four arguments unchanged.
-/
import proofs.«166136_j14345190769122_1_alg».proof.Proof.KI.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The host operations as functions -/

/-- A source cloud transformed by a batch of 4 x 4 matrices: each point with a fourth coordinate 1 appended, times the
    batch's matrix (contracting the matrix's second axis), the first three coordinates of the product. -/
def predK (a : Vec F S8x4x4 .f32) (a2 : Vec F S8x4096x3 .f32) : Vec F S8x4096x3 .f32 :=
  extractStridedSlice S8x4096x3 ![0, 0, 0]
    (Host.dotGeneral dot_S8x4096x4_S8x4x4_S8x4096x4_2_2_1_1_0_0 none
      (concatenate S8x4096x4 2
        [⟨S8x4096x3, a2⟩, ⟨S8x4096x1, broadcastInDim S8x4096x1 ![] bcast_S_S8x4096x1 (constant S_ .f32 0x3F800000#32)⟩]
        concatenates_S8x4096x3_S8x4096x1_S8x4096x4_d2) a)
    slices_S8x4096x4_S8x4096x3_0_0_0

/-- Per batch, the Frobenius norm of the difference of the two matrices' upper-left 3 x 3 blocks. -/
def s1K (a0 a1 : Vec F S8x4x4 .f32) : Vec F S8 .f32 :=
  Host.sqrt (Host.reduceAdd
    (mulf (subf (extractStridedSlice S8x3x3 ![0, 0, 0] a0 slices_S8x4x4_S8x3x3_0_0_0)
                (extractStridedSlice S8x3x3 ![0, 0, 0] a1 slices_S8x4x4_S8x3x3_0_0_0))
          (subf (extractStridedSlice S8x3x3 ![0, 0, 0] a0 slices_S8x4x4_S8x3x3_0_0_0)
                (extractStridedSlice S8x3x3 ![0, 0, 0] a1 slices_S8x4x4_S8x3x3_0_0_0)))
    (constant S_ .f32 0x00000000#32) reducesTo_S8x3x3_S8_d1_2 h_S_)

/-- Per batch, the norm of the difference of the first three entries of the two matrices' fourth columns. -/
def s2K (a0 a1 : Vec F S8x4x4 .f32) : Vec F S8 .f32 :=
  Host.sqrt (Host.reduceAdd
    (mulf (subf (shapeCast S8x3 (extractStridedSlice S8x3x1 ![0, 0, 3] a0 slices_S8x4x4_S8x3x1_0_0_3) shapeCasts_S8x3x1_S8x3)
                (shapeCast S8x3 (extractStridedSlice S8x3x1 ![0, 0, 3] a1 slices_S8x4x4_S8x3x1_0_0_3) shapeCasts_S8x3x1_S8x3))
          (subf (shapeCast S8x3 (extractStridedSlice S8x3x1 ![0, 0, 3] a0 slices_S8x4x4_S8x3x1_0_0_3) shapeCasts_S8x3x1_S8x3)
                (shapeCast S8x3 (extractStridedSlice S8x3x1 ![0, 0, 3] a1 slices_S8x4x4_S8x3x1_0_0_3) shapeCasts_S8x3x1_S8x3)))
    (constant S_ .f32 0x00000000#32) reducesTo_S8x3_S8_d1 h_S_)

/-- The mean over the eight batches of an 8-vector: its sum from zero divided by the literal 8.0, as one number. -/
def meanK (v : Vec F S8 .f32) : Vec F S_ .f32 :=
  Host.divf (Host.reduceAdd v (constant S_ .f32 0x00000000#32) reducesTo_S8_S_d0 h_S_) (constant S_ .f32 0x41000000#32)

/-- The final four numbers from the region's two result columns r0, r1 and the two norms s1, s2: the means over the
    batches of r0 + (s1 + s2) + half * r1, of r0, of s1 + s2, of r1, side by side. -/
def tailK (r0 r1 : Vec F S8x1 .f32) (s1 s2 : Vec F S8 .f32) : Vec F S4 .f32 :=
  concatenate S4 0
    [⟨S1, broadcastInDim S1 ![] bcast_S_S1 (meanK
        (addf (addf (shapeCast S8 r0 shapeCasts_S8x1_S8) (addf s1 s2))
          (mulf (broadcastInDim S8 ![] bcast_S_S8 (constant S_ .f32 0x3F000000#32)) (shapeCast S8 r1 shapeCasts_S8x1_S8))))⟩,
     ⟨S1, broadcastInDim S1 ![] bcast_S_S1 (meanK (shapeCast S8 r0 shapeCasts_S8x1_S8))⟩,
     ⟨S1, broadcastInDim S1 ![] bcast_S_S1 (meanK (addf s1 s2))⟩,
     ⟨S1, broadcastInDim S1 ![] bcast_S_S1 (meanK (shapeCast S8 r1 shapeCasts_S8x1_S8))⟩]
    concatenates_S1_S1_S1_S1_S4_d0

variable (m : (ℓ : Loc nD τ sig) → Buf (Elt F) ℓ) (ρ : Dev nD → PrngReg)

/-! ## What the region is entered at, and what the operations after it compute -/

/-- The first transformed source cloud, as the region finds it. -/
theorem V_main_v3 (c : Dev nD) :
    V m c main_v3 = predK (m ((c : Thread nD τ).loc main_arg0)) (m ((c : Thread nD τ).loc main_arg2)) := by
  dsimp only [V, V0]
  simp only [hostOps0, List.flatten_cons, List.flatten_nil, List.append_nil]
  after_results
  rfl
/-- The second transformed source cloud, as the region finds it. -/
theorem V_main_v5 (c : Dev nD) :
    V m c main_v5 = predK (m ((c : Thread nD τ).loc main_arg1)) (m ((c : Thread nD τ).loc main_arg2)) := by
  dsimp only [V, V0]
  simp only [hostOps0, List.flatten_cons, List.flatten_nil, List.append_nil]
  after_results
  rfl

/-- The operations after the region, from any contents: the result buffer is the final four numbers of the two result
    arrays and the two matrices there. -/
theorem tail_of (W : Valuation τ sig (Elt F)) :
    StableHlo.after hostOps1 W (Proc.devRef .tc main_v40)
      = tailK (W (Proc.devRef .tc main_v6_0)) (W (Proc.devRef .tc main_v6_1))
          (s1K (W (Proc.devRef .tc main_arg0)) (W (Proc.devRef .tc main_arg1)))
          (s2K (W (Proc.devRef .tc main_arg0)) (W (Proc.devRef .tc main_arg1))) := by
  after_results_simp
  rfl

/-- The result buffer after the operations that follow the region, from the region's two result arrays. -/
theorem tail_value (c : Dev nD) :
    Pipeline.afterTail₀ cfgs (dats m) 0 (V0 m) [hostOps1] c main_v40
      = tailK ((dats m 0 c).arrAt 3 cfg0.N) ((dats m 0 c).arrAt 4 cfg0.N)
          (s1K (m ((c : Thread nD τ).loc main_arg0)) (m ((c : Thread nD τ).loc main_arg1)))
          (s2K (m ((c : Thread nD τ).loc main_arg0)) (m ((c : Thread nD τ).loc main_arg1))) := by
  unfold Pipeline.afterTail₀
  show StableHlo.after hostOps1 _ (Proc.devRef .tc main_v40) = _
  refine (tail_of _).trans ?_
  have e3 := Pipeline.withArrays_arr spec0 launch0.win.arr_inj c (V0 m c) (fun w => (dats m 0 c).arrAt w cfg0.N) 3
  have e4 := Pipeline.withArrays_arr spec0 launch0.win.arr_inj c (V0 m c) (fun w => (dats m 0 c).arrAt w cfg0.N) 4
  have e0 := (Pipeline.withArrays_of_ne spec0 c (V0 m c) (fun w => (dats m 0 c).arrAt w cfg0.N) main_arg0 (by decide)).trans
    (V_main_arg0 m c)
  have e1 := (Pipeline.withArrays_of_ne spec0 c (V0 m c) (fun w => (dats m 0 c).arrAt w cfg0.N) main_arg1 (by decide)).trans
    (V_main_arg1 m c)
  exact congr (congr (congrArg₂ tailK e3 e4) (congrArg₂ s1K e0 e1)) (congrArg₂ s2K e0 e1)

/-- THE RUN, READ: the result buffer at the final four numbers, the four arguments unchanged. -/
theorem run_value : θ_run defs (onTc (τ := τ) (main (F := F))) ⟨m, fun _ => 0, ρ⟩ (fun r => ∀ c : Dev nD,
      r.2.mem ((c.tc : Thread nD τ).loc main_v40)
        = tailK ((dats m 0 c).arrAt 3 cfg0.N) ((dats m 0 c).arrAt 4 cfg0.N)
            (s1K (m ((c : Thread nD τ).loc main_arg0)) (m ((c : Thread nD τ).loc main_arg1)))
            (s2K (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v40 (Pipeline.mem_restRefs_of main_v40 rfl (by decide))).trans (tail_value m c),
     ((h c).2 main_arg0 (Pipeline.mem_restRefs_of main_arg0 rfl (by decide))).trans
       ((tail_keeps m (dats m) c main_arg0 (by decide) (by decide)).trans (V_main_arg0 m c)),
     ((h c).2 main_arg1 (Pipeline.mem_restRefs_of main_arg1 rfl (by decide))).trans
       ((tail_keeps m (dats m) c main_arg1 (by decide) (by decide)).trans (V_main_arg1 m c)),
     ((h c).2 main_arg2 (Pipeline.mem_restRefs_of main_arg2 rfl (by decide))).trans
       ((tail_keeps m (dats m) c main_arg2 (by decide) (by decide)).trans (V_main_arg2 m c)),
     ((h c).1 1).trans (((dats m 0 c).arrAt_in 1 rfl _).trans ((A_eq m c 1).trans (V_main_arg3 m c)))⟩) (run_main m ρ)

/-! ## The two result arrays after the region -/

/-- The grid's last point, the only one whose results are written back. -/
abbrev tLast : Fin cfg0.N := ⟨255, by rw [show cfg0.N = 256 from N_0]; decide⟩

/-- The one write-back of the first result window, at the last point, writes the first result block there: the window's
    block is its whole 8 x 1 array, read through zero offsets. -/
theorem flushed3_eq (c : Dev nD) (t : Fin cfg0.N) (hf : (cfg0.win 3).flush t = true) :
    (dats m 0 c).flushed 3 t = ((cfg0.win 3).blk t).view.read (Elt F) (outA (scAt m c 255 tLast.isLt)) := by
  have hN : cfg0.N = 256 := N_0
  have h3 : t.val = 255 := by have := (flush0_3 t).mp hf; have := t.isLt; omega
  obtain rfl : t = tLast := Fin.ext h3
  show (cfg0.win 3).cut (grid0.coords tLast) ((dats m 0 c).after 3 tLast) = _
  rw [after0_3]
  have hz' : (fun a => win0_3.index tLast a * main_v6_0.ty.shape.size a) = fun _ => 0 :=
    funext fun a => by fin_cases a <;> decide +kernel
  exact (Memref.read_access_unit_zero (Elt F) main_v6_0 hz' (fun a => by rw [congrFun hz' a]; simp)
    (outA (scAt m c 255 tLast.isLt))).symm

/-- So the first result array ends holding the first result block of the buffers after the last point. -/
theorem final3blk (c : Dev nD) : (dats m 0 c).arrAt 3 cfg0.N = outA (scAt m c 255 tLast.isLt) :=
  (dats m 0 c).arrAt_eq_of_cover 3 (outA (scAt m c 255 tLast.isLt)) (flushed3_eq m c) fun i =>
    ⟨tLast, (flush0_3 tLast).mpr rfl, by
      show i ∈ ((View.whole main_v6_0).slice (win0_3.rect tLast)).set
      rw [View.set_slice_whole, Rect.mem_set_unit]
      intro a
      have h0 : (i 0 : Nat) < 8 := (i 0).isLt
      have h1 : (i 1 : Nat) < 1 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 8 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 1 from by decide +kernel]
        omega⟩

/-- The one write-back of the second result window, likewise. -/
theorem flushed4_eq (c : Dev nD) (t : Fin cfg0.N) (hf : (cfg0.win 4).flush t = true) :
    (dats m 0 c).flushed 4 t = ((cfg0.win 4).blk t).view.read (Elt F) (outB (scAt m c 255 tLast.isLt)) := by
  have hN : cfg0.N = 256 := N_0
  have h3 : t.val = 255 := by have := (flush0_4 t).mp hf; have := t.isLt; omega
  obtain rfl : t = tLast := Fin.ext h3
  show (cfg0.win 4).cut (grid0.coords tLast) ((dats m 0 c).after 4 tLast) = _
  rw [after0_4]
  have hz' : (fun a => win0_4.index tLast a * main_v6_1.ty.shape.size a) = fun _ => 0 :=
    funext fun a => by fin_cases a <;> decide +kernel
  exact (Memref.read_access_unit_zero (Elt F) main_v6_1 hz' (fun a => by rw [congrFun hz' a]; simp)
    (outB (scAt m c 255 tLast.isLt))).symm

/-- So the second result array ends holding the second result block of the buffers after the last point. -/
theorem final4blk (c : Dev nD) : (dats m 0 c).arrAt 4 cfg0.N = outB (scAt m c 255 tLast.isLt) :=
  (dats m 0 c).arrAt_eq_of_cover 4 (outB (scAt m c 255 tLast.isLt)) (flushed4_eq m c) fun i =>
    ⟨tLast, (flush0_4 tLast).mpr rfl, by
      show i ∈ ((View.whole main_v6_1).slice (win0_4.rect tLast)).set
      rw [View.set_slice_whole, Rect.mem_set_unit]
      intro a
      have h0 : (i 0 : Nat) < 8 := (i 0).isLt
      have h1 : (i 1 : Nat) < 1 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 8 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 1 from by decide +kernel]
        omega⟩

end Cert.KernelIdeal.Hand

end
-- ==== Proof.KI.Payload.lean ====
/-
  The kernel body's named payloads read at an index, at the ideal instance (a float an extended real, every operation
  the exact textbook one): the squared distance of a source point and a target point of a tile as
  (|x|² + |y|²) − 2·(x·y), its minima along either axis from +∞, the running minimum against a buffer's old slice,
  and the mean of a whole 8 × 4096 buffer along its second axis as the sum divided by 4096.
-/
import proofs.«166136_j14345190769122_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Hand

open Idealize.ShloMosaic Idealize.ShloMosaic.ValueIdx Cert.KernelIdeal Cert.KernelIdeal.Gen
open scoped BigOperators

/-- The literal 2.0, kept as its word. -/
abbrev two : EReal := Ideal.ofBits .f32 0x40000000#32
/-- The literal 4096.0, kept as its word. -/
abbrev n4096 : EReal := Ideal.ofBits .f32 0x45800000#32

/-- The squared distance of source point rr and target point cc of batch b, as the kernel writes it:
    (|x|² + |y|²) − 2·(x·y), sums over the three coordinates. -/
def tileDist (x y : Vec Ideal S8x256x3 .f32) (b : Fin 8) (rr cc : Fin 256) : EReal :=
  ((∑ d : Fin 3, x (ix3 b rr d) * x (ix3 b rr d)) + (∑ d : Fin 3, y (ix3 b cc d) * y (ix3 b cc d)))
    - two * (∑ d : Fin 3, x (ix3 b rr d) * y (ix3 b cc d))

/-- The word 0x7F800000 is +∞. -/
theorem ofBits_inf : Ideal.ofBits .f32 0x7F800000#32 = ⊤ := by
  simp [Ideal.ofBits, Ideal.ieee]

/-! ## The minimum along one axis -/

/-- A minimum reduction over one axis, read at the ideal values: the fold of min from the accumulator's value over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  refine (multiReduction_minimumf_eq_fold src acc h hφ hacc j).trans ?_
  exact h.fold_filter_drop_single _ _ src j

/-- The fold of min from +∞ over every coordinate is the infimum over them. -/
theorem fold_min_top_eq_inf {n : Nat} (f : Fin n → EReal) :
    (Finset.univ : Finset (Fin n)).fold min (Ideal.ofBits .f32 0x7F800000#32) f = Finset.univ.inf f := by
  rw [ofBits_inf]
  rfl

/-- The minimum of an 8 × 256 × 256 block along its last axis, at (b, rr): the infimum over the columns. -/
theorem rowMin_apply (v : FVec Ideal S8x256x256 .f32) (b : Fin 8) (rr : Fin 256) :
    multiReduction (F := Ideal) .minimumf [2] S8x256 v 0x7F800000#32 reduces_S8x256x256_S8x256 (.inl rfl) rfl (ix2 b rr)
      = Finset.univ.inf fun cc : Fin 256 => v (ix3 b rr cc) := by
  refine (multiReduction_minimumf_single v _ reduces_S8x256x256_S8x256 (.inl rfl) rfl (ix2 b rr)).trans ?_
  refine (fold_min_top_eq_inf _).trans ?_
  refine congrArg (Finset.inf Finset.univ) (funext fun cc => congrArg v ?_)
  funext c
  refine Fin.ext ?_
  match c with
  | ⟨0, _⟩ => rfl
  | ⟨1, _⟩ => rfl
  | ⟨2, _⟩ => rfl

/-- The minimum of an 8 × 256 × 256 block along its middle axis, at (b, cc): the infimum over the rows. -/
theorem colMin_apply (v : FVec Ideal S8x256x256 .f32) (b : Fin 8) (cc : Fin 256) :
    multiReduction (F := Ideal) .minimumf [1] S8x256 v 0x7F800000#32 reduces_S8x256x256_S8x256_2 (.inl rfl) rfl (ix2 b cc)
      = Finset.univ.inf fun rr : Fin 256 => v (ix3 b rr cc) := by
  refine (multiReduction_minimumf_single v _ reduces_S8x256x256_S8x256_2 (.inl rfl) rfl (ix2 b cc)).trans ?_
  refine (fold_min_top_eq_inf _).trans ?_
  refine congrArg (Finset.inf Finset.univ) (funext fun rr => congrArg v ?_)
  funext c
  refine Fin.ext ?_
  match c with
  | ⟨0, _⟩ => rfl
  | ⟨1, _⟩ => rfl
  | ⟨2, _⟩ => rfl

/-! ## The lane sum of a whole buffer and its keep-dimension view -/

/-- The lane sum of an 8 × 4096 buffer at row b is the sum over its 4096 entries. -/
theorem sum4096_apply (v : Vec Ideal S8x4096 .f32) (b : Fin 8) :
    multiReduction (F := Ideal) .add [1] S8 v 0x00000000#32 reduces_S8x4096_S8 (.inl rfl) rfl (ix1 b)
      = ∑ n : Fin 4096, v (ix2 b n) := by
  refine (Ideal.multiReduction_add_single v _ reduces_S8x4096_S8 (.inl rfl) rfl (ix1 b)).trans ?_
  refine Finset.sum_congr rfl fun n _ => congrArg v ?_
  funext c
  refine Fin.ext ?_
  match c with
  | ⟨0, _⟩ => rfl
  | ⟨1, _⟩ => rfl

/-- An 8-vector viewed 8 × 1 reads, at (b, z), the vector at b. -/
theorem cast_S8_S8x1_apply (x : FVec Ideal S8 .f32) (b : Fin 8) (z : Fin 1) :
    shapeCast S8x1 x shapeCasts_S8_S8x1 (ix2 b z) = x (ix1 b) :=
  shapeCast_apply x shapeCasts_S8_S8x1 _ _ (by
    have hz : z.val = 0 := by omega
    rw [Shape.rowMajor_val_one, Shape.rowMajor_val_two]
    show b.val = b.val * 1 + z.val
    rw [hz, Nat.mul_one, Nat.add_zero])
/-! ## The product's operand indices -/

/-- The dot's contraction shape has one axis … -/
theorem dot_contr_rank : dot_S8x256x3_S8x256x3_S8x256x256_2_2_1_1_0_0.contr.rank = 1 := rfl
/-- … of extent 3. -/
theorem dot_contr_size : dot_S8x256x3_S8x256x3_S8x256x256_2_2_1_1_0_0.contr.size ⟨0, by rw [dot_contr_rank]; exact Nat.one_pos⟩ = 3 := rfl

theorem dot_lhs0 (j : S8x256x256.Idx) (k : dot_S8x256x3_S8x256x3_S8x256x256_2_2_1_1_0_0.contr.Idx) :
    (dot_S8x256x3_S8x256x3_S8x256x256_2_2_1_1_0_0.lhsIdx j k (0 : Fin 3)).val = (j 0).val := rfl
theorem dot_lhs1 (j : S8x256x256.Idx) (k : dot_S8x256x3_S8x256x3_S8x256x256_2_2_1_1_0_0.contr.Idx) :
    (dot_S8x256x3_S8x256x3_S8x256x256_2_2_1_1_0_0.lhsIdx j k (1 : Fin 3)).val = (j 1).val := rfl
theorem dot_lhs2 (j : S8x256x256.Idx) (k : dot_S8x256x3_S8x256x3_S8x256x256_2_2_1_1_0_0.contr.Idx) :
    (dot_S8x256x3_S8x256x3_S8x256x256_2_2_1_1_0_0.lhsIdx j k (2 : Fin 3)).val = (k ⟨0, by rw [dot_contr_rank]; exact Nat.one_pos⟩).val :=
  dot_S8x256x3_S8x256x3_S8x256x256_2_2_1_1_0_0.lhsIdx_val_of_single rfl j k
theorem dot_rhs0 (j : S8x256x256.Idx) (k : dot_S8x256x3_S8x256x3_S8x256x256_2_2_1_1_0_0.contr.Idx) :
    (dot_S8x256x3_S8x256x3_S8x256x256_2_2_1_1_0_0.rhsIdx j k (0 : Fin 3)).val = (j 0).val := rfl
theorem dot_rhs1 (j : S8x256x256.Idx) (k : dot_S8x256x3_S8x256x3_S8x256x256_2_2_1_1_0_0.contr.Idx) :
    (dot_S8x256x3_S8x256x3_S8x256x256_2_2_1_1_0_0.rhsIdx j k (1 : Fin 3)).val = (j 2).val := rfl
theorem dot_rhs2 (j : S8x256x256.Idx) (k : dot_S8x256x3_S8x256x3_S8x256x256_2_2_1_1_0_0.contr.Idx) :
    (dot_S8x256x3_S8x256x3_S8x256x256_2_2_1_1_0_0.rhsIdx j k (2 : Fin 3)).val = (k ⟨0, by rw [dot_contr_rank]; exact Nat.one_pos⟩).val :=
  dot_S8x256x3_S8x256x3_S8x256x256_2_2_1_1_0_0.rhsIdx_val_of_single rfl j k

/-! ## Layout operations of the distance tile, read at an index -/

/-- An 8 × 256 array viewed 8 × 256 × 1 reads, at (b, r, z), the array at (b, r). -/
theorem cast_unitLast_apply (x : FVec Ideal S8x256 .f32) (b : Fin 8) (r : Fin 256) (z : Fin 1) :
    shapeCast S8x256x1 x shapeCasts_S8x256_S8x256x1 (ix3 b r z) = x (ix2 b r) :=
  shapeCast_apply x shapeCasts_S8x256_S8x256x1 _ _ (by
    have hz : z.val = 0 := by omega
    rw [Shape.rowMajor_val_two, Shape.rowMajor_val_three]
    show b.val * 256 + r.val = (b.val * 256 + r.val) * 1 + z.val
    rw [hz, Nat.mul_one, Nat.add_zero])

/-- An 8 × 256 array viewed 8 × 1 × 256 reads, at (b, z, c), the array at (b, c). -/
theorem cast_unitMid_apply (x : FVec Ideal S8x256 .f32) (b : Fin 8) (z : Fin 1) (c : Fin 256) :
    shapeCast S8x1x256 x shapeCasts_S8x256_S8x1x256 (ix3 b z c) = x (ix2 b c) :=
  shapeCast_apply x shapeCasts_S8x256_S8x1x256 _ _ (by
    have hz : z.val = 0 := by omega
    rw [Shape.rowMajor_val_two, Shape.rowMajor_val_three]
    show b.val * 256 + c.val = (b.val * 1 + z.val) * 256 + c.val
    rw [hz, Nat.mul_one, Nat.add_zero])

/-- An 8 × 256 × 1 array broadcast along its last axis reads, at (b, rr, cc), the array at (b, rr, 0). -/
theorem bcast_unitLast_apply (x : FVec Ideal S8x256x1 .f32) (b : Fin 8) (rr cc : Fin 256) :
    broadcastTo S8x256x256 x broadcasts_S8x256x1_S8x256x256 (ix3 b rr cc) = x (ix3 b rr (0 : Fin 1)) := by
  refine broadcastTo_apply x broadcasts_S8x256x1_S8x256x256 (ix3 b rr cc) (ix3 b rr (0 : Fin 1)) fun ax => ?_
  match ax with
  | ⟨0, _⟩ => rfl
  | ⟨1, _⟩ => rfl
  | ⟨2, _⟩ => rfl

/-- An 8 × 1 × 256 array broadcast along its middle axis reads, at (b, rr, cc), the array at (b, 0, cc). -/
theorem bcast_unitMid_apply (x : FVec Ideal S8x1x256 .f32) (b : Fin 8) (rr cc : Fin 256) :
    broadcastTo S8x256x256 x broadcasts_S8x1x256_S8x256x256 (ix3 b rr cc) = x (ix3 b (0 : Fin 1) cc) := by
  refine broadcastTo_apply x broadcasts_S8x1x256_S8x256x256 (ix3 b rr cc) (ix3 b (0 : Fin 1) cc) fun ax => ?_
  match ax with
  | ⟨0, _⟩ => rfl
  | ⟨1, _⟩ => rfl
  | ⟨2, _⟩ => rfl

/-- The sum of an 8 × 256 × 3 array along its last axis, at (b, r): the sum over the three coordinates. -/
theorem sum3_apply (v : FVec Ideal S8x256x3 .f32) (b : Fin 8) (r : Fin 256) :
    multiReduction (F := Ideal) .add [2] S8x256 v 0x00000000#32 reduces_S8x256x3_S8x256 (.inl rfl) rfl (ix2 b r)
      = ∑ d : Fin 3, v (ix3 b r d) := by
  refine (Ideal.multiReduction_add_single v _ reduces_S8x256x3_S8x256 (.inl rfl) rfl (ix2 b r)).trans ?_
  refine Finset.sum_congr rfl fun d _ => congrArg v ?_
  funext c
  refine Fin.ext ?_
  match c with
  | ⟨0, _⟩ => rfl
  | ⟨1, _⟩ => rfl
  | ⟨2, _⟩ => rfl

/-- The source tile's cast to its own shape is the tile. -/
theorem pay5_eq (x : Vec Ideal S8x256x3 .f32) : k0_pay5 (F := Ideal) x = x := by
  unfold k0_pay5
  exact shapeCast_self x shapeCasts_S8x256x3_S8x256x3

/-- The source points' squared norms: at (b, r), the sum of the squares of point r's three coordinates. -/
theorem pay6_apply (x : Vec Ideal S8x256x3 .f32) (b : Fin 8) (r : Fin 256) :
    k0_pay6 (F := Ideal) x (ix2 b r) = ∑ d : Fin 3, x (ix3 b r d) * x (ix3 b r d) := by
  unfold k0_pay6
  refine (sum3_apply _ b r).trans ?_
  refine Finset.sum_congr rfl fun d _ => ?_
  exact congrArg (fun w : Vec Ideal S8x256x3 .f32 => w (ix3 b r d) * w (ix3 b r d)) (pay5_eq x)

/-- The batched product of two 8 × 256 × 3 tiles over their last axes into a zero accumulator, at (b, rr, cc): the
    inner product of point rr of the first and point cc of the second. -/
theorem dot_apply (x y : FVec Ideal S8x256x3 .f32) (b : Fin 8) (rr cc : Fin 256) :
    matmul dot_S8x256x3_S8x256x3_S8x256x256_2_2_1_1_0_0 (some .fp32) x y (constant S8x256x256 .f32 0x00000000#32) (ix3 b rr cc)
      = ∑ d : Fin 3, x (ix3 b rr d) * y (ix3 b cc d) := by
  refine (Ideal.matmul_constant_zero_apply dot_S8x256x3_S8x256x3_S8x256x256_2_2_1_1_0_0 (some .fp32) x y (ix3 b rr cc)).trans ?_
  refine (Equiv.sum_comp (contrEquiv1 dot_S8x256x3_S8x256x3_S8x256x256_2_2_1_1_0_0 3 dot_contr_rank dot_contr_size).symm _).symm.trans ?_
  refine Finset.sum_congr rfl fun d _ => ?_
  refine congrArg₂ (· * ·) (congrArg x ?_) (congrArg y ?_)
  · funext c
    refine Fin.ext ?_
    match c with
    | ⟨0, _⟩ => exact dot_lhs0 _ _
    | ⟨1, _⟩ => exact dot_lhs1 _ _
    | ⟨2, _⟩ =>
      exact (dot_lhs2 _ _).trans
        (contrEquiv1_symm_val dot_S8x256x3_S8x256x3_S8x256x256_2_2_1_1_0_0 3 dot_contr_rank dot_contr_size d)
  · funext c
    refine Fin.ext ?_
    match c with
    | ⟨0, _⟩ => exact dot_rhs0 _ _
    | ⟨1, _⟩ => exact dot_rhs1 _ _
    | ⟨2, _⟩ =>
      exact (dot_rhs2 _ _).trans
        (contrEquiv1_symm_val dot_S8x256x3_S8x256x3_S8x256x256_2_2_1_1_0_0 3 dot_contr_rank dot_contr_size d)

/-! ## The payloads at an index -/

/-- The four running-minimum buffers start at +∞ everywhere. -/
theorem pay1_apply (j : S8x4096.Idx) : k0_pay1 (F := Ideal) j = ⊤ := by
  unfold k0_pay1
  exact (congrFun (shapeCast_self _ shapeCasts_S8x4096_S8x4096) j).trans ofBits_inf
theorem pay2_apply (j : S8x4096.Idx) : k0_pay2 (F := Ideal) j = ⊤ := by
  unfold k0_pay2
  exact (congrFun (shapeCast_self _ shapeCasts_S8x4096_S8x4096) j).trans ofBits_inf
theorem pay3_apply (j : S8x4096.Idx) : k0_pay3 (F := Ideal) j = ⊤ := by
  unfold k0_pay3
  exact (congrFun (shapeCast_self _ shapeCasts_S8x4096_S8x4096) j).trans ofBits_inf
theorem pay4_apply (j : S8x4096.Idx) : k0_pay4 (F := Ideal) j = ⊤ := by
  unfold k0_pay4
  exact (congrFun (shapeCast_self _ shapeCasts_S8x4096_S8x4096) j).trans ofBits_inf

/-- The distance tile against the first target tile, at (b, rr, cc): the squared distance of source point rr and
    target point cc. -/
theorem pay7_apply (x0 x1 : Vec Ideal S8x256x3 .f32) (b : Fin 8) (rr cc : Fin 256) :
    k0_pay7 (F := Ideal) x0 x1 (ix3 b rr cc) = tileDist x0 x1 b rr cc := by
  unfold k0_pay7 tileDist
  have e1 := ((bcast_unitLast_apply _ b rr cc).trans (cast_unitLast_apply _ b rr 0)).trans (pay6_apply x0 b rr)
  have e2 := ((bcast_unitMid_apply _ b rr cc).trans (cast_unitMid_apply _ b 0 cc)).trans (sum3_apply (mulf x1 x1) b cc)
  have e3 := (dot_apply (k0_pay5 x0) x1 b rr cc).trans
    (Finset.sum_congr rfl fun d _ =>
      congrArg (fun w : Vec Ideal S8x256x3 .f32 => w (ix3 b rr d) * x1 (ix3 b cc d)) (pay5_eq x0))
  exact congrArg₂ (· - ·) (congrArg₂ (· + ·) e1 e2) (congrArg (two * ·) e3)

/-- The distance tile against the second target tile (read through a cast to its own shape), likewise. -/
theorem pay8_apply (x0 x2 : Vec Ideal S8x256x3 .f32) (b : Fin 8) (rr cc : Fin 256) :
    k0_pay8 (F := Ideal) x0 x2 (ix3 b rr cc) = tileDist x0 x2 b rr cc := by
  unfold k0_pay8 tileDist
  have h9 : shapeCast S8x256x3 x2 shapeCasts_S8x256x3_S8x256x3 = x2 := shapeCast_self x2 shapeCasts_S8x256x3_S8x256x3
  have e1 := ((bcast_unitLast_apply _ b rr cc).trans (cast_unitLast_apply _ b rr 0)).trans (pay6_apply x0 b rr)
  have e2 := (((bcast_unitMid_apply _ b rr cc).trans (cast_unitMid_apply _ b 0 cc)).trans
    (sum3_apply (mulf (shapeCast S8x256x3 x2 shapeCasts_S8x256x3_S8x256x3)
      (shapeCast S8x256x3 x2 shapeCasts_S8x256x3_S8x256x3)) b cc)).trans
    (Finset.sum_congr rfl fun d _ =>
      congrArg (fun w : Vec Ideal S8x256x3 .f32 => w (ix3 b cc d) * w (ix3 b cc d)) h9)
  have e3 := (dot_apply (k0_pay5 x0) (shapeCast S8x256x3 x2 shapeCasts_S8x256x3_S8x256x3) b rr cc).trans
    (Finset.sum_congr rfl fun d _ =>
      congrArg₂ (fun w u : Vec Ideal S8x256x3 .f32 => w (ix3 b rr d) * u (ix3 b cc d)) (pay5_eq x0) h9)
  exact congrArg₂ (· - ·) (congrArg₂ (· + ·) e1 e2) (congrArg (two * ·) e3)

/-- The rows' minima of the first distance tile: at (b, rr), the infimum over the target points. -/
theorem pay9_apply (x0 x1 : Vec Ideal S8x256x3 .f32) (b : Fin 8) (rr : Fin 256) :
    k0_pay9 (F := Ideal) x0 x1 (ix2 b rr) = Finset.univ.inf (fun cc : Fin 256 => tileDist x0 x1 b rr cc) := by
  unfold k0_pay9
  refine (rowMin_apply (k0_pay7 x0 x1) b rr).trans ?_
  exact congrArg (Finset.inf Finset.univ) (funext fun cc => pay7_apply x0 x1 b rr cc)
/-- The rows' minima of the second distance tile. -/
theorem pay10_apply (x0 x2 : Vec Ideal S8x256x3 .f32) (b : Fin 8) (rr : Fin 256) :
    k0_pay10 (F := Ideal) x0 x2 (ix2 b rr) = Finset.univ.inf (fun cc : Fin 256 => tileDist x0 x2 b rr cc) := by
  unfold k0_pay10
  refine (rowMin_apply (k0_pay8 x0 x2) b rr).trans ?_
  exact congrArg (Finset.inf Finset.univ) (funext fun cc => pay8_apply x0 x2 b rr cc)

/-- The running minimum over the source axis: the old slice against the new rows' minima. -/
theorem pay11_apply (v34 : FVec Ideal S8x256 .f32) (v43 : Vec Ideal S8x256 .f32) (j : S8x256.Idx) :
    k0_pay11 (F := Ideal) v34 v43 j = min (v43 j) (v34 j) := by
  unfold k0_pay11
  exact congrFun (shapeCast_self (minimumf v43 v34) shapeCasts_S8x256_S8x256) j
theorem pay12_apply (v35 : FVec Ideal S8x256 .f32) (v50 : Vec Ideal S8x256 .f32) (j : S8x256.Idx) :
    k0_pay12 (F := Ideal) v35 v50 j = min (v50 j) (v35 j) := by
  unfold k0_pay12
  exact congrFun (shapeCast_self (minimumf v50 v35) shapeCasts_S8x256_S8x256) j

/-- The running minimum over the target axis: the old slice against the columns' minima of the distance tile. -/
theorem pay13_apply (v24 : FVec Ideal S8x256x256 .f32) (v57 : Vec Ideal S8x256 .f32) (b : Fin 8) (cc : Fin 256) :
    k0_pay13 (F := Ideal) v24 v57 (ix2 b cc)
      = min (v57 (ix2 b cc)) (Finset.univ.inf fun rr : Fin 256 => v24 (ix3 b rr cc)) := by
  unfold k0_pay13
  refine (congrFun (shapeCast_self _ shapeCasts_S8x256_S8x256) (ix2 b cc)).trans ?_
  exact congrArg (min (v57 (ix2 b cc))) (colMin_apply v24 b cc)
theorem pay14_apply (v33 : FVec Ideal S8x256x256 .f32) (v64 : Vec Ideal S8x256 .f32) (b : Fin 8) (cc : Fin 256) :
    k0_pay14 (F := Ideal) v33 v64 (ix2 b cc)
      = min (v64 (ix2 b cc)) (Finset.univ.inf fun rr : Fin 256 => v33 (ix3 b rr cc)) := by
  unfold k0_pay14
  refine (congrFun (shapeCast_self _ shapeCasts_S8x256_S8x256) (ix2 b cc)).trans ?_
  exact congrArg (min (v64 (ix2 b cc))) (colMin_apply v33 b cc)

/-- The two means of whole buffers, added: each the buffer's row sum divided by 4096. -/
theorem pay15_apply (v75 v80 : Vec Ideal S8x4096 .f32) (b : Fin 8) (z : Fin 1) :
    k0_pay15 (F := Ideal) v75 v80 (ix2 b z)
      = Ideal.div (∑ n : Fin 4096, v75 (ix2 b n)) n4096 + Ideal.div (∑ n : Fin 4096, v80 (ix2 b n)) n4096 := by
  unfold k0_pay15
  have e1 := (cast_S8_S8x1_apply _ b z).trans (sum4096_apply v75 b)
  have e2 := (cast_S8_S8x1_apply _ b z).trans (sum4096_apply v80 b)
  exact congrArg₂ (fun p q => Ideal.div p n4096 + Ideal.div q n4096) e1 e2
theorem pay16_apply (v86 v91 : Vec Ideal S8x4096 .f32) (b : Fin 8) (z : Fin 1) :
    k0_pay16 (F := Ideal) v86 v91 (ix2 b z)
      = Ideal.div (∑ n : Fin 4096, v86 (ix2 b n)) n4096 + Ideal.div (∑ n : Fin 4096, v91 (ix2 b n)) n4096 := by
  unfold k0_pay16
  have e1 := (cast_S8_S8x1_apply _ b z).trans (sum4096_apply v86 b)
  have e2 := (cast_S8_S8x1_apply _ b z).trans (sum4096_apply v91 b)
  exact congrArg₂ (fun p q => Ideal.div p n4096 + Ideal.div q n4096) e1 e2

end Cert.KernelIdeal.Hand

end
-- ==== Proof.Spec.lean ====
/-
  Running minima over a 16 x 16 tiling of a 4096 x 4096 table of extended reals.

  The table's tiles of 256 x 256 entries are visited in row-major order, tile `t` being rows `256 (t / 16) ..` and
  columns `256 (t % 16) ..`.  After tile `t`, a row's running minimum is the smallest entry of that row over the columns of
  the tiles visited so far, and likewise a column's.  One more tile lowers the running minimum of the rows (columns) it
  meets by the tile's own minimum along the row (column) and leaves the others; after the last tile the running minimum
  is the minimum of the whole row (column).  The extended reals are a linear order with a largest element, which is all
  that is used: no arithmetic, no finiteness.
-/
import Mathlib.Data.EReal.Basic
import Mathlib.Data.Finset.Lattice.Fold
import Mathlib.Data.Fintype.Basic
import Mathlib.Tactic.Linarith

noncomputable section

namespace Cert.Spec

/-- The tile a (row, column) pair lies in, counted row-major. -/
def tid (r c : Fin 4096) : ℕ := 16 * (r.val / 256) + c.val / 256

/-- Row `r`'s smallest entry over the columns of the tiles visited up to and including tile `t`. -/
def rowAcc (D : Fin 4096 → Fin 4096 → EReal) (t : ℕ) (r : Fin 4096) : EReal :=
  (Finset.univ.filter fun c : Fin 4096 => tid r c ≤ t).inf (D r)

/-- Column `c`'s smallest entry over the rows of the tiles visited up to and including tile `t`. -/
def colAcc (D : Fin 4096 → Fin 4096 → EReal) (t : ℕ) (c : Fin 4096) : EReal :=
  (Finset.univ.filter fun r : Fin 4096 => tid r c ≤ t).inf (fun r => D r c)

/-- Row `r`'s smallest entry over the 256 columns of the `q`-th column block. -/
def tileRowMin (D : Fin 4096 → Fin 4096 → EReal) (q : ℕ) (hq : q < 16) (r : Fin 4096) : EReal :=
  Finset.univ.inf fun cc : Fin 256 => D r ⟨256 * q + cc.val, by have := cc.isLt; omega⟩

/-- Column `c`'s smallest entry over the 256 rows of the `p`-th row block. -/
def tileColMin (D : Fin 4096 → Fin 4096 → EReal) (p : ℕ) (hp : p < 16) (c : Fin 4096) : EReal :=
  Finset.univ.inf fun rr : Fin 256 => D ⟨256 * p + rr.val, by have := rr.isLt; omega⟩ c

/-- The smallest entry of row `r` over the columns whose block index is `q`, re-indexed by the offset within the
block: the column `c` of block `q` is `256 q + c % 256`. -/
theorem blockInf_row (D : Fin 4096 → Fin 4096 → EReal) (q : ℕ) (hq : q < 16) (r : Fin 4096) :
    (Finset.univ.filter fun c : Fin 4096 => c.val / 256 = q).inf (D r) = tileRowMin D q hq r := by
  unfold tileRowMin
  apply le_antisymm
  · apply Finset.le_inf
    intro cc _
    apply Finset.inf_le
    rw [Finset.mem_filter]
    refine ⟨Finset.mem_univ _, ?_⟩
    show (256 * q + cc.val) / 256 = q
    have := cc.isLt
    omega
  · apply Finset.le_inf
    intro c hc
    rw [Finset.mem_filter] at hc
    have hc2 : c.val / 256 = q := hc.2
    have hlt := c.isLt
    have hmod : c.val % 256 < 256 := Nat.mod_lt _ (by norm_num)
    have heq : (⟨256 * q + c.val % 256, by omega⟩ : Fin 4096) = c :=
      Fin.ext (by show 256 * q + c.val % 256 = c.val; omega)
    have h := Finset.inf_le
      (f := fun cc : Fin 256 => D r ⟨256 * q + cc.val, by have := cc.isLt; omega⟩)
      (Finset.mem_univ (⟨c.val % 256, hmod⟩ : Fin 256))
    exact le_of_le_of_eq h (congrArg (D r) heq)

/-- The mirror image: the smallest entry of column `c` over the rows whose block index is `p`. -/
theorem blockInf_col (D : Fin 4096 → Fin 4096 → EReal) (p : ℕ) (hp : p < 16) (c : Fin 4096) :
    (Finset.univ.filter fun r : Fin 4096 => r.val / 256 = p).inf (fun r => D r c) = tileColMin D p hp c := by
  unfold tileColMin
  apply le_antisymm
  · apply Finset.le_inf
    intro rr _
    apply Finset.inf_le
    rw [Finset.mem_filter]
    refine ⟨Finset.mem_univ _, ?_⟩
    show (256 * p + rr.val) / 256 = p
    have := rr.isLt
    omega
  · apply Finset.le_inf
    intro r hr
    rw [Finset.mem_filter] at hr
    have hr2 : r.val / 256 = p := hr.2
    have hlt := r.isLt
    have hmod : r.val % 256 < 256 := Nat.mod_lt _ (by norm_num)
    have heq : (⟨256 * p + r.val % 256, by omega⟩ : Fin 4096) = r :=
      Fin.ext (by show 256 * p + r.val % 256 = r.val; omega)
    have h := Finset.inf_le
      (f := fun rr : Fin 256 => D ⟨256 * p + rr.val, by have := rr.isLt; omega⟩ c)
      (Finset.mem_univ (⟨r.val % 256, hmod⟩ : Fin 256))
    exact le_of_le_of_eq h (congrArg (fun x => D x c) heq)

theorem rowAcc_zero (D : Fin 4096 → Fin 4096 → EReal) (r : Fin 4096) :
    rowAcc D 0 r = if r.val / 256 = 0 then min ⊤ (tileRowMin D 0 (by omega) r) else ⊤ := by
  unfold rowAcc
  split_ifs with h
  · rw [← blockInf_row D 0 (by omega) r, min_eq_right le_top]
    congr 1
    ext c
    simp only [Finset.mem_filter, Finset.mem_univ, true_and]
    simp only [tid]
    omega
  · have hset : (Finset.univ.filter fun c : Fin 4096 => tid r c ≤ 0) = ∅ := by
      ext c
      simp only [Finset.mem_filter, Finset.mem_univ, true_and, Finset.notMem_empty, iff_false]
      simp only [tid]
      omega
    rw [hset, Finset.inf_empty]

theorem rowAcc_succ (D : Fin 4096 → Fin 4096 → EReal) (t : ℕ) (ht : t + 1 < 256) (r : Fin 4096) :
    rowAcc D (t + 1) r = if r.val / 256 = (t + 1) / 16 then
        min (rowAcc D t r) (tileRowMin D ((t + 1) % 16) (Nat.mod_lt _ (by omega)) r)
      else rowAcc D t r := by
  unfold rowAcc
  split_ifs with h
  · have hset : (Finset.univ.filter fun c : Fin 4096 => tid r c ≤ t + 1) =
        (Finset.univ.filter fun c : Fin 4096 => tid r c ≤ t) ∪
        (Finset.univ.filter fun c : Fin 4096 => c.val / 256 = (t + 1) % 16) := by
      ext c
      simp only [Finset.mem_union, Finset.mem_filter, Finset.mem_univ, true_and]
      simp only [tid]
      have := c.isLt
      omega
    rw [hset, Finset.inf_union, blockInf_row D _ (Nat.mod_lt _ (by omega)) r]
  · congr 1
    ext c
    simp only [Finset.mem_filter, Finset.mem_univ, true_and]
    simp only [tid]
    have := c.isLt
    omega

theorem rowAcc_last (D : Fin 4096 → Fin 4096 → EReal) (r : Fin 4096) :
    rowAcc D 255 r = Finset.univ.inf (D r) := by
  unfold rowAcc
  congr 1
  apply Finset.filter_true_of_mem
  intro c _
  show 16 * (r.val / 256) + c.val / 256 ≤ 255
  have := r.isLt
  have := c.isLt
  omega

theorem colAcc_zero (D : Fin 4096 → Fin 4096 → EReal) (c : Fin 4096) :
    colAcc D 0 c = if c.val / 256 = 0 then min ⊤ (tileColMin D 0 (by omega) c) else ⊤ := by
  unfold colAcc
  split_ifs with h
  · rw [← blockInf_col D 0 (by omega) c, min_eq_right le_top]
    congr 1
    ext r
    simp only [Finset.mem_filter, Finset.mem_univ, true_and]
    simp only [tid]
    omega
  · have hset : (Finset.univ.filter fun r : Fin 4096 => tid r c ≤ 0) = ∅ := by
      ext r
      simp only [Finset.mem_filter, Finset.mem_univ, true_and, Finset.notMem_empty, iff_false]
      simp only [tid]
      omega
    rw [hset, Finset.inf_empty]

theorem colAcc_succ (D : Fin 4096 → Fin 4096 → EReal) (t : ℕ) (ht : t + 1 < 256) (c : Fin 4096) :
    colAcc D (t + 1) c = if c.val / 256 = (t + 1) % 16 then
        min (colAcc D t c) (tileColMin D ((t + 1) / 16) (by omega) c)
      else colAcc D t c := by
  unfold colAcc
  split_ifs with h
  · have hset : (Finset.univ.filter fun r : Fin 4096 => tid r c ≤ t + 1) =
        (Finset.univ.filter fun r : Fin 4096 => tid r c ≤ t) ∪
        (Finset.univ.filter fun r : Fin 4096 => r.val / 256 = (t + 1) / 16) := by
      ext r
      simp only [Finset.mem_union, Finset.mem_filter, Finset.mem_univ, true_and]
      simp only [tid]
      have := r.isLt
      have := c.isLt
      omega
    rw [hset, Finset.inf_union, blockInf_col D _ (by omega) c]
  · congr 1
    ext r
    simp only [Finset.mem_filter, Finset.mem_univ, true_and]
    simp only [tid]
    have := r.isLt
    have := c.isLt
    omega

theorem colAcc_last (D : Fin 4096 → Fin 4096 → EReal) (c : Fin 4096) :
    colAcc D 255 c = Finset.univ.inf (fun r => D r c) := by
  unfold colAcc
  congr 1
  apply Finset.filter_true_of_mem
  intro r _
  show 16 * (r.val / 256) + c.val / 256 ≤ 255
  have := r.isLt
  have := c.isLt
  omega

end Cert.Spec

end
-- ==== Proof.SpecIdeal.lean ====
/-
  What both programs compute for one batch, on the extended reals.

  `distFn X Y b n m` is the squared distance between source point `n` of cloud `X` and target point `m` of cloud `Y` in
  batch `b`, in the expanded form |x|² + |y|² − 2 x·y (sums over the three coordinates; the factor the float word of
  2.0, never evaluated).  `chamferSpec D` is the mean of the rows' minima plus the mean of the columns' minima of a
  4096 x 4096 table `D`, the means as sums divided by the float word of 4096.0.
-/
import Idealize.ShloMosaic.PureOps.Ideal
import Idealize.ShloMosaic.Lib.ValueIdx

noncomputable section

open scoped BigOperators

namespace Cert.Spec

open Idealize.ShloMosaic Idealize.ShloMosaic.ValueIdx

/-- The float word of 2.0 at the ideal instance. -/
abbrev two : EReal := Ideal.ofBits .f32 0x40000000#32
/-- The float word of 4096.0 at the ideal instance. -/
abbrev n4096 : EReal := Ideal.ofBits .f32 0x45800000#32

/-- The squared distance between source point `n` of `X` and target point `m` of `Y` in batch `b`. -/
def distFn (X Y : (⟨3, ![8, 4096, 3]⟩ : Shape).Idx → EReal) (b : Fin 8) (n m : Fin 4096) : EReal :=
  ((∑ d : Fin 3, X (ix3 b n d) * X (ix3 b n d)) + (∑ d : Fin 3, Y (ix3 b m d) * Y (ix3 b m d)))
    - two * (∑ d : Fin 3, X (ix3 b n d) * Y (ix3 b m d))

/-- Mean of the rows' minima plus mean of the columns' minima. -/
def chamferSpec (D : Fin 4096 → Fin 4096 → EReal) : EReal :=
  Ideal.div (∑ n : Fin 4096, Finset.univ.inf (D n)) n4096
    + Ideal.div (∑ m : Fin 4096, Finset.univ.inf (fun n => D n m)) n4096

end Cert.Spec

end
-- ==== Proof.KI.Invariant.lean ====
/-
  The four running-minimum buffers in closed form.

  The 16 x 16 grid is walked row-major, point t being (t / 16, t % 16).  Point t reads rows 256 (t / 16) .. of the
  source cloud and rows 256 (t % 16) .. of each target cloud, forms the tile's 256 x 256 squared distances per batch,
  and lowers the slice at 256 (t / 16) .. of the two row buffers by the tile's minima along its columns and the slice
  at 256 (t % 16) .. of the two column buffers by its minima along its rows.  By induction over the 256 points each
  buffer entry after point t is the running minimum of the 4096 x 4096 distance table over the tiles visited so far
  (rowAcc / colAcc); after the last point it is the row's (column's) minimum over the whole table, and the two result
  blocks are the mean of the rows' minima plus the mean of the columns' minima.
-/
import proofs.«166136_j14345190769122_1_alg».proof.Proof.KI.Blocks
import proofs.«166136_j14345190769122_1_alg».proof.Proof.KI.Payload
import proofs.«166136_j14345190769122_1_alg».proof.Proof.Spec
import proofs.«166136_j14345190769122_1_alg».proof.Proof.SpecIdeal

set_option maxRecDepth 16384

noncomputable section

namespace Cert.KernelIdeal.Hand

open Idealize.ShloMosaic Idealize.ShloMosaic.ValueIdx Cert.KernelIdeal Cert.KernelIdeal.Gen Cert.Spec
open scoped BigOperators

variable (m : (ℓ : Loc nD τ sig) → Buf (Elt Ideal) ℓ)

/-- The transformed source cloud, the target cloud and the second target cloud as the region finds them. -/
abbrev srcArr (c : Dev nD) : Vec Ideal S8x4096x3 .f32 := V m c main_v3
abbrev tgtArr (c : Dev nD) : Vec Ideal S8x4096x3 .f32 := V m c main_arg3
abbrev gtArr (c : Dev nD) : Vec Ideal S8x4096x3 .f32 := V m c main_v5

/-- The grid has 256 points. -/
theorem N_eq : cfg0.N = 256 := by decide

theorem t_lt (t : Fin cfg0.N) : t.val < 256 := lt_of_lt_of_eq t.isLt N_eq

/-- Point t of the 16 x 16 grid, row-major: coordinates (t / 16, t % 16). -/
theorem coords_val (t : Fin cfg0.N) : (grid0.coords t 0).val = t.val / 16 ∧ (grid0.coords t 1).val = t.val % 16 :=
  (by decide +kernel : ∀ t : Fin grid0.N, (grid0.coords t 0).val = t.val / 16 ∧ (grid0.coords t 1).val = t.val % 16) t

theorem off1_eq (t : Fin cfg0.N) : k0_off1 (grid0.coords t) = ![0, 256 * (t.val / 16)] :=
  (by decide +kernel : ∀ t : Fin grid0.N, k0_off1 (grid0.coords t) = ![0, 256 * (t.val / 16)]) t

theorem off2_eq (t : Fin cfg0.N) : k0_off2 (grid0.coords t) = ![0, 256 * (t.val % 16)] :=
  (by decide +kernel : ∀ t : Fin grid0.N, k0_off2 (grid0.coords t) = ![0, 256 * (t.val % 16)]) t

/-! ## The three input blocks: block t of a cloud is its points 256 q .. 256 q + 255 -/

/-- The three windows' block indices, decided over the grid: window 0 moves along the point axis with the first grid
    coordinate, windows 1 and 2 with the second. -/
theorem idx_facts : ∀ t : Fin cfg0.N,
    (win0_0.index t (0 : Fin 3) = 0 ∧ win0_0.index t (1 : Fin 3) = t.val / 16 ∧ win0_0.index t (2 : Fin 3) = 0)
    ∧ (win0_1.index t (0 : Fin 3) = 0 ∧ win0_1.index t (1 : Fin 3) = t.val % 16 ∧ win0_1.index t (2 : Fin 3) = 0)
    ∧ (win0_2.index t (0 : Fin 3) = 0 ∧ win0_2.index t (1 : Fin 3) = t.val % 16 ∧ win0_2.index t (2 : Fin 3) = 0) :=
  (by decide +kernel : ∀ t : Fin grid0.N, _)

theorem iblk0_apply (c : Dev nD) (t : Fin cfg0.N) (b : Fin 8) (rr : Fin 256) (d : Fin 3) :
    iblk m c 0 t (ix3 b rr d)
      = srcArr m c (ix3 b ⟨256 * (t.val / 16) + rr.val, by have := t_lt t; have := rr.isLt; omega⟩ d) := by
  obtain ⟨⟨e0, e1, e2⟩, -, -⟩ := idx_facts t
  show V m c main_v3 (((cfg0.win 0).blk t).view.emb (ix3 b rr d)) = V m c main_v3 _
  refine congrArg (V m c main_v3) (funext fun a => Fin.ext ?_)
  match a with
  | ⟨0, _⟩ => show win0_0.index t (0 : Fin 3) * 8 + 1 * b.val = b.val; rw [e0]; omega
  | ⟨1, _⟩ => show win0_0.index t (1 : Fin 3) * 256 + 1 * rr.val = 256 * (t.val / 16) + rr.val; rw [e1]; omega
  | ⟨2, _⟩ => show win0_0.index t (2 : Fin 3) * 3 + 1 * d.val = d.val; rw [e2]; omega

theorem iblk1_apply (c : Dev nD) (t : Fin cfg0.N) (b : Fin 8) (cc : Fin 256) (d : Fin 3) :
    iblk m c 1 t (ix3 b cc d)
      = tgtArr m c (ix3 b ⟨256 * (t.val % 16) + cc.val, by have := cc.isLt; omega⟩ d) := by
  obtain ⟨-, ⟨e0, e1, e2⟩, -⟩ := idx_facts t
  show V m c main_arg3 (((cfg0.win 1).blk t).view.emb (ix3 b cc d)) = V m c main_arg3 _
  refine congrArg (V m c main_arg3) (funext fun a => Fin.ext ?_)
  match a with
  | ⟨0, _⟩ => show win0_1.index t (0 : Fin 3) * 8 + 1 * b.val = b.val; rw [e0]; omega
  | ⟨1, _⟩ => show win0_1.index t (1 : Fin 3) * 256 + 1 * cc.val = 256 * (t.val % 16) + cc.val; rw [e1]; omega
  | ⟨2, _⟩ => show win0_1.index t (2 : Fin 3) * 3 + 1 * d.val = d.val; rw [e2]; omega

theorem iblk2_apply (c : Dev nD) (t : Fin cfg0.N) (b : Fin 8) (cc : Fin 256) (d : Fin 3) :
    iblk m c 2 t (ix3 b cc d)
      = gtArr m c (ix3 b ⟨256 * (t.val % 16) + cc.val, by have := cc.isLt; omega⟩ d) := by
  obtain ⟨-, -, ⟨e0, e1, e2⟩⟩ := idx_facts t
  show V m c main_v5 (((cfg0.win 2).blk t).view.emb (ix3 b cc d)) = V m c main_v5 _
  refine congrArg (V m c main_v5) (funext fun a => Fin.ext ?_)
  match a with
  | ⟨0, _⟩ => show win0_2.index t (0 : Fin 3) * 8 + 1 * b.val = b.val; rw [e0]; omega
  | ⟨1, _⟩ => show win0_2.index t (1 : Fin 3) * 256 + 1 * cc.val = 256 * (t.val % 16) + cc.val; rw [e1]; omega
  | ⟨2, _⟩ => show win0_2.index t (2 : Fin 3) * 3 + 1 * d.val = d.val; rw [e2]; omega

/-- The squared distances of a tile are the clouds' squared distances at the tile's points. -/
theorem tileDist_eq_distFn (X Y : Vec Ideal S8x4096x3 .f32) (x y : Vec Ideal S8x256x3 .f32) (b : Fin 8) (rr cc : Fin 256)
    (n k : Fin 4096) (hx : ∀ d, x (ix3 b rr d) = X (ix3 b n d)) (hy : ∀ d, y (ix3 b cc d) = Y (ix3 b k d)) :
    tileDist x y b rr cc = distFn X Y b n k := by
  unfold tileDist distFn
  simp only [hx, hy]

theorem tileDist_blocks_t (c : Dev nD) (t : Fin cfg0.N) (b : Fin 8) (rr cc : Fin 256) :
    tileDist (iblk m c 0 t) (iblk m c 1 t) b rr cc
      = distFn (srcArr m c) (tgtArr m c) b ⟨256 * (t.val / 16) + rr.val, by have := t_lt t; have := rr.isLt; omega⟩
          ⟨256 * (t.val % 16) + cc.val, by have := cc.isLt; omega⟩ :=
  tileDist_eq_distFn _ _ _ _ b rr cc _ _ (fun d => iblk0_apply m c t b rr d) (fun d => iblk1_apply m c t b cc d)

theorem tileDist_blocks_g (c : Dev nD) (t : Fin cfg0.N) (b : Fin 8) (rr cc : Fin 256) :
    tileDist (iblk m c 0 t) (iblk m c 2 t) b rr cc
      = distFn (srcArr m c) (gtArr m c) b ⟨256 * (t.val / 16) + rr.val, by have := t_lt t; have := rr.isLt; omega⟩
          ⟨256 * (t.val % 16) + cc.val, by have := cc.isLt; omega⟩ :=
  tileDist_eq_distFn _ _ _ _ b rr cc _ _ (fun d => iblk0_apply m c t b rr d) (fun d => iblk2_apply m c t b cc d)

/-! ## One slice lowered by new minima -/

/-- Inside the slice at columns 256 q .. 256 q + 255 the overwritten buffer holds the old value lowered by the new one. -/
theorem slice_step_mem (o : Fin 2 → ℕ) (inb : ∀ a, o a + S8x256.size a ≤ S8x4096.size a) (q : ℕ) (ho : o = ![0, 256 * q])
    (s : Vec Ideal S8x4096 .f32) (w : Vec Ideal S8x256 .f32) (new : Fin 8 → Fin 256 → EReal)
    (hw : ∀ b x, w (ix2 b x) = min (sliceRd o inb s (ix2 b x)) (new b x))
    (b : Fin 8) (r : Fin 4096) (x : Fin 256) (hr : r.val = 256 * q + x.val) :
    sliceWr o inb s w (ix2 b r) = min (s (ix2 b r)) (new b x) := by
  subst ho
  have hy : ∀ a : Fin 2, ((ix2 b r) a).val = (![0, 256 * q] : Fin 2 → ℕ) a + ((ix2 b x) a).val := fun a => by
    match a with
    | ⟨0, _⟩ => show b.val = 0 + b.val; omega
    | ⟨1, _⟩ => show r.val = 256 * q + x.val; exact hr
  rw [sliceWr_apply_mem _ inb s w (ix2 b r) (ix2 b x) hy, hw b x, sliceRd_apply _ inb s (ix2 b x) (ix2 b r) hy]

/-- Outside it the buffer holds what it held. -/
theorem slice_step_not_mem (o : Fin 2 → ℕ) (inb : ∀ a, o a + S8x256.size a ≤ S8x4096.size a) (q : ℕ) (ho : o = ![0, 256 * q])
    (s : Vec Ideal S8x4096 .f32) (w : Vec Ideal S8x256 .f32) (b : Fin 8) (r : Fin 4096) (hr : r.val / 256 ≠ q) :
    sliceWr o inb s w (ix2 b r) = s (ix2 b r) := by
  subst ho
  refine sliceWr_apply_not_mem _ inb s w (ix2 b r) 1 ?_
  show r.val < 256 * q ∨ 256 * q + 256 ≤ r.val
  omega

/-- THE ROW STEP. At point t the rows' buffer, its slice at rows 256 (t / 16) .. lowered by the tile's minima over
    its 256 columns, holds at row r: the old value lowered by the minimum of D over the columns of block t % 16 when r
    is a row of block t / 16, the old value otherwise. -/
theorem rows_step (D : Fin 8 → Fin 4096 → Fin 4096 → EReal) (t : Fin cfg0.N) (x y : Vec Ideal S8x256x3 .f32)
    (hD : ∀ (b : Fin 8) (rr cc : Fin 256), tileDist x y b rr cc
      = D b ⟨256 * (t.val / 16) + rr.val, by have := t_lt t; have := rr.isLt; omega⟩
          ⟨256 * (t.val % 16) + cc.val, by have := cc.isLt; omega⟩)
    (inb : ∀ a, k0_off1 (grid0.coords t) a + S8x256.size a ≤ S8x4096.size a)
    (s : Vec Ideal S8x4096 .f32) (w : Vec Ideal S8x256 .f32)
    (hw : ∀ b rr, w (ix2 b rr) = min (sliceRd (k0_off1 (grid0.coords t)) inb s (ix2 b rr))
      (Finset.univ.inf fun cc : Fin 256 => tileDist x y b rr cc))
    (b : Fin 8) (r : Fin 4096) :
    sliceWr (k0_off1 (grid0.coords t)) inb s w (ix2 b r)
      = if r.val / 256 = t.val / 16 then
          min (s (ix2 b r)) (tileRowMin (D b) (t.val % 16) (Nat.mod_lt _ (by omega)) r)
        else s (ix2 b r) := by
  by_cases h : r.val / 256 = t.val / 16
  · rw [if_pos h]
    have hlt : r.val - 256 * (t.val / 16) < 256 := by omega
    have hr : r.val = 256 * (t.val / 16) + (⟨r.val - 256 * (t.val / 16), hlt⟩ : Fin 256).val := by
      show r.val = 256 * (t.val / 16) + (r.val - 256 * (t.val / 16)); omega
    refine (slice_step_mem _ inb (t.val / 16) (off1_eq t) s w _ hw b r ⟨r.val - 256 * (t.val / 16), hlt⟩ hr).trans ?_
    refine congrArg (min (s (ix2 b r))) ?_
    unfold tileRowMin
    refine congrArg (Finset.inf Finset.univ) (funext fun cc => ?_)
    refine (hD b _ cc).trans ?_
    exact congrArg (fun z => D b z _) (Fin.ext hr.symm)
  · rw [if_neg h]
    exact slice_step_not_mem _ inb (t.val / 16) (off1_eq t) s w b r h

/-- THE COLUMN STEP: the mirror image, the columns' buffer's slice at columns 256 (t % 16) .. lowered by the tile's
    minima over its 256 rows. -/
theorem cols_step (D : Fin 8 → Fin 4096 → Fin 4096 → EReal) (t : Fin cfg0.N) (x y : Vec Ideal S8x256x3 .f32)
    (hD : ∀ (b : Fin 8) (rr cc : Fin 256), tileDist x y b rr cc
      = D b ⟨256 * (t.val / 16) + rr.val, by have := t_lt t; have := rr.isLt; omega⟩
          ⟨256 * (t.val % 16) + cc.val, by have := cc.isLt; omega⟩)
    (inb : ∀ a, k0_off2 (grid0.coords t) a + S8x256.size a ≤ S8x4096.size a)
    (s : Vec Ideal S8x4096 .f32) (w : Vec Ideal S8x256 .f32)
    (hw : ∀ b cc, w (ix2 b cc) = min (sliceRd (k0_off2 (grid0.coords t)) inb s (ix2 b cc))
      (Finset.univ.inf fun rr : Fin 256 => tileDist x y b rr cc))
    (b : Fin 8) (col : Fin 4096) :
    sliceWr (k0_off2 (grid0.coords t)) inb s w (ix2 b col)
      = if col.val / 256 = t.val % 16 then
          min (s (ix2 b col)) (tileColMin (D b) (t.val / 16) (by have := t_lt t; omega) col)
        else s (ix2 b col) := by
  by_cases h : col.val / 256 = t.val % 16
  · rw [if_pos h]
    have hlt : col.val - 256 * (t.val % 16) < 256 := by omega
    have hr : col.val = 256 * (t.val % 16) + (⟨col.val - 256 * (t.val % 16), hlt⟩ : Fin 256).val := by
      show col.val = 256 * (t.val % 16) + (col.val - 256 * (t.val % 16)); omega
    refine (slice_step_mem _ inb (t.val % 16) (off2_eq t) s w _ hw b col ⟨col.val - 256 * (t.val % 16), hlt⟩ hr).trans ?_
    refine congrArg (min (s (ix2 b col))) ?_
    unfold tileColMin
    refine congrArg (Finset.inf Finset.univ) (funext fun rr => ?_)
    refine (hD b rr _).trans ?_
    exact congrArg (fun z => D b _ z) (Fin.ext hr.symm)
  · rw [if_neg h]
    exact slice_step_not_mem _ inb (t.val % 16) (off2_eq t) s w b col h

/-! ## One point's update of each buffer, read at an entry -/

theorem scStep_rows_t (D : Fin 8 → Fin 4096 → Fin 4096 → EReal) (t : Fin cfg0.N) (x0 x1 x2 : Vec Ideal S8x256x3 .f32)
    (hD : ∀ (b : Fin 8) (rr cc : Fin 256), tileDist x0 x1 b rr cc
      = D b ⟨256 * (t.val / 16) + rr.val, by have := t_lt t; have := rr.isLt; omega⟩
          ⟨256 * (t.val % 16) + cc.val, by have := cc.isLt; omega⟩)
    (s : Sc Ideal) (b : Fin 8) (r : Fin 4096) :
    (scStep (grid0.coords t) x0 x1 x2 s).1 (ix2 b r)
      = if r.val / 256 = t.val / 16 then
          min (s.1 (ix2 b r)) (tileRowMin (D b) (t.val % 16) (Nat.mod_lt _ (by omega)) r)
        else s.1 (ix2 b r) :=
  rows_step D t x0 x1 hD (k0_off1_inb (grid0.coords t)) s.1
    (k0_pay11 (k0_pay9 x0 x1) (sliceRd (k0_off1 (grid0.coords t)) (k0_off1_inb (grid0.coords t)) s.1))
    (fun b rr => (pay11_apply (k0_pay9 x0 x1) _ (ix2 b rr)).trans (congrArg (min _) (pay9_apply x0 x1 b rr))) b r

theorem scStep_rows_g (D : Fin 8 → Fin 4096 → Fin 4096 → EReal) (t : Fin cfg0.N) (x0 x1 x2 : Vec Ideal S8x256x3 .f32)
    (hD : ∀ (b : Fin 8) (rr cc : Fin 256), tileDist x0 x2 b rr cc
      = D b ⟨256 * (t.val / 16) + rr.val, by have := t_lt t; have := rr.isLt; omega⟩
          ⟨256 * (t.val % 16) + cc.val, by have := cc.isLt; omega⟩)
    (s : Sc Ideal) (b : Fin 8) (r : Fin 4096) :
    (scStep (grid0.coords t) x0 x1 x2 s).2.1 (ix2 b r)
      = if r.val / 256 = t.val / 16 then
          min (s.2.1 (ix2 b r)) (tileRowMin (D b) (t.val % 16) (Nat.mod_lt _ (by omega)) r)
        else s.2.1 (ix2 b r) :=
  rows_step D t x0 x2 hD (k0_off1_inb (grid0.coords t)) s.2.1
    (k0_pay12 (k0_pay10 x0 x2) (sliceRd (k0_off1 (grid0.coords t)) (k0_off1_inb (grid0.coords t)) s.2.1))
    (fun b rr => (pay12_apply (k0_pay10 x0 x2) _ (ix2 b rr)).trans (congrArg (min _) (pay10_apply x0 x2 b rr))) b r

theorem scStep_cols_t (D : Fin 8 → Fin 4096 → Fin 4096 → EReal) (t : Fin cfg0.N) (x0 x1 x2 : Vec Ideal S8x256x3 .f32)
    (hD : ∀ (b : Fin 8) (rr cc : Fin 256), tileDist x0 x1 b rr cc
      = D b ⟨256 * (t.val / 16) + rr.val, by have := t_lt t; have := rr.isLt; omega⟩
          ⟨256 * (t.val % 16) + cc.val, by have := cc.isLt; omega⟩)
    (s : Sc Ideal) (b : Fin 8) (col : Fin 4096) :
    (scStep (grid0.coords t) x0 x1 x2 s).2.2.1 (ix2 b col)
      = if col.val / 256 = t.val % 16 then
          min (s.2.2.1 (ix2 b col)) (tileColMin (D b) (t.val / 16) (by have := t_lt t; omega) col)
        else s.2.2.1 (ix2 b col) :=
  cols_step D t x0 x1 hD (k0_off2_inb (grid0.coords t)) s.2.2.1
    (k0_pay13 (k0_pay7 x0 x1) (sliceRd (k0_off2 (grid0.coords t)) (k0_off2_inb (grid0.coords t)) s.2.2.1))
    (fun b cc => (pay13_apply (k0_pay7 x0 x1) _ b cc).trans (congrArg (min _)
      (congrArg (Finset.inf Finset.univ) (funext fun rr => pay7_apply x0 x1 b rr cc)))) b col

theorem scStep_cols_g (D : Fin 8 → Fin 4096 → Fin 4096 → EReal) (t : Fin cfg0.N) (x0 x1 x2 : Vec Ideal S8x256x3 .f32)
    (hD : ∀ (b : Fin 8) (rr cc : Fin 256), tileDist x0 x2 b rr cc
      = D b ⟨256 * (t.val / 16) + rr.val, by have := t_lt t; have := rr.isLt; omega⟩
          ⟨256 * (t.val % 16) + cc.val, by have := cc.isLt; omega⟩)
    (s : Sc Ideal) (b : Fin 8) (col : Fin 4096) :
    (scStep (grid0.coords t) x0 x1 x2 s).2.2.2 (ix2 b col)
      = if col.val / 256 = t.val % 16 then
          min (s.2.2.2 (ix2 b col)) (tileColMin (D b) (t.val / 16) (by have := t_lt t; omega) col)
        else s.2.2.2 (ix2 b col) :=
  cols_step D t x0 x2 hD (k0_off2_inb (grid0.coords t)) s.2.2.2
    (k0_pay14 (k0_pay8 x0 x2) (sliceRd (k0_off2 (grid0.coords t)) (k0_off2_inb (grid0.coords t)) s.2.2.2))
    (fun b cc => (pay14_apply (k0_pay8 x0 x2) _ b cc).trans (congrArg (min _)
      (congrArg (Finset.inf Finset.univ) (funext fun rr => pay8_apply x0 x2 b rr cc)))) b col

/-! ## The four buffers after every point -/

theorem scAt_rows_t (c : Dev nD) (n : ℕ) (hn : n < cfg0.N) (b : Fin 8) (r : Fin 4096) :
    (scAt m c n hn).1 (ix2 b r) = rowAcc (distFn (srcArr m c) (tgtArr m c) b) n r := by
  induction n with
  | zero =>
    rw [scAt_zero, rowAcc_zero]
    refine (scStep_rows_t (distFn (srcArr m c) (tgtArr m c)) ⟨0, hn⟩ _ _ _ (tileDist_blocks_t m c ⟨0, hn⟩) scInit b r).trans ?_
    rw [show (scInit (F := Ideal)).1 (ix2 b r) = ⊤ from pay1_apply (ix2 b r)]
    simp only [Nat.zero_div, Nat.zero_mod]
  | succ n ih =>
    rw [scAt_succ, rowAcc_succ _ n (lt_of_lt_of_eq hn N_eq) r]
    refine (scStep_rows_t (distFn (srcArr m c) (tgtArr m c)) ⟨n + 1, hn⟩ _ _ _ (tileDist_blocks_t m c ⟨n + 1, hn⟩)
      (scAt m c n (Nat.lt_of_succ_lt hn)) b r).trans ?_
    rw [ih]

theorem scAt_rows_g (c : Dev nD) (n : ℕ) (hn : n < cfg0.N) (b : Fin 8) (r : Fin 4096) :
    (scAt m c n hn).2.1 (ix2 b r) = rowAcc (distFn (srcArr m c) (gtArr m c) b) n r := by
  induction n with
  | zero =>
    rw [scAt_zero, rowAcc_zero]
    refine (scStep_rows_g (distFn (srcArr m c) (gtArr m c)) ⟨0, hn⟩ _ _ _ (tileDist_blocks_g m c ⟨0, hn⟩) scInit b r).trans ?_
    rw [show (scInit (F := Ideal)).2.1 (ix2 b r) = ⊤ from pay2_apply (ix2 b r)]
    simp only [Nat.zero_div, Nat.zero_mod]
  | succ n ih =>
    rw [scAt_succ, rowAcc_succ _ n (lt_of_lt_of_eq hn N_eq) r]
    refine (scStep_rows_g (distFn (srcArr m c) (gtArr m c)) ⟨n + 1, hn⟩ _ _ _ (tileDist_blocks_g m c ⟨n + 1, hn⟩)
      (scAt m c n (Nat.lt_of_succ_lt hn)) b r).trans ?_
    rw [ih]

theorem scAt_cols_t (c : Dev nD) (n : ℕ) (hn : n < cfg0.N) (b : Fin 8) (col : Fin 4096) :
    (scAt m c n hn).2.2.1 (ix2 b col) = colAcc (distFn (srcArr m c) (tgtArr m c) b) n col := by
  induction n with
  | zero =>
    rw [scAt_zero, colAcc_zero]
    refine (scStep_cols_t (distFn (srcArr m c) (tgtArr m c)) ⟨0, hn⟩ _ _ _ (tileDist_blocks_t m c ⟨0, hn⟩) scInit b col).trans ?_
    rw [show (scInit (F := Ideal)).2.2.1 (ix2 b col) = ⊤ from pay3_apply (ix2 b col)]
    simp only [Nat.zero_div, Nat.zero_mod]
  | succ n ih =>
    rw [scAt_succ, colAcc_succ _ n (lt_of_lt_of_eq hn N_eq) col]
    refine (scStep_cols_t (distFn (srcArr m c) (tgtArr m c)) ⟨n + 1, hn⟩ _ _ _ (tileDist_blocks_t m c ⟨n + 1, hn⟩)
      (scAt m c n (Nat.lt_of_succ_lt hn)) b col).trans ?_
    rw [ih]

theorem scAt_cols_g (c : Dev nD) (n : ℕ) (hn : n < cfg0.N) (b : Fin 8) (col : Fin 4096) :
    (scAt m c n hn).2.2.2 (ix2 b col) = colAcc (distFn (srcArr m c) (gtArr m c) b) n col := by
  induction n with
  | zero =>
    rw [scAt_zero, colAcc_zero]
    refine (scStep_cols_g (distFn (srcArr m c) (gtArr m c)) ⟨0, hn⟩ _ _ _ (tileDist_blocks_g m c ⟨0, hn⟩) scInit b col).trans ?_
    rw [show (scInit (F := Ideal)).2.2.2 (ix2 b col) = ⊤ from pay4_apply (ix2 b col)]
    simp only [Nat.zero_div, Nat.zero_mod]
  | succ n ih =>
    rw [scAt_succ, colAcc_succ _ n (lt_of_lt_of_eq hn N_eq) col]
    refine (scStep_cols_g (distFn (srcArr m c) (gtArr m c)) ⟨n + 1, hn⟩ _ _ _ (tileDist_blocks_g m c ⟨n + 1, hn⟩)
      (scAt m c n (Nat.lt_of_succ_lt hn)) b col).trans ?_
    rw [ih]

/-! ## The two result blocks after the last point -/

theorem outA_last (c : Dev nD) (h : 255 < cfg0.N) (b : Fin 8) (z : Fin 1) :
    outA (scAt m c 255 h) (ix2 b z) = chamferSpec (distFn (srcArr m c) (tgtArr m c) b) := by
  unfold outA chamferSpec
  refine (pay15_apply _ _ b z).trans ?_
  refine congrArg₂ (fun p q => Ideal.div p n4096 + Ideal.div q n4096)
    (Finset.sum_congr rfl fun n _ => ?_) (Finset.sum_congr rfl fun n _ => ?_)
  · exact (scAt_rows_t m c 255 h b n).trans (rowAcc_last _ n)
  · exact (scAt_cols_t m c 255 h b n).trans (colAcc_last _ n)

theorem outB_last (c : Dev nD) (h : 255 < cfg0.N) (b : Fin 8) (z : Fin 1) :
    outB (scAt m c 255 h) (ix2 b z) = chamferSpec (distFn (srcArr m c) (gtArr m c) b) := by
  unfold outB chamferSpec
  refine (pay16_apply _ _ b z).trans ?_
  refine congrArg₂ (fun p q => Ideal.div p n4096 + Ideal.div q n4096)
    (Finset.sum_congr rfl fun n _ => ?_) (Finset.sum_congr rfl fun n _ => ?_)
  · exact (scAt_rows_g m c 255 h b n).trans (rowAcc_last _ n)
  · exact (scAt_cols_g m c 255 h b n).trans (colAcc_last _ n)

end Cert.KernelIdeal.Hand

end
-- ==== Proof.KI.KernelValue.lean ====
/-
  The kernel program's final value at the ideal instance (a float an extended real): the region's two result arrays
  are, per batch, the mean of the rows' minima plus the mean of the columns' minima of the squared distances between
  the transformed source cloud and a target cloud; and the final four numbers, read entry by entry, are the means over
  the eight batches of r0 + (s1 + s2) + half * r1, of r0, of s1 + s2 and of r1 (each mean zero plus the sum of the
  eight entries, divided by the literal 8.0).
-/
import proofs.«166136_j14345190769122_1_alg».proof.Proof.KI.HostSide
import proofs.«166136_j14345190769122_1_alg».proof.Proof.KI.Invariant
import Idealize.ShloMosaic.Lib.ValueIdx
import Idealize.ShloMosaic.Lib.ValueIdxRank1
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

/-! ## The final four numbers at the ideal values -/

/-- The literal 0.5, kept as its word. -/
abbrev half : EReal := Ideal.ofBits .f32 0x3F000000#32
/-- The literal 8.0, kept as its word. -/
abbrev eight : EReal := Ideal.ofBits .f32 0x41000000#32

/-- The mean of an 8-vector as one number: zero plus the sum of its eight entries, divided by 8.0. -/
theorem meanK_apply (v : Vec Ideal S8 .f32) (j : S_.Idx) :
    meanK (F := Ideal) v j = Ideal.div (0 + ∑ b : Fin 8, v (ix1 b)) eight := by
  unfold meanK
  show Ideal.div (Ideal.hostReduceAdd reducesTo_S8_S_d0 v (Ideal.ofBits .f32 0x00000000#32) j) eight = _
  refine congrArg (Ideal.div · eight) ?_
  refine (Ideal.hostReduceAdd_total reducesTo_S8_S_d0 (fun b => b.elim0) v _ j).trans ?_
  rw [Ideal.ofBits_zero_f32]
  exact congrArg (0 + ·) (Equiv.sum_comp (idxEquiv1 (n := 8)).symm v).symm

/-- An 8 x 1 column viewed as an 8-vector reads, at b, the column at (b, 0). -/
theorem cast_S8x1_S8_apply (x : FVec Ideal S8x1 .f32) (b : Fin 8) :
    shapeCast S8 x shapeCasts_S8x1_S8 (ix1 b) = x (ix2 b (0 : Fin 1)) :=
  shapeCast_apply x shapeCasts_S8x1_S8 _ _ (by
    rw [Shape.rowMajor_val_one, Shape.rowMajor_val_two]
    show b.val * 1 + 0 = b.val
    rw [Nat.mul_one, Nat.add_zero])

/-- Four one-element pieces side by side: entry k is piece k's one element. -/
theorem concat4_apply0 (x0 x1 x2 x3 : S1.Idx → EReal) :
    concatenate S4 0 [⟨S1, x0⟩, ⟨S1, x1⟩, ⟨S1, x2⟩, ⟨S1, x3⟩] concatenates_S1_S1_S1_S1_S4_d0 (ix1 (0 : Fin 4))
      = x0 (ix1 (0 : Fin 1)) :=
  concatenate_apply_piece 0 [⟨S1, x0⟩, ⟨S1, x1⟩, ⟨S1, x2⟩, ⟨S1, x3⟩] concatenates_S1_S1_S1_S1_S4_d0 _ 0 (show 0 < 4 by omega) S1 x0 rfl rfl 0 rfl (ix1 (0 : Fin 1))
    (fun b hb => absurd (Subsingleton.elim _ _) hb) rfl
theorem concat4_apply1 (x0 x1 x2 x3 : S1.Idx → EReal) :
    concatenate S4 0 [⟨S1, x0⟩, ⟨S1, x1⟩, ⟨S1, x2⟩, ⟨S1, x3⟩] concatenates_S1_S1_S1_S1_S4_d0 (ix1 (1 : Fin 4))
      = x1 (ix1 (0 : Fin 1)) :=
  concatenate_apply_piece 0 [⟨S1, x0⟩, ⟨S1, x1⟩, ⟨S1, x2⟩, ⟨S1, x3⟩] concatenates_S1_S1_S1_S1_S4_d0 _ 1 (show 1 < 4 by omega) S1 x1 rfl rfl 1 rfl (ix1 (0 : Fin 1))
    (fun b hb => absurd (Subsingleton.elim _ _) hb) rfl
theorem concat4_apply2 (x0 x1 x2 x3 : S1.Idx → EReal) :
    concatenate S4 0 [⟨S1, x0⟩, ⟨S1, x1⟩, ⟨S1, x2⟩, ⟨S1, x3⟩] concatenates_S1_S1_S1_S1_S4_d0 (ix1 (2 : Fin 4))
      = x2 (ix1 (0 : Fin 1)) :=
  concatenate_apply_piece 0 [⟨S1, x0⟩, ⟨S1, x1⟩, ⟨S1, x2⟩, ⟨S1, x3⟩] concatenates_S1_S1_S1_S1_S4_d0 _ 2 (show 2 < 4 by omega) S1 x2 rfl rfl 2 rfl (ix1 (0 : Fin 1))
    (fun b hb => absurd (Subsingleton.elim _ _) hb) rfl
theorem concat4_apply3 (x0 x1 x2 x3 : S1.Idx → EReal) :
    concatenate S4 0 [⟨S1, x0⟩, ⟨S1, x1⟩, ⟨S1, x2⟩, ⟨S1, x3⟩] concatenates_S1_S1_S1_S1_S4_d0 (ix1 (3 : Fin 4))
      = x3 (ix1 (0 : Fin 1)) :=
  concatenate_apply_piece 0 [⟨S1, x0⟩, ⟨S1, x1⟩, ⟨S1, x2⟩, ⟨S1, x3⟩] concatenates_S1_S1_S1_S1_S4_d0 _ 3 (show 3 < 4 by omega) S1 x3 rfl rfl 3 rfl (ix1 (0 : Fin 1))
    (fun b hb => absurd (Subsingleton.elim _ _) hb) rfl

/-- The first number: the mean over the batches of r0 + (s1 + s2) + half * r1. -/
theorem tailK_apply0 (r0 r1 : Vec Ideal S8x1 .f32) (s1 s2 : Vec Ideal S8 .f32) :
    tailK (F := Ideal) r0 r1 s1 s2 (ix1 (0 : Fin 4))
      = Ideal.div (0 + ∑ b : Fin 8, ((r0 (ix2 b (0 : Fin 1)) + (s1 (ix1 b) + s2 (ix1 b))) + half * r1 (ix2 b (0 : Fin 1)))) eight := by
  unfold tailK
  refine (concat4_apply0 _ _ _ _).trans ?_
  refine (meanK_apply _ _).trans ?_
  refine congrArg (fun s => Ideal.div (0 + s) eight) (Finset.sum_congr rfl fun b _ => ?_)
  exact congrArg₂ (fun p q => (p + (s1 (ix1 b) + s2 (ix1 b))) + half * q) (cast_S8x1_S8_apply r0 b) (cast_S8x1_S8_apply r1 b)
/-- The second: the mean of r0. -/
theorem tailK_apply1 (r0 r1 : Vec Ideal S8x1 .f32) (s1 s2 : Vec Ideal S8 .f32) :
    tailK (F := Ideal) r0 r1 s1 s2 (ix1 (1 : Fin 4)) = Ideal.div (0 + ∑ b : Fin 8, r0 (ix2 b (0 : Fin 1))) eight := by
  unfold tailK
  refine (concat4_apply1 _ _ _ _).trans ?_
  refine (meanK_apply _ _).trans ?_
  exact congrArg (fun s => Ideal.div (0 + s) eight) (Finset.sum_congr rfl fun b _ => cast_S8x1_S8_apply r0 b)
/-- The third: the mean of s1 + s2. -/
theorem tailK_apply2 (r0 r1 : Vec Ideal S8x1 .f32) (s1 s2 : Vec Ideal S8 .f32) :
    tailK (F := Ideal) r0 r1 s1 s2 (ix1 (2 : Fin 4)) = Ideal.div (0 + ∑ b : Fin 8, (s1 (ix1 b) + s2 (ix1 b))) eight := by
  unfold tailK
  refine (concat4_apply2 _ _ _ _).trans ?_
  exact meanK_apply _ _
/-- The fourth: the mean of r1. -/
theorem tailK_apply3 (r0 r1 : Vec Ideal S8x1 .f32) (s1 s2 : Vec Ideal S8 .f32) :
    tailK (F := Ideal) r0 r1 s1 s2 (ix1 (3 : Fin 4)) = Ideal.div (0 + ∑ b : Fin 8, r1 (ix2 b (0 : Fin 1))) eight := by
  unfold tailK
  refine (concat4_apply3 _ _ _ _).trans ?_
  refine (meanK_apply _ _).trans ?_
  exact congrArg (fun s => Ideal.div (0 + s) eight) (Finset.sum_congr rfl fun b _ => cast_S8x1_S8_apply r1 b)

variable (m : (ℓ : Loc nD τ sig) → Buf (Elt Ideal) ℓ)

/-! ## The two result arrays at the ideal values -/

/-- The first result array after the run: per batch, the mean of the rows' minima plus the mean of the columns' minima of
    the squared distances between the first transformed cloud and the target cloud. -/
theorem final3 (c : Dev nD) (b : Fin 8) (z : Fin 1) :
    (dats m 0 c).arrAt 3 cfg0.N (ix2 b z) = Cert.Spec.chamferSpec (Cert.Spec.distFn (srcArr m c) (tgtArr m c) b) :=
  (congrFun (final3blk m c) (ix2 b z)).trans (outA_last m c tLast.isLt b z)
/-- The second result array: the same between the first and the second transformed clouds. -/
theorem final4 (c : Dev nD) (b : Fin 8) (z : Fin 1) :
    (dats m 0 c).arrAt 4 cfg0.N (ix2 b z) = Cert.Spec.chamferSpec (Cert.Spec.distFn (srcArr m c) (gtArr m c) b) :=
  (congrFun (final4blk m c) (ix2 b z)).trans (outB_last m c tLast.isLt b z)

end Cert.KernelIdeal.Hand

end
-- ==== Proof.Ref.Stages.lean ====
/-
  The reference's five stretches as functions, at any float instance.

  The 124 host operations fall into: the two transformed clouds (one function `predR` of a 4 x 4 matrix batch and a cloud,
  used twice); the chamfer value of two clouds (`chR`, used twice: prediction against target, prediction against the
  transformed ground truth); the two norms of the matrices' difference (`s1R` over the 3 x 3 blocks, `s2R` over the
  translation columns); and the tail (`tailR`): the weighted sums, the four means over the batch, stacked.  Each is the
  composition of its operations as the program prints them.
-/
import proofs.«166136_j14345190769122_1_alg».proof.Proof.Gen.ReferenceIdeal

noncomputable section

namespace Cert.ReferenceIdeal.Hand

open Cert.ReferenceIdeal Cert.ReferenceIdeal.Gen Idealize.ShloMosaic

variable {F : FTy → Type} [FloatOps F]

/-! ## The stage functions -/

/-- A cloud transformed by a batch of 4 x 4 matrices: the points extended by a coordinate 1, contracted with the
    matrix's rows, the first three coordinates kept. -/
def predR (a : Vec F S8x4x4 .f32) (a2 : Vec F S8x4096x3 .f32) : Vec F S8x4096x3 .f32 :=
  extractStridedSlice S8x4096x3 ![0, 0, 0]
    (Host.dotGeneral dot_S8x4096x4_S8x4x4_S8x4096x4_2_2_1_1_0_0 none
      (concatenate S8x4096x4 2 [⟨S8x4096x3, a2⟩, ⟨S8x4096x1, broadcastInDim S8x4096x1 ![] bcast_S_S8x4096x1 (constant S_ .f32 0x3F800000#32)⟩]
        concatenates_S8x4096x3_S8x4096x1_S8x4096x4_d2) a)
    slices_S8x4096x4_S8x4096x3_0_0_0

/-- The squared norm of each point: zero plus the sum over the three coordinates of the squares. -/
def sqnR (X : Vec F S8x4096x3 .f32) : Vec F S8x4096 .f32 :=
  Host.reduceAdd (mulf X X) (constant S_ .f32 0x00000000#32) reducesTo_S8x4096x3_S8x4096_d2 h_S_

/-- The table of squared distances in expanded form: |x|² + |y|² − 2 x·y. -/
def distR (X Y : Vec F S8x4096x3 .f32) : Vec F S8x4096x4096 .f32 :=
  subf
    (addf
      (broadcastInDim S8x4096x4096 ![0, 1, 2] bcast_S8x4096x1_S8x4096x4096_0_1_2
        (broadcastInDim S8x4096x1 ![0, 1] bcast_S8x4096_S8x4096x1_0_1 (sqnR X)))
      (broadcastInDim S8x4096x4096 ![0, 1, 2] bcast_S8x1x4096_S8x4096x4096_0_1_2
        (broadcastInDim S8x1x4096 ![0, 2] bcast_S8x4096_S8x1x4096_0_2 (sqnR Y))))
    (mulf (broadcastInDim S8x4096x4096 ![] bcast_S_S8x4096x4096 (constant S_ .f32 0x40000000#32))
      (Host.dotGeneral dot_S8x4096x3_S8x4096x3_S8x4096x4096_2_2_1_1_0_0 none X Y))

/-- The mean over the rows of each row's minimum. -/
def rowMeanR (D : Vec F S8x4096x4096 .f32) : Vec F S8 .f32 :=
  Host.divf
    (Host.reduceAdd (Host.reduce FloatOps.minimumf D (constant S_ .f32 0x7F800000#32) reducesTo_S8x4096x4096_S8x4096_d2 h_S_)
      (constant S_ .f32 0x00000000#32) reducesTo_S8x4096_S8_d1 h_S_)
    (broadcastInDim S8 ![] bcast_S_S8 (constant S_ .f32 0x45800000#32))

/-- The mean over the columns of each column's minimum. -/
def colMeanR (D : Vec F S8x4096x4096 .f32) : Vec F S8 .f32 :=
  Host.divf
    (Host.reduceAdd (Host.reduce FloatOps.minimumf D (constant S_ .f32 0x7F800000#32) reducesTo_S8x4096x4096_S8x4096_d1 h_S_)
      (constant S_ .f32 0x00000000#32) reducesTo_S8x4096_S8_d1 h_S_)
    (broadcastInDim S8 ![] bcast_S_S8 (constant S_ .f32 0x45800000#32))

/-- The chamfer value of two clouds, per batch. -/
def chR (X Y : Vec F S8x4096x3 .f32) : Vec F S8 .f32 :=
  addf (rowMeanR (distR X Y)) (colMeanR (distR X Y))

/-- The norm of the difference of the two matrices' 3 x 3 blocks. -/
def s1R (a0 a1 : Vec F S8x4x4 .f32) : Vec F S8 .f32 :=
  Host.sqrt
    (Host.reduceAdd
      (mulf
        (subf (extractStridedSlice S8x3x3 ![0, 0, 0] a0 slices_S8x4x4_S8x3x3_0_0_0) (extractStridedSlice S8x3x3 ![0, 0, 0] a1 slices_S8x4x4_S8x3x3_0_0_0))
        (subf (extractStridedSlice S8x3x3 ![0, 0, 0] a0 slices_S8x4x4_S8x3x3_0_0_0) (extractStridedSlice S8x3x3 ![0, 0, 0] a1 slices_S8x4x4_S8x3x3_0_0_0)))
      (constant S_ .f32 0x00000000#32) reducesTo_S8x3x3_S8_d1_2 h_S_)

/-- The translation column of a matrix batch, as an 8 x 3 table. -/
def colR (a : Vec F S8x4x4 .f32) : Vec F S8x3 .f32 :=
  shapeCast S8x3 (extractStridedSlice S8x3x1 ![0, 0, 3] a slices_S8x4x4_S8x3x1_0_0_3) shapeCasts_S8x3x1_S8x3

/-- The norm of the difference of the two matrices' translation columns. -/
def s2R (a0 a1 : Vec F S8x4x4 .f32) : Vec F S8 .f32 :=
  Host.sqrt
    (Host.reduceAdd (mulf (subf (colR a0) (colR a1)) (subf (colR a0) (colR a1)))
      (constant S_ .f32 0x00000000#32) reducesTo_S8x3_S8_d1 h_S_)

/-- The two norms, each weighted by 1.0, added. -/
def tlR (s1 s2 : Vec F S8 .f32) : Vec F S8 .f32 :=
  addf (mulf (broadcastInDim S8 ![] bcast_S_S8 (constant S_ .f32 0x3F800000#32)) s1)
    (mulf (broadcastInDim S8 ![] bcast_S_S8 (constant S_ .f32 0x3F800000#32)) s2)

/-- The mean over the batch of eight: zero plus the sum, divided by 8.0. -/
def mean8R (v : Vec F S8 .f32) : Vec F S_ .f32 :=
  Host.divf (Host.reduceAdd v (constant S_ .f32 0x00000000#32) reducesTo_S8_S_d0 h_S_) (constant S_ .f32 0x41000000#32)

/-- The total per batch: 1.0 · chamfer + 1.0 · transform term + 0.5 · chamfer against the ground truth. -/
def totR (ch tl tch : Vec F S8 .f32) : Vec F S8 .f32 :=
  addf
    (addf (mulf (broadcastInDim S8 ![] bcast_S_S8 (constant S_ .f32 0x3F800000#32)) ch)
      (mulf (broadcastInDim S8 ![] bcast_S_S8 (constant S_ .f32 0x3F800000#32)) tl))
    (mulf (broadcastInDim S8 ![] bcast_S_S8 (constant S_ .f32 0x3F000000#32)) tch)

/-- The four means, stacked. -/
def stackR (ch tl tch : Vec F S8 .f32) : Vec F S4 .f32 :=
  concatenate S4 0
    [⟨S1, broadcastInDim S1 ![] bcast_S_S1 (mean8R (totR ch tl tch))⟩,
     ⟨S1, broadcastInDim S1 ![] bcast_S_S1 (mean8R ch)⟩,
     ⟨S1, broadcastInDim S1 ![] bcast_S_S1 (mean8R tl)⟩,
     ⟨S1, broadcastInDim S1 ![] bcast_S_S1 (mean8R tch)⟩]
    concatenates_S1_S1_S1_S1_S4_d0

/-- The tail: from the chamfer value, the two norms and the chamfer value against the ground truth to the four results. -/
def tailR (ch s1 s2 tch : Vec F S8 .f32) : Vec F S4 .f32 :=
  stackR ch (tlR s1 s2) tch

end Cert.ReferenceIdeal.Hand

end
-- ==== Proof.Ref.Value.lean ====
/-
  The reference's run, read back through its five stretches, at any float instance.

  The run's fold over the 124 operations is cut into consecutive pieces; for each piece and ANY contents of the buffers
  before it, the buffers it writes that are read later are the stage function of the contents it reads, and the buffers
  read later that it does not write are unchanged.  Chaining the pieces gives the result buffer as the stage functions
  composed over the arguments; no operation writes an argument.
-/
import proofs.«166136_j14345190769122_1_alg».proof.Proof.Ref.Stages
import proofs.«166136_j14345190769122_1_alg».proof.Proof.Ref.RunP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operation list in consecutive pieces -/

def cA : List (HloOp τ sig (Elt F)) :=
  [ nullary main_cst (constant S_ .f32 0x3F800000#32),
    unary main_cst main_v0 (broadcastInDim S8x4096x1 ![] bcast_S_S8x4096x1 : (⟨S_, .f32⟩ : BufTy).Contents (Elt F) → (⟨S8x4096x1, .f32⟩ : BufTy).Contents (Elt F)),
    binary main_arg2 main_v0 main_v1 ((fun a b => concatenate S8x4096x4 2 [⟨S8x4096x3, a⟩, ⟨S8x4096x1, b⟩] concatenates_S8x4096x3_S8x4096x1_S8x4096x4_d2) : (⟨S8x4096x3, .f32⟩ : BufTy).Contents (Elt F) → (⟨S8x4096x1, .f32⟩ : BufTy).Contents (Elt F) → (⟨S8x4096x4, .f32⟩ : BufTy).Contents (Elt F)),
    binary main_v1 main_arg0 main_v2 ((fun l r => Host.dotGeneral dot_S8x4096x4_S8x4x4_S8x4096x4_2_2_1_1_0_0 none l r) : (⟨S8x4096x4, .f32⟩ : BufTy).Contents (Elt F) → (⟨S8x4x4, .f32⟩ : BufTy).Contents (Elt F) → (⟨S8x4096x4, .f32⟩ : BufTy).Contents (Elt F)),
    unary main_v2 main_v3 ((extractStridedSlice S8x4096x3 ![0, 0, 0] · slices_S8x4096x4_S8x4096x3_0_0_0) : (⟨S8x4096x4, .f32⟩ : BufTy).Contents (Elt F) → (⟨S8x4096x3, .f32⟩ : BufTy).Contents (Elt F)),
    binary main_v1 main_arg1 main_v4 ((fun l r => Host.dotGeneral dot_S8x4096x4_S8x4x4_S8x4096x4_2_2_1_1_0_0 none l r) : (⟨S8x4096x4, .f32⟩ : BufTy).Contents (Elt F) → (⟨S8x4x4, .f32⟩ : BufTy).Contents (Elt F) → (⟨S8x4096x4, .f32⟩ : BufTy).Contents (Elt F)),
    unary main_v4 main_v5 ((extractStridedSlice S8x4096x3 ![0, 0, 0] · slices_S8x4096x4_S8x4096x3_0_0_0) : (⟨S8x4096x4, .f32⟩ : BufTy).Contents (Elt F) → (⟨S8x4096x3, .f32⟩ : BufTy).Contents (Elt F)) ]

def cB : List (HloOp τ sig (Elt F)) :=
  [ binary main_v3 main_v3 main_v6 (mulf : (⟨S8x4096x3, .f32⟩ : BufTy).Contents (Elt F) → (⟨S8x4096x3, .f32⟩ : BufTy).Contents (Elt F) → (⟨S8x4096x3, .f32⟩ : BufTy).Contents (Elt F)),
    nullary main_cst_0 (constant S_ .f32 0x00000000#32),
    binary main_v6 main_cst_0 main_v7 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    binary main_arg3 main_arg3 main_v8 (mulf : (⟨S8x4096x3, .f32⟩ : BufTy).Contents (Elt F) → (⟨S8x4096x3, .f32⟩ : BufTy).Contents (Elt F) → (⟨S8x4096x3, .f32⟩ : BufTy).Contents (Elt F)),
    nullary main_cst_1 (constant S_ .f32 0x00000000#32),
    binary main_v8 main_cst_1 main_v9 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    unary main_v7 main_v10 (broadcastInDim S8x4096x1 ![0, 1] bcast_S8x4096_S8x4096x1_0_1 : (⟨S8x4096, .f32⟩ : BufTy).Contents (Elt F) → (⟨S8x4096x1, .f32⟩ : BufTy).Contents (Elt F)),
    unary main_v9 main_v11 (broadcastInDim S8x1x4096 ![0, 2] bcast_S8x4096_S8x1x4096_0_2 : (⟨S8x4096, .f32⟩ : BufTy).Contents (Elt F) → (⟨S8x1x4096, .f32⟩ : BufTy).Contents (Elt F)),
    unary main_v10 main_v12 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    unary main_v11 main_v13 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    binary main_v12 main_v13 main_v14 (addf : (⟨S8x4096x4096, .f32⟩ : BufTy).Contents (Elt F) → (⟨S8x4096x4096, .f32⟩ : BufTy).Contents (Elt F) → (⟨S8x4096x4096, .f32⟩ : BufTy).Contents (Elt F)),
    binary main_v3 main_arg3 main_v15 ((fun l r => Host.dotGeneral dot_S8x4096x3_S8x4096x3_S8x4096x4096_2_2_1_1_0_0 none l r) : (⟨S8x4096x3, .f32⟩ : BufTy).Contents (Elt F) → (⟨S8x4096x3, .f32⟩ : BufTy).Contents (Elt F) → (⟨S8x4096x4096, .f32⟩ : BufTy).Contents (Elt F)),
    nullary main_cst_2 (constant S_ .f32 0x40000000#32),
    unary main_cst_2 main_v16 (broadcastInDim S8x4096x4096 ![] bcast_S_S8x4096x4096 : (⟨S_, .f32⟩ : BufTy).Contents (Elt F) → (⟨S8x4096x4096, .f32⟩ : BufTy).Contents (Elt F)),
    binary main_v16 main_v15 main_v17 (mulf : (⟨S8x4096x4096, .f32⟩ : BufTy).Contents (Elt F) → (⟨S8x4096x4096, .f32⟩ : BufTy).Contents (Elt F) → (⟨S8x4096x4096, .f32⟩ : BufTy).Contents (Elt F)),
    binary main_v14 main_v17 main_v18 (subf : (⟨S8x4096x4096, .f32⟩ : BufTy).Contents (Elt F) → (⟨S8x4096x4096, .f32⟩ : BufTy).Contents (Elt F) → (⟨S8x4096x4096, .f32⟩ : BufTy).Contents (Elt F)),
    nullary main_cst_3 (constant S_ .f32 0x7F800000#32),
    binary main_v18 main_cst_3 main_v19 ((fun x v => Host.reduce FloatOps.minimumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    nullary main_cst_4 (constant S_ .f32 0x00000000#32),
    binary main_v19 main_cst_4 main_v20 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    nullary main_cst_5 (constant S_ .f32 0x45800000#32),
    unary main_cst_5 main_v21 (broadcastInDim S8 ![] bcast_S_S8 : (⟨S_, .f32⟩ : BufTy).Contents (Elt F) → (⟨S8, .f32⟩ : BufTy).Contents (Elt F)),
    binary main_v20 main_v21 main_v22 (Host.divf : (⟨S8, .f32⟩ : BufTy).Contents (Elt F) → (⟨S8, .f32⟩ : BufTy).Contents (Elt F) → (⟨S8, .f32⟩ : BufTy).Contents (Elt F)),
    nullary main_cst_6 (constant S_ .f32 0x7F800000#32),
    binary main_v18 main_cst_6 main_v23 ((fun x v => Host.reduce FloatOps.minimumf x v reducesTo_S8x4096x4096_S8x4096_d1 h_S_) : (⟨S8x4096x4096, .f32⟩ : BufTy).Contents (Elt F) → (⟨S_, .f32⟩ : BufTy).Contents (Elt F) → (⟨S8x4096, .f32⟩ : BufTy).Contents (Elt F)),
    nullary main_cst_7 (constant S_ .f32 0x00000000#32),
    binary main_v23 main_cst_7 main_v24 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    nullary main_cst_8 (constant S_ .f32 0x45800000#32),
    unary main_cst_8 main_v25 (broadcastInDim S8 ![] bcast_S_S8 : (⟨S_, .f32⟩ : BufTy).Contents (Elt F) → (⟨S8, .f32⟩ : BufTy).Contents (Elt F)),
    binary main_v24 main_v25 main_v26 (Host.divf : (⟨S8, .f32⟩ : BufTy).Contents (Elt F) → (⟨S8, .f32⟩ : BufTy).Contents (Elt F) → (⟨S8, .f32⟩ : BufTy).Contents (Elt F)),
    binary main_v22 main_v26 main_v27 (addf : (⟨S8, .f32⟩ : BufTy).Contents (Elt F) → (⟨S8, .f32⟩ : BufTy).Contents (Elt F) → (⟨S8, .f32⟩ : BufTy).Contents (Elt F)) ]

def cC : List (HloOp τ sig (Elt F)) :=
  [ unary main_arg0 main_v28 ((extractStridedSlice S8x3x3 ![0, 0, 0] · slices_S8x4x4_S8x3x3_0_0_0) : (⟨S8x4x4, .f32⟩ : BufTy).Contents (Elt F) → (⟨S8x3x3, .f32⟩ : BufTy).Contents (Elt F)),
    unary main_arg1 main_v29 ((extractStridedSlice S8x3x3 ![0, 0, 0] · slices_S8x4x4_S8x3x3_0_0_0) : (⟨S8x4x4, .f32⟩ : BufTy).Contents (Elt F) → (⟨S8x3x3, .f32⟩ : BufTy).Contents (Elt F)),
    binary main_v28 main_v29 main_v30 (subf : (⟨S8x3x3, .f32⟩ : BufTy).Contents (Elt F) → (⟨S8x3x3, .f32⟩ : BufTy).Contents (Elt F) → (⟨S8x3x3, .f32⟩ : BufTy).Contents (Elt F)),
    unary main_arg0 main_v31 ((extractStridedSlice S8x3x1 ![0, 0, 3] · slices_S8x4x4_S8x3x1_0_0_3) : (⟨S8x4x4, .f32⟩ : BufTy).Contents (Elt F) → (⟨S8x3x1, .f32⟩ : BufTy).Contents (Elt F)),
    reshape main_v31 main_v32 rfl shapeCasts_S8x3x1_S8x3,
    unary main_arg1 main_v33 ((extractStridedSlice S8x3x1 ![0, 0, 3] · slices_S8x4x4_S8x3x1_0_0_3) : (⟨S8x4x4, .f32⟩ : BufTy).Contents (Elt F) → (⟨S8x3x1, .f32⟩ : BufTy).Contents (Elt F)),
    reshape main_v33 main_v34 rfl shapeCasts_S8x3x1_S8x3,
    binary main_v32 main_v34 main_v35 (subf : (⟨S8x3, .f32⟩ : BufTy).Contents (Elt F) → (⟨S8x3, .f32⟩ : BufTy).Contents (Elt F) → (⟨S8x3, .f32⟩ : BufTy).Contents (Elt F)),
    binary main_v30 main_v30 main_v36 (mulf : (⟨S8x3x3, .f32⟩ : BufTy).Contents (Elt F) → (⟨S8x3x3, .f32⟩ : BufTy).Contents (Elt F) → (⟨S8x3x3, .f32⟩ : BufTy).Contents (Elt F)),
    nullary main_cst_9 (constant S_ .f32 0x00000000#32),
    binary main_v36 main_cst_9 main_v37 ((fun x v => Host.reduceAdd x v reducesTo_S8x3x3_S8_d1_2 h_S_) : (⟨S8x3x3, .f32⟩ : BufTy).Contents (Elt F) → (⟨S_, .f32⟩ : BufTy).Contents (Elt F) → (⟨S8, .f32⟩ : BufTy).Contents (Elt F)),
    unary main_v37 main_v38 (Host.sqrt : (⟨S8, .f32⟩ : BufTy).Contents (Elt F) → (⟨S8, .f32⟩ : BufTy).Contents (Elt F)),
    binary main_v35 main_v35 main_v39 (mulf : (⟨S8x3, .f32⟩ : BufTy).Contents (Elt F) → (⟨S8x3, .f32⟩ : BufTy).Contents (Elt F) → (⟨S8x3, .f32⟩ : BufTy).Contents (Elt F)),
    nullary main_cst_10 (constant S_ .f32 0x00000000#32),
    binary main_v39 main_cst_10 main_v40 ((fun x v => Host.reduceAdd x v reducesTo_S8x3_S8_d1 h_S_) : (⟨S8x3, .f32⟩ : BufTy).Contents (Elt F) → (⟨S_, .f32⟩ : BufTy).Contents (Elt F) → (⟨S8, .f32⟩ : BufTy).Contents (Elt F)),
    unary main_v40 main_v41 (Host.sqrt : (⟨S8, .f32⟩ : BufTy).Contents (Elt F) → (⟨S8, .f32⟩ : BufTy).Contents (Elt F)) ]

def cD : List (HloOp τ sig (Elt F)) :=
  [ nullary main_cst_11 (constant S_ .f32 0x3F800000#32),
    unary main_cst_11 main_v42 (broadcastInDim S8 ![] bcast_S_S8 : (⟨S_, .f32⟩ : BufTy).Contents (Elt F) → (⟨S8, .f32⟩ : BufTy).Contents (Elt F)),
    binary main_v42 main_v38 main_v43 (mulf : (⟨S8, .f32⟩ : BufTy).Contents (Elt F) → (⟨S8, .f32⟩ : BufTy).Contents (Elt F) → (⟨S8, .f32⟩ : BufTy).Contents (Elt F)),
    nullary main_cst_12 (constant S_ .f32 0x3F800000#32),
    unary main_cst_12 main_v44 (broadcastInDim S8 ![] bcast_S_S8 : (⟨S_, .f32⟩ : BufTy).Contents (Elt F) → (⟨S8, .f32⟩ : BufTy).Contents (Elt F)),
    binary main_v44 main_v41 main_v45 (mulf : (⟨S8, .f32⟩ : BufTy).Contents (Elt F) → (⟨S8, .f32⟩ : BufTy).Contents (Elt F) → (⟨S8, .f32⟩ : BufTy).Contents (Elt F)),
    binary main_v43 main_v45 main_v46 (addf : (⟨S8, .f32⟩ : BufTy).Contents (Elt F) → (⟨S8, .f32⟩ : BufTy).Contents (Elt F) → (⟨S8, .f32⟩ : BufTy).Contents (Elt F)) ]

def cE : List (HloOp τ sig (Elt F)) :=
  [ binary main_v3 main_v3 main_v47 (mulf : (⟨S8x4096x3, .f32⟩ : BufTy).Contents (Elt F) → (⟨S8x4096x3, .f32⟩ : BufTy).Contents (Elt F) → (⟨S8x4096x3, .f32⟩ : BufTy).Contents (Elt F)),
    nullary main_cst_13 (constant S_ .f32 0x00000000#32),
    binary main_v47 main_cst_13 main_v48 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    binary main_v5 main_v5 main_v49 (mulf : (⟨S8x4096x3, .f32⟩ : BufTy).Contents (Elt F) → (⟨S8x4096x3, .f32⟩ : BufTy).Contents (Elt F) → (⟨S8x4096x3, .f32⟩ : BufTy).Contents (Elt F)),
    nullary main_cst_14 (constant S_ .f32 0x00000000#32),
    binary main_v49 main_cst_14 main_v50 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    unary main_v48 main_v51 (broadcastInDim S8x4096x1 ![0, 1] bcast_S8x4096_S8x4096x1_0_1 : (⟨S8x4096, .f32⟩ : BufTy).Contents (Elt F) → (⟨S8x4096x1, .f32⟩ : BufTy).Contents (Elt F)),
    unary main_v50 main_v52 (broadcastInDim S8x1x4096 ![0, 2] bcast_S8x4096_S8x1x4096_0_2 : (⟨S8x4096, .f32⟩ : BufTy).Contents (Elt F) → (⟨S8x1x4096, .f32⟩ : BufTy).Contents (Elt F)),
    unary main_v51 main_v53 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    unary main_v52 main_v54 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    binary main_v53 main_v54 main_v55 (addf : (⟨S8x4096x4096, .f32⟩ : BufTy).Contents (Elt F) → (⟨S8x4096x4096, .f32⟩ : BufTy).Contents (Elt F) → (⟨S8x4096x4096, .f32⟩ : BufTy).Contents (Elt F)),
    binary main_v3 main_v5 main_v56 ((fun l r => Host.dotGeneral dot_S8x4096x3_S8x4096x3_S8x4096x4096_2_2_1_1_0_0 none l r) : (⟨S8x4096x3, .f32⟩ : BufTy).Contents (Elt F) → (⟨S8x4096x3, .f32⟩ : BufTy).Contents (Elt F) → (⟨S8x4096x4096, .f32⟩ : BufTy).Contents (Elt F)),
    nullary main_cst_15 (constant S_ .f32 0x40000000#32),
    unary main_cst_15 main_v57 (broadcastInDim S8x4096x4096 ![] bcast_S_S8x4096x4096 : (⟨S_, .f32⟩ : BufTy).Contents (Elt F) → (⟨S8x4096x4096, .f32⟩ : BufTy).Contents (Elt F)),
    binary main_v57 main_v56 main_v58 (mulf : (⟨S8x4096x4096, .f32⟩ : BufTy).Contents (Elt F) → (⟨S8x4096x4096, .f32⟩ : BufTy).Contents (Elt F) → (⟨S8x4096x4096, .f32⟩ : BufTy).Contents (Elt F)),
    binary main_v55 main_v58 main_v59 (subf : (⟨S8x4096x4096, .f32⟩ : BufTy).Contents (Elt F) → (⟨S8x4096x4096, .f32⟩ : BufTy).Contents (Elt F) → (⟨S8x4096x4096, .f32⟩ : BufTy).Contents (Elt F)),
    nullary main_cst_16 (constant S_ .f32 0x7F800000#32),
    binary main_v59 main_cst_16 main_v60 ((fun x v => Host.reduce FloatOps.minimumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    nullary main_cst_17 (constant S_ .f32 0x00000000#32),
    binary main_v60 main_cst_17 main_v61 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    nullary main_cst_18 (constant S_ .f32 0x45800000#32),
    unary main_cst_18 main_v62 (broadcastInDim S8 ![] bcast_S_S8 : (⟨S_, .f32⟩ : BufTy).Contents (Elt F) → (⟨S8, .f32⟩ : BufTy).Contents (Elt F)),
    binary main_v61 main_v62 main_v63 (Host.divf : (⟨S8, .f32⟩ : BufTy).Contents (Elt F) → (⟨S8, .f32⟩ : BufTy).Contents (Elt F) → (⟨S8, .f32⟩ : BufTy).Contents (Elt F)),
    nullary main_cst_19 (constant S_ .f32 0x7F800000#32),
    binary main_v59 main_cst_19 main_v64 ((fun x v => Host.reduce FloatOps.minimumf x v reducesTo_S8x4096x4096_S8x4096_d1 h_S_) : (⟨S8x4096x4096, .f32⟩ : BufTy).Contents (Elt F) → (⟨S_, .f32⟩ : BufTy).Contents (Elt F) → (⟨S8x4096, .f32⟩ : BufTy).Contents (Elt F)),
    nullary main_cst_20 (constant S_ .f32 0x00000000#32),
    binary main_v64 main_cst_20 main_v65 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    nullary main_cst_21 (constant S_ .f32 0x45800000#32),
    unary main_cst_21 main_v66 (broadcastInDim S8 ![] bcast_S_S8 : (⟨S_, .f32⟩ : BufTy).Contents (Elt F) → (⟨S8, .f32⟩ : BufTy).Contents (Elt F)),
    binary main_v65 main_v66 main_v67 (Host.divf : (⟨S8, .f32⟩ : BufTy).Contents (Elt F) → (⟨S8, .f32⟩ : BufTy).Contents (Elt F) → (⟨S8, .f32⟩ : BufTy).Contents (Elt F)),
    binary main_v63 main_v67 main_v68 (addf : (⟨S8, .f32⟩ : BufTy).Contents (Elt F) → (⟨S8, .f32⟩ : BufTy).Contents (Elt F) → (⟨S8, .f32⟩ : BufTy).Contents (Elt F)) ]

def cF : List (HloOp τ sig (Elt F)) :=
  [ nullary main_cst_22 (constant S_ .f32 0x3F800000#32),
    unary main_cst_22 main_v69 (broadcastInDim S8 ![] bcast_S_S8 : (⟨S_, .f32⟩ : BufTy).Contents (Elt F) → (⟨S8, .f32⟩ : BufTy).Contents (Elt F)),
    binary main_v69 main_v27 main_v70 (mulf : (⟨S8, .f32⟩ : BufTy).Contents (Elt F) → (⟨S8, .f32⟩ : BufTy).Contents (Elt F) → (⟨S8, .f32⟩ : BufTy).Contents (Elt F)),
    nullary main_cst_23 (constant S_ .f32 0x3F800000#32),
    unary main_cst_23 main_v71 (broadcastInDim S8 ![] bcast_S_S8 : (⟨S_, .f32⟩ : BufTy).Contents (Elt F) → (⟨S8, .f32⟩ : BufTy).Contents (Elt F)),
    binary main_v71 main_v46 main_v72 (mulf : (⟨S8, .f32⟩ : BufTy).Contents (Elt F) → (⟨S8, .f32⟩ : BufTy).Contents (Elt F) → (⟨S8, .f32⟩ : BufTy).Contents (Elt F)),
    binary main_v70 main_v72 main_v73 (addf : (⟨S8, .f32⟩ : BufTy).Contents (Elt F) → (⟨S8, .f32⟩ : BufTy).Contents (Elt F) → (⟨S8, .f32⟩ : BufTy).Contents (Elt F)),
    nullary main_cst_24 (constant S_ .f32 0x3F000000#32),
    unary main_cst_24 main_v74 (broadcastInDim S8 ![] bcast_S_S8 : (⟨S_, .f32⟩ : BufTy).Contents (Elt F) → (⟨S8, .f32⟩ : BufTy).Contents (Elt F)),
    binary main_v74 main_v68 main_v75 (mulf : (⟨S8, .f32⟩ : BufTy).Contents (Elt F) → (⟨S8, .f32⟩ : BufTy).Contents (Elt F) → (⟨S8, .f32⟩ : BufTy).Contents (Elt F)),
    binary main_v73 main_v75 main_v76 (addf : (⟨S8, .f32⟩ : BufTy).Contents (Elt F) → (⟨S8, .f32⟩ : BufTy).Contents (Elt F) → (⟨S8, .f32⟩ : BufTy).Contents (Elt F)),
    nullary main_cst_25 (constant S_ .f32 0x00000000#32),
    binary main_v76 main_cst_25 main_v77 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_26 (constant S_ .f32 0x41000000#32),
    binary main_v77 main_cst_26 main_v78 (Host.divf : (⟨S_, .f32⟩ : BufTy).Contents (Elt F) → (⟨S_, .f32⟩ : BufTy).Contents (Elt F) → (⟨S_, .f32⟩ : BufTy).Contents (Elt F)),
    nullary main_cst_27 (constant S_ .f32 0x00000000#32),
    binary main_v27 main_cst_27 main_v79 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_28 (constant S_ .f32 0x41000000#32),
    binary main_v79 main_cst_28 main_v80 (Host.divf : (⟨S_, .f32⟩ : BufTy).Contents (Elt F) → (⟨S_, .f32⟩ : BufTy).Contents (Elt F) → (⟨S_, .f32⟩ : BufTy).Contents (Elt F)),
    nullary main_cst_29 (constant S_ .f32 0x00000000#32),
    binary main_v46 main_cst_29 main_v81 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_30 (constant S_ .f32 0x41000000#32),
    binary main_v81 main_cst_30 main_v82 (Host.divf : (⟨S_, .f32⟩ : BufTy).Contents (Elt F) → (⟨S_, .f32⟩ : BufTy).Contents (Elt F) → (⟨S_, .f32⟩ : BufTy).Contents (Elt F)),
    nullary main_cst_31 (constant S_ .f32 0x00000000#32),
    binary main_v68 main_cst_31 main_v83 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_32 (constant S_ .f32 0x41000000#32),
    binary main_v83 main_cst_32 main_v84 (Host.divf : (⟨S_, .f32⟩ : BufTy).Contents (Elt F) → (⟨S_, .f32⟩ : BufTy).Contents (Elt F) → (⟨S_, .f32⟩ : BufTy).Contents (Elt F)),
    unary main_v78 main_v85 (broadcastInDim S1 ![] bcast_S_S1 : (⟨S_, .f32⟩ : BufTy).Contents (Elt F) → (⟨S1, .f32⟩ : BufTy).Contents (Elt F)),
    unary main_v80 main_v86 (broadcastInDim S1 ![] bcast_S_S1 : (⟨S_, .f32⟩ : BufTy).Contents (Elt F) → (⟨S1, .f32⟩ : BufTy).Contents (Elt F)),
    unary main_v82 main_v87 (broadcastInDim S1 ![] bcast_S_S1 : (⟨S_, .f32⟩ : BufTy).Contents (Elt F) → (⟨S1, .f32⟩ : BufTy).Contents (Elt F)),
    unary main_v84 main_v88 (broadcastInDim S1 ![] bcast_S_S1 : (⟨S_, .f32⟩ : BufTy).Contents (Elt F) → (⟨S1, .f32⟩ : BufTy).Contents (Elt F)) ]

def cG : List (HloOp τ sig (Elt F)) :=
  [ nary ![main_v85, main_v86, main_v87, main_v88] main_v89 (fun u => concatenate S4 0 [⟨S1, u 0⟩, ⟨S1, u 1⟩, ⟨S1, u 2⟩, ⟨S1, u 3⟩] concatenates_S1_S1_S1_S1_S4_d0) ]

/-- The fold over two pieces run one after the other. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

set_option maxRecDepth 8192 in
theorem ops_split : (ValueP.ops (F := F)) = cA ++ (cB ++ (cC ++ (cD ++ (cE ++ (cF ++ cG))))) := rfl

/-! ## Each piece, from any contents -/

theorem cA_v3 (W : Valuation τ sig (Elt F)) :
    after (cA (F := F)) W (Proc.devRef .tc main_v3) = predR (W (Proc.devRef .tc main_arg0)) (W (Proc.devRef .tc main_arg2)) := by
  unfold cA; after_results_simp <;> rfl

theorem cA_v5 (W : Valuation τ sig (Elt F)) :
    after (cA (F := F)) W (Proc.devRef .tc main_v5) = predR (W (Proc.devRef .tc main_arg1)) (W (Proc.devRef .tc main_arg2)) := by
  unfold cA; after_results_simp <;> rfl

theorem cA_keep_arg0 (W : Valuation τ sig (Elt F)) :
    after (cA (F := F)) W (Proc.devRef .tc main_arg0) = W (Proc.devRef .tc main_arg0) := by
  unfold cA; after_results_simp <;> rfl

theorem cA_keep_arg1 (W : Valuation τ sig (Elt F)) :
    after (cA (F := F)) W (Proc.devRef .tc main_arg1) = W (Proc.devRef .tc main_arg1) := by
  unfold cA; after_results_simp <;> rfl

theorem cA_keep_arg3 (W : Valuation τ sig (Elt F)) :
    after (cA (F := F)) W (Proc.devRef .tc main_arg3) = W (Proc.devRef .tc main_arg3) := by
  unfold cA; after_results_simp <;> rfl

theorem cB_v27 (W : Valuation τ sig (Elt F)) :
    after (cB (F := F)) W (Proc.devRef .tc main_v27) = chR (W (Proc.devRef .tc main_v3)) (W (Proc.devRef .tc main_arg3)) := by
  unfold cB; after_results_simp <;> rfl

theorem cB_keep_v3 (W : Valuation τ sig (Elt F)) :
    after (cB (F := F)) W (Proc.devRef .tc main_v3) = W (Proc.devRef .tc main_v3) := by
  unfold cB; after_results_simp <;> rfl

theorem cB_keep_v5 (W : Valuation τ sig (Elt F)) :
    after (cB (F := F)) W (Proc.devRef .tc main_v5) = W (Proc.devRef .tc main_v5) := by
  unfold cB; after_results_simp <;> rfl

theorem cB_keep_arg0 (W : Valuation τ sig (Elt F)) :
    after (cB (F := F)) W (Proc.devRef .tc main_arg0) = W (Proc.devRef .tc main_arg0) := by
  unfold cB; after_results_simp <;> rfl

theorem cB_keep_arg1 (W : Valuation τ sig (Elt F)) :
    after (cB (F := F)) W (Proc.devRef .tc main_arg1) = W (Proc.devRef .tc main_arg1) := by
  unfold cB; after_results_simp <;> rfl

theorem cC_v38 (W : Valuation τ sig (Elt F)) :
    after (cC (F := F)) W (Proc.devRef .tc main_v38) = s1R (W (Proc.devRef .tc main_arg0)) (W (Proc.devRef .tc main_arg1)) := by
  unfold cC; after_results_simp <;> rfl

theorem cC_v41 (W : Valuation τ sig (Elt F)) :
    after (cC (F := F)) W (Proc.devRef .tc main_v41) = s2R (W (Proc.devRef .tc main_arg0)) (W (Proc.devRef .tc main_arg1)) := by
  unfold cC; after_results_simp <;> rfl

theorem cC_keep_v3 (W : Valuation τ sig (Elt F)) :
    after (cC (F := F)) W (Proc.devRef .tc main_v3) = W (Proc.devRef .tc main_v3) := by
  unfold cC; after_results_simp <;> rfl

theorem cC_keep_v5 (W : Valuation τ sig (Elt F)) :
    after (cC (F := F)) W (Proc.devRef .tc main_v5) = W (Proc.devRef .tc main_v5) := by
  unfold cC; after_results_simp <;> rfl

theorem cC_keep_v27 (W : Valuation τ sig (Elt F)) :
    after (cC (F := F)) W (Proc.devRef .tc main_v27) = W (Proc.devRef .tc main_v27) := by
  unfold cC; after_results_simp <;> rfl

theorem cD_v46 (W : Valuation τ sig (Elt F)) :
    after (cD (F := F)) W (Proc.devRef .tc main_v46) = tlR (W (Proc.devRef .tc main_v38)) (W (Proc.devRef .tc main_v41)) := by
  unfold cD; after_results_simp <;> rfl

theorem cD_keep_v3 (W : Valuation τ sig (Elt F)) :
    after (cD (F := F)) W (Proc.devRef .tc main_v3) = W (Proc.devRef .tc main_v3) := by
  unfold cD; after_results_simp <;> rfl

theorem cD_keep_v5 (W : Valuation τ sig (Elt F)) :
    after (cD (F := F)) W (Proc.devRef .tc main_v5) = W (Proc.devRef .tc main_v5) := by
  unfold cD; after_results_simp <;> rfl

theorem cD_keep_v27 (W : Valuation τ sig (Elt F)) :
    after (cD (F := F)) W (Proc.devRef .tc main_v27) = W (Proc.devRef .tc main_v27) := by
  unfold cD; after_results_simp <;> rfl

theorem cE_v68 (W : Valuation τ sig (Elt F)) :
    after (cE (F := F)) W (Proc.devRef .tc main_v68) = chR (W (Proc.devRef .tc main_v3)) (W (Proc.devRef .tc main_v5)) := by
  unfold cE; after_results_simp <;> rfl

theorem cE_keep_v27 (W : Valuation τ sig (Elt F)) :
    after (cE (F := F)) W (Proc.devRef .tc main_v27) = W (Proc.devRef .tc main_v27) := by
  unfold cE; after_results_simp <;> rfl

theorem cE_keep_v46 (W : Valuation τ sig (Elt F)) :
    after (cE (F := F)) W (Proc.devRef .tc main_v46) = W (Proc.devRef .tc main_v46) := by
  unfold cE; after_results_simp <;> rfl

theorem cF_v85 (W : Valuation τ sig (Elt F)) :
    after (cF (F := F)) W (Proc.devRef .tc main_v85) = broadcastInDim S1 ![] bcast_S_S1 (mean8R (totR (W (Proc.devRef .tc main_v27)) (W (Proc.devRef .tc main_v46)) (W (Proc.devRef .tc main_v68)))) := by
  unfold cF; after_results_simp <;> rfl

theorem cF_v86 (W : Valuation τ sig (Elt F)) :
    after (cF (F := F)) W (Proc.devRef .tc main_v86) = broadcastInDim S1 ![] bcast_S_S1 (mean8R (W (Proc.devRef .tc main_v27))) := by
  unfold cF; after_results_simp <;> rfl

theorem cF_v87 (W : Valuation τ sig (Elt F)) :
    after (cF (F := F)) W (Proc.devRef .tc main_v87) = broadcastInDim S1 ![] bcast_S_S1 (mean8R (W (Proc.devRef .tc main_v46))) := by
  unfold cF; after_results_simp <;> rfl

theorem cF_v88 (W : Valuation τ sig (Elt F)) :
    after (cF (F := F)) W (Proc.devRef .tc main_v88) = broadcastInDim S1 ![] bcast_S_S1 (mean8R (W (Proc.devRef .tc main_v68))) := by
  unfold cF; after_results_simp <;> rfl

theorem cG_v89 (W : Valuation τ sig (Elt F)) :
    after (cG (F := F)) W (Proc.devRef .tc main_v89) = concatenate S4 0 [⟨S1, (W (Proc.devRef .tc main_v85))⟩, ⟨S1, (W (Proc.devRef .tc main_v86))⟩, ⟨S1, (W (Proc.devRef .tc main_v87))⟩, ⟨S1, (W (Proc.devRef .tc main_v88))⟩] concatenates_S1_S1_S1_S1_S4_d0 := by
  unfold cG; after_results; rfl

/-! ## The whole run -/

/-- The result buffer after all the operations, from any contents: the stage functions composed. -/
theorem after_ops_v89 (W : Valuation τ sig (Elt F)) :
    after (ValueP.ops (F := F)) W (Proc.devRef .tc main_v89)
      = tailR (chR (predR (W (Proc.devRef .tc main_arg0)) (W (Proc.devRef .tc main_arg2))) (W (Proc.devRef .tc main_arg3))) (s1R (W (Proc.devRef .tc main_arg0)) (W (Proc.devRef .tc main_arg1))) (s2R (W (Proc.devRef .tc main_arg0)) (W (Proc.devRef .tc main_arg1)))
          (chR (predR (W (Proc.devRef .tc main_arg0)) (W (Proc.devRef .tc main_arg2))) (predR (W (Proc.devRef .tc main_arg1)) (W (Proc.devRef .tc main_arg2)))) := by
  rw [ops_split]
  simp only [after_append']
  rw [cG_v89, cF_v85, cF_v86, cF_v87, cF_v88, cE_v68, cE_keep_v27, cE_keep_v46, cD_v46, cD_keep_v3, cD_keep_v5, cD_keep_v27, cC_v38, cC_v41, cC_keep_v3, cC_keep_v5, cC_keep_v27, cB_v27, cB_keep_v3, cB_keep_v5, cB_keep_arg0, cB_keep_arg1, cA_v3, cA_v5, cA_keep_arg0, cA_keep_arg1, cA_keep_arg3]
  rfl

theorem after_ops_arg0 (W : Valuation τ sig (Elt F)) :
    after (ValueP.ops (F := F)) W (Proc.devRef .tc main_arg0) = W (Proc.devRef .tc main_arg0) := by
  after_results_simp <;> rfl

theorem after_ops_arg1 (W : Valuation τ sig (Elt F)) :
    after (ValueP.ops (F := F)) W (Proc.devRef .tc main_arg1) = W (Proc.devRef .tc main_arg1) := by
  after_results_simp <;> rfl

theorem after_ops_arg2 (W : Valuation τ sig (Elt F)) :
    after (ValueP.ops (F := F)) W (Proc.devRef .tc main_arg2) = W (Proc.devRef .tc main_arg2) := by
  after_results_simp <;> rfl

theorem after_ops_arg3 (W : Valuation τ sig (Elt F)) :
    after (ValueP.ops (F := F)) W (Proc.devRef .tc main_arg3) = W (Proc.devRef .tc main_arg3) := by
  after_results_simp <;> rfl

/-- On every device, at any float instance, from any memory with zero counters: every weakly fair execution of the
    reference terminates with its result the stage functions composed over the arguments, and the arguments unchanged. -/
theorem ref_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v89)
        = tailR (chR (predR (m ((c.tc : Thread nD τ).loc main_arg0)) (m ((c.tc : Thread nD τ).loc main_arg2))) (m ((c.tc : Thread nD τ).loc main_arg3)))
            (s1R (m ((c.tc : Thread nD τ).loc main_arg0)) (m ((c.tc : Thread nD τ).loc main_arg1))) (s2R (m ((c.tc : Thread nD τ).loc main_arg0)) (m ((c.tc : Thread nD τ).loc main_arg1)))
            (chR (predR (m ((c.tc : Thread nD τ).loc main_arg0)) (m ((c.tc : Thread nD τ).loc main_arg2))) (predR (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v89).trans (after_ops_v89 (launchContents m c)),
       (h c main_arg0).trans (after_ops_arg0 (launchContents m c)),
       (h c main_arg1).trans (after_ops_arg1 (launchContents m c)),
       (h c main_arg2).trans (after_ops_arg2 (launchContents m c)),
       (h c main_arg3).trans (after_ops_arg3 (launchContents m c))⟩)
    (ValueP.run_after m ρ)

end Cert.ReferenceIdeal.Hand

end
-- ==== Proof.Ref.Read.lean ====
/-
  The reference's stage functions read at an index, at the ideal instance (a float an extended real, every operation
  the exact textbook one): the table of squared distances entry by entry, the chamfer value of two clouds per batch
  as the mean of the rows' minima plus the mean of the columns' minima.
-/
import proofs.«166136_j14345190769122_1_alg».proof.Proof.Ref.Stages
import proofs.«166136_j14345190769122_1_alg».proof.Proof.SpecIdeal
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.PureOps.Reduce

set_option maxRecDepth 16384

noncomputable section

namespace Cert.ReferenceIdeal.Hand

open Idealize.ShloMosaic Idealize.ShloMosaic.ValueIdx Cert.ReferenceIdeal Cert.ReferenceIdeal.Gen Cert.Spec
open scoped BigOperators

/-! ## Index facts -/

theorem red_d2_3 : S8x4096x3.Reduces [2] S8x4096 := by decide
theorem red_d2 : S8x4096x4096.Reduces [2] S8x4096 := by decide
theorem red_d1 : S8x4096x4096.Reduces [1] S8x4096 := by decide
theorem red_row : S8x4096.Reduces [1] S8 := by decide

/-- The dot's contraction shape has one axis … -/
theorem dot_contr_rank : dot_S8x4096x3_S8x4096x3_S8x4096x4096_2_2_1_1_0_0.contr.rank = 1 := rfl
/-- … of extent 3. -/
theorem dot_contr_size : dot_S8x4096x3_S8x4096x3_S8x4096x4096_2_2_1_1_0_0.contr.size ⟨0, by rw [dot_contr_rank]; exact Nat.one_pos⟩ = 3 := rfl

/-! ## The table of squared distances -/

/-- The squared norm of point `n` of batch `b`: the sum of the squares of its three coordinates. -/
theorem sqnR_apply (X : Vec Ideal S8x4096x3 .f32) (b : Fin 8) (n : Fin 4096) :
    sqnR (F := Ideal) X (ix2 b n) = ∑ d : Fin 3, X (ix3 b n d) * X (ix3 b n d) := by
  unfold sqnR
  refine (Ideal.hostReduceAdd_single reducesTo_S8x4096x3_S8x4096_d2 red_d2_3 (mulf X X : FVec Ideal S8x4096x3 .f32) _ (ix2 b n)).trans ?_
  rw [show (constant (F := Ideal) S_ .f32 0x00000000#32) (Shape.Idx.first h_S_) = 0 from Ideal.ofBits_zero_f32, zero_add]
  refine Finset.sum_congr rfl fun d _ => congrArg (mulf X X : FVec Ideal S8x4096x3 .f32) ?_
  funext c
  refine Fin.ext ?_
  match c with
  | ⟨0, _⟩ => rfl
  | ⟨1, _⟩ => rfl
  | ⟨2, _⟩ => rfl

/-- The batched product of two clouds over their coordinate axes, at (b, n, mm): the inner product of point `n` of the
    first and point `mm` of the second. -/
theorem dotR_apply (X Y : Vec Ideal S8x4096x3 .f32) (b : Fin 8) (n mm : Fin 4096) :
    Host.dotGeneral (F := Ideal) (φ₁ := .f32) (φ₂ := .f32) dot_S8x4096x3_S8x4096x3_S8x4096x4096_2_2_1_1_0_0 none X Y (ix3 b n mm)
      = ∑ d : Fin 3, X (ix3 b n d) * Y (ix3 b mm d) := by
  refine (Ideal.dotGeneral_apply dot_S8x4096x3_S8x4096x3_S8x4096x4096_2_2_1_1_0_0 none .single X Y (ix3 b n mm)).trans ?_
  refine (Equiv.sum_comp (contrEquiv1 dot_S8x4096x3_S8x4096x3_S8x4096x4096_2_2_1_1_0_0 3 dot_contr_rank dot_contr_size).symm _).symm.trans ?_
  refine Finset.sum_congr rfl fun d _ => ?_
  refine congrArg₂ (· * ·) (congrArg X ?_) (congrArg Y ?_)
  · funext c
    refine Fin.ext ?_
    match c with
    | ⟨0, _⟩ => rfl
    | ⟨1, _⟩ => rfl
    | ⟨2, _⟩ =>
      exact (dot_S8x4096x3_S8x4096x3_S8x4096x4096_2_2_1_1_0_0.lhsIdx_val_of_single rfl _ _).trans
        (contrEquiv1_symm_val dot_S8x4096x3_S8x4096x3_S8x4096x4096_2_2_1_1_0_0 3 dot_contr_rank dot_contr_size d)
  · funext c
    refine Fin.ext ?_
    match c with
    | ⟨0, _⟩ => rfl
    | ⟨1, _⟩ => rfl
    | ⟨2, _⟩ =>
      exact (dot_S8x4096x3_S8x4096x3_S8x4096x4096_2_2_1_1_0_0.rhsIdx_val_of_single rfl _ _).trans
        (contrEquiv1_symm_val dot_S8x4096x3_S8x4096x3_S8x4096x4096_2_2_1_1_0_0 3 dot_contr_rank dot_contr_size d)

/-- The rows' squared norms spread over the table: at (b, n, mm), the norm of point `n`. -/
theorem bcastRow_apply (v : Vec Ideal S8x4096 .f32) (b : Fin 8) (n mm : Fin 4096) :
    broadcastInDim S8x4096x4096 ![0, 1, 2] bcast_S8x4096x1_S8x4096x4096_0_1_2
        (broadcastInDim S8x4096x1 ![0, 1] bcast_S8x4096_S8x4096x1_0_1 v) (ix3 b n mm) = v (ix2 b n) := by
  refine (broadcastInDim_apply ![0, 1, 2] bcast_S8x4096x1_S8x4096x4096_0_1_2 _ (ix3 b n mm) (ix3 b n (0 : Fin 1)) fun a => ?_).trans ?_
  · match a with
    | ⟨0, _⟩ => rfl
    | ⟨1, _⟩ => rfl
    | ⟨2, _⟩ => rfl
  · refine broadcastInDim_apply ![0, 1] bcast_S8x4096_S8x4096x1_0_1 v (ix3 b n (0 : Fin 1)) (ix2 b n) fun a => ?_
    match a with
    | ⟨0, _⟩ => rfl
    | ⟨1, _⟩ => rfl

/-- The columns' squared norms spread over the table: at (b, n, mm), the norm of point `mm`. -/
theorem bcastCol_apply (v : Vec Ideal S8x4096 .f32) (b : Fin 8) (n mm : Fin 4096) :
    broadcastInDim S8x4096x4096 ![0, 1, 2] bcast_S8x1x4096_S8x4096x4096_0_1_2
        (broadcastInDim S8x1x4096 ![0, 2] bcast_S8x4096_S8x1x4096_0_2 v) (ix3 b n mm) = v (ix2 b mm) := by
  refine (broadcastInDim_apply ![0, 1, 2] bcast_S8x1x4096_S8x4096x4096_0_1_2 _ (ix3 b n mm) (ix3 b (0 : Fin 1) mm) fun a => ?_).trans ?_
  · match a with
    | ⟨0, _⟩ => rfl
    | ⟨1, _⟩ => rfl
    | ⟨2, _⟩ => rfl
  · refine broadcastInDim_apply ![0, 2] bcast_S8x4096_S8x1x4096_0_2 v (ix3 b (0 : Fin 1) mm) (ix2 b mm) fun a => ?_
    match a with
    | ⟨0, _⟩ => rfl
    | ⟨1, _⟩ => rfl

/-- THE TABLE, entry by entry: (|x|² + |y|²) − 2·(x·y). -/
theorem distR_apply (X Y : Vec Ideal S8x4096x3 .f32) (b : Fin 8) (n mm : Fin 4096) :
    distR (F := Ideal) X Y (ix3 b n mm) = distFn X Y b n mm := by
  unfold distR distFn
  have e1 := (bcastRow_apply (sqnR X) b n mm).trans (sqnR_apply X b n)
  have e2 := (bcastCol_apply (sqnR Y) b n mm).trans (sqnR_apply Y b mm)
  have e3 : broadcastInDim S8x4096x4096 ![] bcast_S_S8x4096x4096 (constant (F := Ideal) S_ .f32 0x40000000#32) (ix3 b n mm) = two :=
    broadcastInDim_scalar_apply bcast_S_S8x4096x4096 _ _
  have e4 := dotR_apply X Y b n mm
  exact congrArg₂ (· - ·) (congrArg₂ (· + ·) e1 e2) (congrArg₂ (· * ·) e3 e4)

/-! ## The chamfer value -/

/-- The word 0x7F800000 is +∞. -/
theorem ofBits_inf : Ideal.ofBits .f32 0x7F800000#32 = ⊤ := by
  simp [Ideal.ofBits, Ideal.ieee]

/-- The fold of min from +∞ over every coordinate is the infimum over them. -/
theorem fold_min_top_eq_inf {n : Nat} (f : Fin n → EReal) :
    (Finset.univ : Finset (Fin n)).fold min (Ideal.ofBits .f32 0x7F800000#32) f = Finset.univ.inf f := by
  rw [ofBits_inf]
  rfl

/-- The minimum of a table along its last axis from +∞, at (b, n): the infimum over the columns. -/
theorem rowMinR_apply (D : Vec Ideal S8x4096x4096 .f32) (b : Fin 8) (n : Fin 4096) :
    Host.reduce FloatOps.minimumf D (constant (F := Ideal) S_ .f32 0x7F800000#32) reducesTo_S8x4096x4096_S8x4096_d2 h_S_ (ix2 b n)
      = Finset.univ.inf fun mm : Fin 4096 => D (ix3 b n mm) := by
  refine (Host.reduce_eq_fold_single (α := EReal) (FloatOps.minimumf (F := Ideal) (φ := .f32)) D _ reducesTo_S8x4096x4096_S8x4096_d2 red_d2 h_S_ (ix2 b n)).trans ?_
  refine (fold_min_top_eq_inf _).trans ?_
  refine congrArg (Finset.inf Finset.univ) (funext fun mm => congrArg D ?_)
  funext c
  refine Fin.ext ?_
  match c with
  | ⟨0, _⟩ => rfl
  | ⟨1, _⟩ => rfl
  | ⟨2, _⟩ => rfl

/-- The minimum of a table along its middle axis from +∞, at (b, mm): the infimum over the rows. -/
theorem colMinR_apply (D : Vec Ideal S8x4096x4096 .f32) (b : Fin 8) (mm : Fin 4096) :
    Host.reduce FloatOps.minimumf D (constant (F := Ideal) S_ .f32 0x7F800000#32) reducesTo_S8x4096x4096_S8x4096_d1 h_S_ (ix2 b mm)
      = Finset.univ.inf fun n : Fin 4096 => D (ix3 b n mm) := by
  refine (Host.reduce_eq_fold_single (α := EReal) (FloatOps.minimumf (F := Ideal) (φ := .f32)) D _ reducesTo_S8x4096x4096_S8x4096_d1 red_d1 h_S_ (ix2 b mm)).trans ?_
  refine (fold_min_top_eq_inf _).trans ?_
  refine congrArg (Finset.inf Finset.univ) (funext fun n => congrArg D ?_)
  funext c
  refine Fin.ext ?_
  match c with
  | ⟨0, _⟩ => rfl
  | ⟨1, _⟩ => rfl
  | ⟨2, _⟩ => rfl

/-- Zero plus the sum of an 8 × 4096 array along its second axis, divided by the word of 4096.0, at batch `b`. -/
theorem meanR_apply (v : Vec Ideal S8x4096 .f32) (b : Fin 8) :
    Host.divf (Host.reduceAdd v (constant (F := Ideal) S_ .f32 0x00000000#32) reducesTo_S8x4096_S8_d1 h_S_)
        (broadcastInDim S8 ![] bcast_S_S8 (constant (F := Ideal) S_ .f32 0x45800000#32)) (ix1 b)
      = Ideal.div (∑ n : Fin 4096, v (ix2 b n)) n4096 := by
  refine (hostDivf_apply _ _ (ix1 b)).trans ?_
  refine congrArg₂ Ideal.div ?_ (broadcastInDim_scalar_apply bcast_S_S8 _ _)
  refine (Ideal.hostReduceAdd_single reducesTo_S8x4096_S8_d1 red_row v _ (ix1 b)).trans ?_
  rw [show (constant (F := Ideal) S_ .f32 0x00000000#32) (Shape.Idx.first h_S_) = 0 from Ideal.ofBits_zero_f32, zero_add]
  refine Finset.sum_congr rfl fun n _ => congrArg v ?_
  funext c
  refine Fin.ext ?_
  match c with
  | ⟨0, _⟩ => rfl
  | ⟨1, _⟩ => rfl

/-- THE CHAMFER VALUE of two clouds at batch `b`: the mean of the rows' minima plus the mean of the columns' minima of
    the table of squared distances. -/
theorem chR_apply (X Y : Vec Ideal S8x4096x3 .f32) (b : Fin 8) :
    chR (F := Ideal) X Y (ix1 b) = chamferSpec (distFn X Y b) := by
  unfold chR chamferSpec rowMeanR colMeanR
  refine congrArg₂ (· + ·) ((meanR_apply _ b).trans ?_) ((meanR_apply _ b).trans ?_)
  · refine congrArg (fun z => Ideal.div z n4096) (Finset.sum_congr rfl fun n _ => ?_)
    refine (rowMinR_apply (distR X Y) b n).trans ?_
    exact congrArg (Finset.inf Finset.univ) (funext fun mm => distR_apply X Y b n mm)
  · refine congrArg (fun z => Ideal.div z n4096) (Finset.sum_congr rfl fun mm _ => ?_)
    refine (colMinR_apply (distR X Y) b mm).trans ?_
    exact congrArg (Finset.inf Finset.univ) (funext fun n => distR_apply X Y b n mm)

end Cert.ReferenceIdeal.Hand

end
-- ==== Proof.Ref.Tail.lean ====
/-
  The reference's tail read at an index, at the ideal instance (a float an extended real, every operation the exact one).

  The result's four entries are the four means over the batch of eight — of the total, of the chamfer value, of the
  transform term and of the chamfer value against the ground truth —, each mean zero plus the sum, divided by the float
  word of 8.0; the total is 1.0 · chamfer + 1.0 · transform term + 0.5 · chamfer against the ground truth, the transform term
  1.0 · first norm + 1.0 · second norm, the weights kept as their float words.
-/
import proofs.«166136_j14345190769122_1_alg».proof.Proof.Ref.Stages
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-- The float word of 1.0 at the ideal instance. -/
abbrev one : EReal := Ideal.ofBits .f32 0x3F800000#32
/-- The float word of 0.5 at the ideal instance. -/
abbrev half : EReal := Ideal.ofBits .f32 0x3F000000#32
/-- The float word of 8.0 at the ideal instance. -/
abbrev eight : EReal := Ideal.ofBits .f32 0x41000000#32

/-! ## The pieces at an index -/

/-- A scalar word broadcast over the batch reads the word everywhere. -/
theorem bcast8_apply (w : BitVec 32) (b : Fin 8) :
    broadcastInDim S8 ![] bcast_S_S8 (constant (F := Ideal) S_ .f32 w) (ix1 b) = Ideal.ofBits .f32 w :=
  broadcastInDim_apply _ bcast_S_S8 _ (ix1 b) ix0 (fun a => a.elim0)

/-- A scalar broadcast to a one-element vector reads the scalar. -/
theorem bcast1_apply (x : Vec Ideal S_ .f32) :
    broadcastInDim S1 ![] bcast_S_S1 x (ix1 (0 : Fin 1)) = x ix0 :=
  broadcastInDim_apply _ bcast_S_S1 x (ix1 (0 : Fin 1)) ix0 (fun a => a.elim0)

/-- The transform term at a batch: 1.0 · first norm + 1.0 · second norm. -/
theorem tlR_apply (s1 s2 : Vec Ideal S8 .f32) (b : Fin 8) :
    tlR (F := Ideal) s1 s2 (ix1 b) = one * s1 (ix1 b) + one * s2 (ix1 b) := by
  unfold tlR
  rw [addf_apply, mulf_apply, mulf_apply, bcast8_apply]

/-- The total at a batch. -/
theorem totR_apply (ch tl tch : Vec Ideal S8 .f32) (b : Fin 8) :
    totR (F := Ideal) ch tl tch (ix1 b) = (one * ch (ix1 b) + one * tl (ix1 b)) + half * tch (ix1 b) := by
  unfold totR
  rw [addf_apply, addf_apply, mulf_apply, mulf_apply, mulf_apply, bcast8_apply, bcast8_apply]

/-- The mean over the batch: zero plus the sum over the eight entries, divided by the word of 8.0. -/
theorem mean8R_apply (v : Vec Ideal S8 .f32) :
    mean8R (F := Ideal) v ix0 = Ideal.div (0 + ∑ b : Fin 8, v (ix1 b)) eight := by
  show Ideal.div (Ideal.hostReduceAdd reducesTo_S8_S_d0 v (Ideal.ofBits .f32 0x00000000#32) ix0) (Ideal.ofBits .f32 0x41000000#32) = _
  rw [Ideal.hostReduceAdd_total reducesTo_S8_S_d0 (fun b => b.elim0) v _ ix0, Ideal.ofBits_zero_f32,
    ← Equiv.sum_comp (idxEquiv1 (n := 8)).symm v]
  rfl

/-! ## The stack of four one-element pieces at each of its four indices -/

theorem stackR_apply0 (ch tl tch : Vec Ideal S8 .f32) :
    stackR (F := Ideal) ch tl tch (ix1 (0 : Fin 4)) = mean8R (F := Ideal) (totR ch tl tch) ix0 := by
  unfold stackR
  refine (concatenate_apply_piece (0 : Fin S4.rank) _ _ (ix1 (0 : Fin 4)) 0 (by show _ < 4; decide) S1 _ (by rfl) (by rfl) 0 (by rfl)
    (ix1 (0 : Fin 1)) (fun b hb => absurd (Subsingleton.elim _ _) hb) (by rfl)).trans ?_
  exact bcast1_apply _

theorem stackR_apply1 (ch tl tch : Vec Ideal S8 .f32) :
    stackR (F := Ideal) ch tl tch (ix1 (1 : Fin 4)) = mean8R (F := Ideal) ch ix0 := by
  unfold stackR
  refine (concatenate_apply_piece (0 : Fin S4.rank) _ _ (ix1 (1 : Fin 4)) 1 (by show _ < 4; decide) S1 _ (by rfl) (by rfl) 1 (by rfl)
    (ix1 (0 : Fin 1)) (fun b hb => absurd (Subsingleton.elim _ _) hb) (by rfl)).trans ?_
  exact bcast1_apply _

theorem stackR_apply2 (ch tl tch : Vec Ideal S8 .f32) :
    stackR (F := Ideal) ch tl tch (ix1 (2 : Fin 4)) = mean8R (F := Ideal) tl ix0 := by
  unfold stackR
  refine (concatenate_apply_piece (0 : Fin S4.rank) _ _ (ix1 (2 : Fin 4)) 2 (by show _ < 4; decide) S1 _ (by rfl) (by rfl) 2 (by rfl)
    (ix1 (0 : Fin 1)) (fun b hb => absurd (Subsingleton.elim _ _) hb) (by rfl)).trans ?_
  exact bcast1_apply _

theorem stackR_apply3 (ch tl tch : Vec Ideal S8 .f32) :
    stackR (F := Ideal) ch tl tch (ix1 (3 : Fin 4)) = mean8R (F := Ideal) tch ix0 := by
  unfold stackR
  refine (concatenate_apply_piece (0 : Fin S4.rank) _ _ (ix1 (3 : Fin 4)) 3 (by show _ < 4; decide) S1 _ (by rfl) (by rfl) 3 (by rfl)
    (ix1 (0 : Fin 1)) (fun b hb => absurd (Subsingleton.elim _ _) hb) (by rfl)).trans ?_
  exact bcast1_apply _

/-! ## The four results -/

/-- Entry 0: the mean of the total. -/
theorem tailR_apply0 (ch s1 s2 tch : Vec Ideal S8 .f32) :
    tailR (F := Ideal) ch s1 s2 tch (ix1 (0 : Fin 4))
      = Ideal.div (0 + ∑ b : Fin 8, ((one * ch (ix1 b) + one * (one * s1 (ix1 b) + one * s2 (ix1 b))) + half * tch (ix1 b))) eight := by
  unfold tailR
  rw [stackR_apply0, mean8R_apply]
  simp only [totR_apply, tlR_apply]

/-- Entry 1: the mean of the chamfer value. -/
theorem tailR_apply1 (ch s1 s2 tch : Vec Ideal S8 .f32) :
    tailR (F := Ideal) ch s1 s2 tch (ix1 (1 : Fin 4)) = Ideal.div (0 + ∑ b : Fin 8, ch (ix1 b)) eight := by
  unfold tailR
  rw [stackR_apply1, mean8R_apply]

/-- Entry 2: the mean of the transform term. -/
theorem tailR_apply2 (ch s1 s2 tch : Vec Ideal S8 .f32) :
    tailR (F := Ideal) ch s1 s2 tch (ix1 (2 : Fin 4))
      = Ideal.div (0 + ∑ b : Fin 8, (one * s1 (ix1 b) + one * s2 (ix1 b))) eight := by
  unfold tailR
  rw [stackR_apply2, mean8R_apply]
  simp only [tlR_apply]

/-- Entry 3: the mean of the chamfer value against the ground truth. -/
theorem tailR_apply3 (ch s1 s2 tch : Vec Ideal S8 .f32) :
    tailR (F := Ideal) ch s1 s2 tch (ix1 (3 : Fin 4)) = Ideal.div (0 + ∑ b : Fin 8, tch (ix1 b)) eight := by
  unfold tailR
  rw [stackR_apply3, mean8R_apply]

end Cert.ReferenceIdeal.Hand

end
-- ==== Proof.Bridge.lean ====
/-
  The two programs' results are the same four numbers.

  The reference's result is its tail applied to its two chamfer values and its two matrix norms; the kernel's is its
  tail applied to the region's two result columns and the same two norms.  The transformed clouds and the norms are
  the same host operations in both programs.  The kernel's result columns hold, per batch, the mean of the rows'
  minima plus the mean of the columns' minima of the full table of squared distances — which is what the reference's
  chamfer value is.  The tails differ only by the reference's three weights 1.0, and 1 · x = x on the extended reals.
-/
import proofs.«166136_j14345190769122_1_alg».proof.Proof.KI.KernelValue
import proofs.«166136_j14345190769122_1_alg».proof.Proof.Ref.Value
import proofs.«166136_j14345190769122_1_alg».proof.Proof.Ref.Read
import proofs.«166136_j14345190769122_1_alg».proof.Proof.Ref.Tail
import Mathlib.Tactic.NormNum

noncomputable section

namespace Cert.Bridge

open Idealize.ShloMosaic Idealize.ShloMosaic.ValueIdx Idealize.ShloMosaic.TcCoe Idealize.SL.Sem Cert.Spec
open scoped BigOperators

variable [hK : Cert.KernelIdeal.Facts] [hR : Cert.ReferenceIdeal.Facts]

/-! ## The shared host operations are the same functions (at any float instance) -/

section Shared
variable {F : FTy → Type} [FloatOps F]

/-- The transformed cloud is the same function of a matrix batch and a cloud in both programs. -/
theorem pred_eq (a : Vec F Cert.KernelIdeal.S8x4x4 .f32) (a2 : Vec F Cert.KernelIdeal.S8x4096x3 .f32) :
    Cert.KernelIdeal.Hand.predK a a2 = Cert.ReferenceIdeal.Hand.predR a a2 := rfl

/-- So is the norm of the difference of the 3 x 3 blocks, -/
theorem s1_eq (a0 a1 : Vec F Cert.KernelIdeal.S8x4x4 .f32) : Cert.KernelIdeal.Hand.s1K a0 a1 = Cert.ReferenceIdeal.Hand.s1R a0 a1 := rfl

/-- and the norm of the difference of the translation columns. -/
theorem s2_eq (a0 a1 : Vec F Cert.KernelIdeal.S8x4x4 .f32) : Cert.KernelIdeal.Hand.s2K a0 a1 = Cert.ReferenceIdeal.Hand.s2R a0 a1 := rfl

end Shared

/-- The float word of 1.0 denotes 1. -/
theorem ofBits_one : Ideal.ofBits .f32 0x3F800000#32 = (1 : EReal) := by
  simp [Ideal.ofBits, Ideal.ieee, -EReal.coe_mul]; norm_num

variable (m : (ℓ : Loc Cert.KernelIdeal.nD Cert.KernelIdeal.τ Cert.KernelIdeal.sig) → Buf (Elt Ideal) ℓ)

/-- The kernel's four results: its tail at the region's two result columns and the two norms. -/
abbrev kernelOut (c : Dev Cert.KernelIdeal.nD) : Vec Ideal Cert.KernelIdeal.S4 .f32 :=
  Cert.KernelIdeal.Hand.tailK ((Cert.KernelIdeal.Hand.dats m 0 c).arrAt 3 Cert.KernelIdeal.cfg0.N) ((Cert.KernelIdeal.Hand.dats m 0 c).arrAt 4 Cert.KernelIdeal.cfg0.N)
    (Cert.KernelIdeal.Hand.s1K (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.KernelIdeal.Hand.s2K (m ((c.tc : Thread Cert.KernelIdeal.nD Cert.KernelIdeal.τ).loc Cert.KernelIdeal.main_arg0)) (m ((c.tc : Thread Cert.KernelIdeal.nD Cert.KernelIdeal.τ).loc Cert.KernelIdeal.main_arg1)))

/-- The reference's first chamfer value is the kernel's first result column: both are the mean of the rows' minima
    plus the mean of the columns' minima of the distances between the transformed cloud and the target. -/
theorem hch (c : Dev Cert.KernelIdeal.nD) (b : Fin 8) :
    (Cert.ReferenceIdeal.Hand.chR (Cert.ReferenceIdeal.Hand.predR (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3))) (ix1 b) = ((Cert.KernelIdeal.Hand.dats m 0 c).arrAt 3 Cert.KernelIdeal.cfg0.N) (ix2 b (0 : Fin 1)) :=
  (Cert.ReferenceIdeal.Hand.chR_apply _ _ b).trans
    ((congrArg₂ (fun X Y => chamferSpec (distFn X Y b))
        ((pred_eq _ _).symm.trans (Cert.KernelIdeal.Hand.V_main_v3 m c).symm) (Cert.KernelIdeal.Hand.V_main_arg3 m c).symm).trans
      (Cert.KernelIdeal.Hand.final3 m c b 0).symm)

/-- The second chamfer value, against the cloud transformed by the second matrix batch, likewise. -/
theorem htch (c : Dev Cert.KernelIdeal.nD) (b : Fin 8) :
    (Cert.ReferenceIdeal.Hand.chR (Cert.ReferenceIdeal.Hand.predR (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.ReferenceIdeal.Hand.predR (m ((c.tc : Thread Cert.KernelIdeal.nD Cert.KernelIdeal.τ).loc Cert.KernelIdeal.main_arg1)) (m ((c.tc : Thread Cert.KernelIdeal.nD Cert.KernelIdeal.τ).loc Cert.KernelIdeal.main_arg2)))) (ix1 b) = ((Cert.KernelIdeal.Hand.dats m 0 c).arrAt 4 Cert.KernelIdeal.cfg0.N) (ix2 b (0 : Fin 1)) :=
  (Cert.ReferenceIdeal.Hand.chR_apply _ _ b).trans
    ((congrArg₂ (fun X Y => chamferSpec (distFn X Y b))
        ((pred_eq _ _).symm.trans (Cert.KernelIdeal.Hand.V_main_v3 m c).symm) ((pred_eq _ _).symm.trans (Cert.KernelIdeal.Hand.V_main_v5 m c).symm)).trans
      (Cert.KernelIdeal.Hand.final4 m c b 0).symm)

/-- Result 0 of the two programs is the same number. -/
theorem out0 (c : Dev Cert.KernelIdeal.nD) :
    Cert.ReferenceIdeal.Hand.tailR (F := Ideal) (Cert.ReferenceIdeal.Hand.chR (Cert.ReferenceIdeal.Hand.predR (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3))) (Cert.ReferenceIdeal.Hand.s1R (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.Hand.s2R (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.Hand.chR (Cert.ReferenceIdeal.Hand.predR (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.ReferenceIdeal.Hand.predR (m ((c.tc : Thread Cert.KernelIdeal.nD Cert.KernelIdeal.τ).loc Cert.KernelIdeal.main_arg1)) (m ((c.tc : Thread Cert.KernelIdeal.nD Cert.KernelIdeal.τ).loc Cert.KernelIdeal.main_arg2)))) (ix1 (0 : Fin 4)) = kernelOut m c (ix1 (0 : Fin 4)) := by
  rw [Cert.ReferenceIdeal.Hand.tailR_apply0]
  refine Eq.trans ?_ (Cert.KernelIdeal.Hand.tailK_apply0 _ _ _ _).symm
  refine congrArg (fun s : EReal => Ideal.div (0 + s) Cert.KernelIdeal.Hand.eight) (Finset.sum_congr rfl fun b _ => ?_)
  rw [hch m c b, htch m c b, ← s1_eq, ← s2_eq]
  simp only [Cert.ReferenceIdeal.Hand.one, ofBits_one, one_mul]

/-- Result 1 of the two programs is the same number. -/
theorem out1 (c : Dev Cert.KernelIdeal.nD) :
    Cert.ReferenceIdeal.Hand.tailR (F := Ideal) (Cert.ReferenceIdeal.Hand.chR (Cert.ReferenceIdeal.Hand.predR (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3))) (Cert.ReferenceIdeal.Hand.s1R (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.Hand.s2R (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.Hand.chR (Cert.ReferenceIdeal.Hand.predR (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.ReferenceIdeal.Hand.predR (m ((c.tc : Thread Cert.KernelIdeal.nD Cert.KernelIdeal.τ).loc Cert.KernelIdeal.main_arg1)) (m ((c.tc : Thread Cert.KernelIdeal.nD Cert.KernelIdeal.τ).loc Cert.KernelIdeal.main_arg2)))) (ix1 (1 : Fin 4)) = kernelOut m c (ix1 (1 : Fin 4)) := by
  rw [Cert.ReferenceIdeal.Hand.tailR_apply1]
  refine Eq.trans ?_ (Cert.KernelIdeal.Hand.tailK_apply1 _ _ _ _).symm
  refine congrArg (fun s : EReal => Ideal.div (0 + s) Cert.KernelIdeal.Hand.eight) (Finset.sum_congr rfl fun b _ => ?_)
  rw [hch m c b]

/-- Result 2 of the two programs is the same number. -/
theorem out2 (c : Dev Cert.KernelIdeal.nD) :
    Cert.ReferenceIdeal.Hand.tailR (F := Ideal) (Cert.ReferenceIdeal.Hand.chR (Cert.ReferenceIdeal.Hand.predR (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3))) (Cert.ReferenceIdeal.Hand.s1R (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.Hand.s2R (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.Hand.chR (Cert.ReferenceIdeal.Hand.predR (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.ReferenceIdeal.Hand.predR (m ((c.tc : Thread Cert.KernelIdeal.nD Cert.KernelIdeal.τ).loc Cert.KernelIdeal.main_arg1)) (m ((c.tc : Thread Cert.KernelIdeal.nD Cert.KernelIdeal.τ).loc Cert.KernelIdeal.main_arg2)))) (ix1 (2 : Fin 4)) = kernelOut m c (ix1 (2 : Fin 4)) := by
  rw [Cert.ReferenceIdeal.Hand.tailR_apply2]
  refine Eq.trans ?_ (Cert.KernelIdeal.Hand.tailK_apply2 _ _ _ _).symm
  refine congrArg (fun s : EReal => Ideal.div (0 + s) Cert.KernelIdeal.Hand.eight) (Finset.sum_congr rfl fun b _ => ?_)
  rw [← s1_eq, ← s2_eq]
  simp only [Cert.ReferenceIdeal.Hand.one, ofBits_one, one_mul]

/-- Result 3 of the two programs is the same number. -/
theorem out3 (c : Dev Cert.KernelIdeal.nD) :
    Cert.ReferenceIdeal.Hand.tailR (F := Ideal) (Cert.ReferenceIdeal.Hand.chR (Cert.ReferenceIdeal.Hand.predR (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3))) (Cert.ReferenceIdeal.Hand.s1R (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.Hand.s2R (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.Hand.chR (Cert.ReferenceIdeal.Hand.predR (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.ReferenceIdeal.Hand.predR (m ((c.tc : Thread Cert.KernelIdeal.nD Cert.KernelIdeal.τ).loc Cert.KernelIdeal.main_arg1)) (m ((c.tc : Thread Cert.KernelIdeal.nD Cert.KernelIdeal.τ).loc Cert.KernelIdeal.main_arg2)))) (ix1 (3 : Fin 4)) = kernelOut m c (ix1 (3 : Fin 4)) := by
  rw [Cert.ReferenceIdeal.Hand.tailR_apply3]
  refine Eq.trans ?_ (Cert.KernelIdeal.Hand.tailK_apply3 _ _ _ _).symm
  refine congrArg (fun s : EReal => Ideal.div (0 + s) Cert.KernelIdeal.Hand.eight) (Finset.sum_congr rfl fun b _ => ?_)
  rw [htch m c b]

/-- THE BRIDGE: the reference's result, computed from the kernel's arguments, is the kernel's. -/
theorem ref_eq_kernel (c : Dev Cert.KernelIdeal.nD) :
    Cert.ReferenceIdeal.Hand.tailR (F := Ideal) (Cert.ReferenceIdeal.Hand.chR (Cert.ReferenceIdeal.Hand.predR (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3))) (Cert.ReferenceIdeal.Hand.s1R (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.Hand.s2R (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.Hand.chR (Cert.ReferenceIdeal.Hand.predR (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.ReferenceIdeal.Hand.predR (m ((c.tc : Thread Cert.KernelIdeal.nD Cert.KernelIdeal.τ).loc Cert.KernelIdeal.main_arg1)) (m ((c.tc : Thread Cert.KernelIdeal.nD Cert.KernelIdeal.τ).loc Cert.KernelIdeal.main_arg2)))) = kernelOut m c := by
  refine funext fun j => ?_
  obtain ⟨k, rfl⟩ : ∃ k : Fin 4, j = ix1 k := ⟨j 0, eq_ix1 j⟩
  match k with
  | ⟨0, _⟩ => exact out0 m c
  | ⟨1, _⟩ => exact out1 m c
  | ⟨2, _⟩ => exact out2 m c
  | ⟨3, _⟩ => exact out3 m c

end Cert.Bridge

end
-- ==== Proof.lean ====
/-
  The certificate of `Cert.Claim`: the tiled chamfer kernel against its jnp reference, over the extended reals.

  Both programs first transform the source cloud by each of the two 4 x 4 matrices (the same host operations), then
  compute, for the pairs (transformed-by-the-first, target) and (transformed-by-the-first, transformed-by-the-second),
  per batch the squared distances |x|² + |y|² − 2 x·y of all 4096 x 4096 point pairs, the mean over the rows of each
  row's smallest distance plus the mean over the columns of each column's smallest distance; a term from the two
  matrices alone (the same host operations again); and four means over the eight batches, stacked.

  The reference takes each minimum over a whole row or column at once.  The kernel visits the table in 16 x 16 tiles of
  256 x 256 and keeps four running minima (8 x 4096 each) in scratch buffers across its 256 grid points: started at
  the largest value at the first point, each lowered on one slice of 256 entries at every point by that tile's own
  minima, read out (summed, divided by 4096) at the last point.  On a linear order with a largest element the minimum
  over the tiles of the tiles' minima is the minimum over everything, so after the last tile the running minima are
  the reference's; no arithmetic law is needed for that and no finiteness.  The reference multiplies three of its terms
  by the weight 1.0, which is 1 on the extended reals.

  The frames: the word-level kernel and its idealization are one text, run point by point by the same three cases
  (first point: the four buffers are initialised, then updated; last point: updated, then read out into the two
  result blocks; every other point: updated), the buffers' contents carried in the region's invariant; the reference
  is a straight line of host operations.  The idealization rewrote nothing, so `preserves` is `True`.
-/
import proofs.«166136_j14345190769122_1_alg».proof.Defs
import proofs.«166136_j14345190769122_1_alg».proof.Proof.Gen.Kernel
import proofs.«166136_j14345190769122_1_alg».proof.Proof.Gen.KernelIdeal
import proofs.«166136_j14345190769122_1_alg».proof.Proof.Gen.ReferenceIdeal
import proofs.«166136_j14345190769122_1_alg».proof.Proof.Gen.Pre_finite_inputs
import proofs.«166136_j14345190769122_1_alg».proof.Proof.K.Frame
import proofs.«166136_j14345190769122_1_alg».proof.Proof.KI.Frame
import proofs.«166136_j14345190769122_1_alg».proof.Proof.Bridge
import Idealize.ShloMosaic.Adequacy
import Idealize.ShloMosaic.Init

noncomputable section

namespace Cert.Proof

open Idealize.ShloMosaic Idealize.SL.Sem

/-- The word-level kernel runs to its end, faults nowhere and leaves its four arguments as they were. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Hand.ref_run (F := Ideal) m ρ)

/-- From memories that agree on the four arguments both programs end with the same four numbers. -/
theorem algebraic : Cert.algebraic_KernelIdeal_ReferenceIdeal := by
  intro m ρ m' ρ' _ hagree
  refine ⟨fun c => Cert.Bridge.kernelOut m c, Cert.KernelIdeal.Hand.run_value (F := Ideal) m ρ, ?_⟩
  refine (θ_run Cert.ReferenceIdeal.defs _ _).mono (fun _ h c => ⟨(h c).1.trans ?_, (h c).2⟩)
    (Cert.ReferenceIdeal.Hand.ref_run (F := Ideal) m' ρ')
  rw [(hagree c).1, (hagree c).2.1, (hagree c).2.2.1, (hagree c).2.2.2]
  exact Cert.Bridge.ref_eq_kernel m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
